-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x128 .f32) (main_arg10 : FVec F S128 .f32) (main_arg11 : FVec F S128x1 .f32) (main_arg12 : FVec F S1 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x64 .f32) (main_arg8 : FVec F S64 .f32) (main_arg9 : FVec F S64x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S512 : Shape := ⟨1, ![512]⟩
abbrev S512x1 : Shape := ⟨2, ![512, 1]⟩
abbrev S512x128 : Shape := ⟨2, ![512, 128]⟩
abbrev S2000x128 : Shape := ⟨2, ![2000, 128]⟩
abbrev S2000x1 : Shape := ⟨2, ![2000, 1]⟩
abbrev S1x512 : Shape := ⟨2, ![1, 512]⟩
abbrev S2000x512 : Shape := ⟨2, ![2000, 512]⟩
abbrev S1x64 : Shape := ⟨2, ![1, 64]⟩
abbrev S1x1 : Shape := ⟨2, ![1, 1]⟩
abbrev S512x64 : Shape := ⟨2, ![512, 64]⟩

abbrev nBuf : Space → Nat
  | .hbm => 82
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x128, .f32⟩
  | .hbm, ⟨48, _⟩ => ⟨S_, .f32⟩
  | .hbm, ⟨49, _⟩ => ⟨S50000x128, .f32⟩
  | .hbm, ⟨50, _⟩ => ⟨S850000x1, .i32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S512, .f32⟩
  | .hbm, ⟨71, _⟩ => ⟨S50000x1, .i32⟩
  | .hbm, ⟨72, _⟩ => ⟨S512, .f32⟩
  | .hbm, ⟨73, _⟩ => ⟨S512x1, .f32⟩
  | .hbm, ⟨74, _⟩ => ⟨S1x128, .f32⟩
  | .hbm, ⟨75, _⟩ => ⟨S50000x1, .i32⟩
  | .hbm, ⟨76, _⟩ => ⟨S512x128, .f32⟩
  | .hbm, ⟨77, _⟩ => ⟨S1x64, .f32⟩
  | .hbm, ⟨78, _⟩ => ⟨S1x128, .f32⟩
  | .hbm, ⟨79, _⟩ => ⟨S1x1, .f32⟩
  | .hbm, ⟨80, _⟩ => ⟨S512x128, .f32⟩
  | .hbm, ⟨81, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S2000x1, .i32⟩
  | .local _ .vmem, ⟨21, _⟩ => ⟨S2000x1, .i32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x1, .f32⟩
  | .local _ .vmem, ⟨26, _⟩ => ⟨S128x64, .f32⟩
  | .local _ .vmem, ⟨27, _⟩ => ⟨S1x64, .f32⟩
  | .local _ .vmem, ⟨28, _⟩ => ⟨S64x128, .f32⟩
  | .local _ .vmem, ⟨29, _⟩ => ⟨S1x128, .f32⟩
  | .local _ .vmem, ⟨30, _⟩ => ⟨S128x1, .f32⟩
  | .local _ .vmem, ⟨31, _⟩ => ⟨S1x1, .f32⟩
  | .local _ .vmem, ⟨32, _⟩ => ⟨S512x128, .f32⟩
  | .local _ .vmem, ⟨33, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52_0 : Ref sig .tc := ⟨.hbm, 80, rfl⟩
abbrev main_v52_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_13 : BitVec 32 := 0#32
  let v33 : BitVec 1 := Scalar.cmpi .ne v32 c0_i32_13
  v33

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512 : S_.BroadcastsInDim S512 (![] : Fin 0 → Fin S512.rank)
  bcast_S50000_S50000x1_0 : S50000.BroadcastsInDim S50000x1 (![0] : Fin 1 → Fin S50000x1.rank)
  shapeCasts_S512_S512x1 : S512.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  iota_S1x512_d1_w32 : S1x512.Iotas .tc 32 [1]
  broadcasts_S2000x1_S2000x512 : S2000x1.Broadcasts S2000x512
  broadcasts_S1x512_S2000x512 : S1x512.Broadcasts S2000x512
  natLt_1_32 : 1 < 32
  shapeCasts_S64_S1x64 : S64.ShapeCasts S1x64
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x128_S64x128_0_0 : ∀ a, (![0, 0] : Fin 2 → Nat) a + S64x128.size a ≤ S64x128.size a
  h_S64x128 : 0 < S64x128.numel
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512_S50000x1_S50000_n_0_0_1_wf : ScatterDims.WF S512 S50000x1 S50000 [] [0] [0] 1
  dot_S2000x512_S2000x128_S512x128_0_0_1_1_n_n_wf : DotDims.WF S2000x512 S2000x128 S512x128 [0] [0] [1] [1] [] []
  dot_S512x128_S128x64_S512x64_1_0_0_1_n_n_wf : DotDims.WF S512x128 S128x64 S512x64 [1] [0] [0] [1] [] []
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .i32 = 32 ∨ (Rect.block (s := S50000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S512x128.size a
  hwx2_4 : ∀ i : grid2.Coords, EltTy.bits .f32 = 32 ∨ (Rect.block (s := S512x128) S512x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1.size a ≤ S512x1.size a
  hwx3_1 : ∀ i : grid3.Coords, EltTy.bits .f32 = 32 ∨ (Rect.block (s := S512x1) S512x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x128.size a ≤ S64x128.size a
  hwx3_4 : ∀ i : grid3.Coords, EltTy.bits .f32 = 32 ∨ (Rect.block (s := S64x128) S64x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x1.size a ≤ S128x1.size a
  hwx3_6 : ∀ i : grid3.Coords, EltTy.bits .f32 = 32 ∨ (Rect.block (s := S128x1) S128x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512x128.size a ≤ S512x128.size a
  hwx3_8 : ∀ i : grid3.Coords, EltTy.bits .f32 = 32 ∨ (Rect.block (s := S512x128) S512x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S512x1.size a ≤ S512x1.size a
  hwx3_9 : ∀ i : grid3.Coords, EltTy.bits .f32 = 32 ∨ (Rect.block (s := S512x1) S512x1.size (cc3_transform_9 i) (hinb3_9 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v48) S512x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v48) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v45) S512x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S64x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S128x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v51) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v52_0) S512x128.size cc3_transform_8 reads3_8 true true 1 stage3_8 sem3_8
    hrank3 hreads3_8 hinb3_8 nbuf3_8 (Memref.isWhole_whole _) hwx3_8 hstage3_8

abbrev win3_9 : Pipeline.Window sig grid3 :=
  Pipeline.Window.ofSpec (Memref.whole main_v52_1) S512x1.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x64 : Shape := ⟨2, ![512, 64]⟩
abbrev S1x64 : Shape := ⟨2, ![1, 64]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x128, .f32⟩
  | 10 => ⟨S128, .f32⟩
  | 11 => ⟨S128x1, .f32⟩
  | 12 => ⟨S1, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x1, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S512x128, .f32⟩
  | 104 => ⟨S50000x1, .i32⟩
  | 105 => ⟨S512x128, .f32⟩
  | 106 => ⟨S_, .f32⟩
  | 107 => ⟨S50000, .f32⟩
  | 108 => ⟨S_, .f32⟩
  | 109 => ⟨S512, .f32⟩
  | 110 => ⟨S50000x1, .i32⟩
  | 111 => ⟨S512, .f32⟩
  | 112 => ⟨S_, .f32⟩
  | 113 => ⟨S512, .f32⟩
  | 114 => ⟨S512, .f32⟩
  | 115 => ⟨S512x1, .f32⟩
  | 116 => ⟨S512x128, .f32⟩
  | 117 => ⟨S512x128, .f32⟩
  | 118 => ⟨S512x64, .f32⟩
  | 119 => ⟨S1x64, .f32⟩
  | 120 => ⟨S512x64, .f32⟩
  | 121 => ⟨S512x64, .f32⟩
  | 122 => ⟨S_, .f32⟩
  | 123 => ⟨S512x64, .f32⟩
  | 124 => ⟨S512x64, .f32⟩
  | 125 => ⟨S512x128, .f32⟩
  | 126 => ⟨S1x128, .f32⟩
  | 127 => ⟨S512x128, .f32⟩
  | _ => ⟨S50000x128, .f32⟩

abbrev hbmTy0_1 (i : Nat) : BufTy := match i % 128 with
  | 0 => ⟨S512x128, .f32⟩
  | 1 => ⟨S_, .f32⟩
  | 2 => ⟨S512x128, .f32⟩
  | 3 => ⟨S512x128, .f32⟩
  | 4 => ⟨S512x1, .f32⟩
  | 5 => ⟨S1x1, .f32⟩
  | 6 => ⟨S512x1, .f32⟩
  | 7 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_16 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call3_cst : Ref sig .tc := ⟨.hbm, 122, rfl⟩
abbrev main_call3_v0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call4_cst : Ref sig .tc := ⟨.hbm, 129, rfl⟩
abbrev main_call4_v0 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x64_S512x64_1_0_0_1_n_n_wf : DotDims.WF S512x128 S128x64 S512x64 [1] [0] [0] [1] [] []
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.K.R0.lean ====
/-
  The first pallas_call: ten row blocks of 5000 nodes. At each block the body computes (x_block · w1) with the
  per-node factor dis_block broadcast along the 128 features, and stores it whole into the output block. Stated
  here at any entry contents `V` of the core's buffers and at any float instance: what each window's staging buffer
  holds before and after the body, the body's triple, and the pipeline's proof data with the body obligation.
-/
import proofs.«409948_j46497315946702_2_alg».proof.Proof.Gen.Kernel.Launch
import proofs.«409948_j46497315946702_2_alg».proof.Proof.Gen.Kernel.Skeleton
import proofs.«409948_j46497315946702_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S5000x128 := Rect.unit (s := S5000x128) ![0, 0] S5000x128.size inb_S5000x128_S5000x128_0_0
abbrev rw0 : Rect S128x128 := Rect.unit (s := S128x128) ![0, 0] S128x128.size inb_S128x128_S128x128_0_0
abbrev rd0 : Rect S5000x1 := Rect.unit (s := S5000x1) ![0, 0] S5000x1.size inb_S5000x1_S5000x1_0_0

/-! ## What the body leaves in the output block -/

/-- The output's staging buffer after the body: its one whole store, of the scaled product of the three input blocks. -/
def out0_3 (x0 : Vec F S5000x128 .f32) (x1 : Vec F S128x128 .f32) (x2 : Vec F S5000x1 .f32) : Vec F S5000x128 .f32 :=
  View.canon [⟨rx0, k0_pay1 (View.ld x0 rx0) (View.ld x1 rw0) (View.ld x2 rd0)⟩]

/-- The one store covers the buffer. -/
theorem cover0_3 (p0 : Vec F S5000x128 .f32) (y : S5000x128.Idx) :
    ∃ pc ∈ ([⟨rx0, p0⟩] : List (View.Piece (Elt F) S5000x128 .f32)), y ∈ pc.1.set :=
  View.cover_of_tiled [⟨rx0, p0⟩] S5000x128.size (by rfl) y

/-! ## The body's triple -/

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second pallas_call: ten row blocks of 5000 nodes. At each block the body forms relu(agg_block · dis_block + b1),
  multiplies it by w2 and scales the product by dis_block again, and stores it whole into the output block. Stated
  here at any entry contents `V` of the core's buffers and at any float instance: what each of the five windows'
  staging buffers holds before and after the body, the body's triple, and the pipeline's proof data with the body
  obligation.
-/
import proofs.«409948_j46497315946702_2_alg».proof.Proof.Gen.Kernel.Launch
import proofs.«409948_j46497315946702_2_alg».proof.Proof.Gen.Kernel.Skeleton
import proofs.«409948_j46497315946702_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched (the bias row and the weight matrix after the first point) its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rx1 : Rect S5000x128 := Rect.unit (s := S5000x128) ![0, 0] S5000x128.size inb_S5000x128_S5000x128_0_0
abbrev rd1 : Rect S5000x1 := Rect.unit (s := S5000x1) ![0, 0] S5000x1.size inb_S5000x1_S5000x1_0_0
abbrev rb1 : Rect S1x128 := Rect.unit (s := S1x128) ![0, 0] S1x128.size inb_S1x128_S1x128_0_0
abbrev rw1 : Rect S128x128 := Rect.unit (s := S128x128) ![0, 0] S128x128.size inb_S128x128_S128x128_0_0

/-! ## What the body leaves in the output block -/

/-- The output's staging buffer after the body: its one whole store. The per-node factor is loaded twice by the body
    (once for each of its two uses); both loads read the same block. -/
def out1_4 (x0 : Vec F S5000x128 .f32) (x1 : Vec F S5000x1 .f32) (x2 : Vec F S1x128 .f32) (x3 : Vec F S128x128 .f32) : Vec F S5000x128 .f32 :=
  View.canon [⟨rx1, k1_pay1 (View.ld x0 rx1) (View.ld x1 rd1) (View.ld x2 rb1) (View.ld x3 rw1) (View.ld x1 rd1)⟩]

/-- The one store is of the whole 5000×128 block, so it covers every index of the buffer. -/
theorem cover1_4 (p0 : Vec F S5000x128 .f32) (y : S5000x128.Idx) :
    ∃ pc ∈ ([⟨rx1, p0⟩] : List (View.Piece (Elt F) S5000x128 .f32)), y ∈ pc.1.set :=
  View.cover_of_tiled [⟨rx1, p0⟩] S5000x128.size (by rfl) y

/-! ## The body's triple -/

set_option maxHeartbeats 1000000 in
/-- The body on whole staging memrefs, the four inputs' at contents `x0 x1 x2 x3` and the output's at anything, runs to
    the continuation holding the inputs' as they were and the output's at `out1_4` of them. The per-node factor's
    buffer is read twice and never written between, so both reads return `x1`; the read of the output buffer ahead
    of the store returns whatever was there and feeds nothing. -/
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__bias_relu_matmul_scaled_kernel i arg1 harg1 arg2 harg2 arg3 harg3 arg4 harg4 arg5 harg5) K := by
  simp only [cc1__bias_relu_matmul_scaled_kernel_eq_skeleton]; unfold cc1__bias_relu_matmul_scaled_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this pipeline on core `c`: the arrays as the region finds them; after the body at point `t`
    each of the four inputs' buffers at its block and the output's at `out1_4` of the input blocks; the invariant is
    the scoped rest and the generator register, untouched; nothing owed; full shares. -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is entered with at point `t`: the invariant and the debt as at `t`, and each window's current
    staging buffer owned whole at its `before` contents. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body leaves at point `t`: the invariant and the debt as at the next point, and each window's current
    staging buffer owned whole at its `after` contents. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at point `t` takes `bodyPre1` to `bodyPost1`: the four inputs' buffers hold their blocks whatever the
    point, the invariant and the debt do not depend on the point, and the triple supplies the output. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  The third pallas_call: twenty-five row blocks of 2000 nodes, reduced into one 512 x 128 accumulator the kernel keeps
  in a scratch buffer. The first point zeroes the accumulator; every point adds onehot(batch_block)ᵀ · relu(agg_block ·
  dis_block + b2) to it; the last point copies it to the output block, which is written back only there.
  Stated here at any entry contents `V` of the core's buffers and at any float instance: the body's triple in its
  three control cases (first point, a point in between, last point), what the accumulator holds after each point,
  the invariant that carries it from point to point, and the pipeline's proof data with the body obligation.
-/
import proofs.«409948_j46497315946702_2_alg».proof.Proof.Gen.Kernel.Launch
import proofs.«409948_j46497315946702_2_alg».proof.Proof.Gen.Kernel.Skeleton
import proofs.«409948_j46497315946702_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## Whole-buffer loads and stores -/

theorem zeros2 : (![0, 0] : Fin 2 → Nat) = fun _ => 0 := by
  funext a; fin_cases a <;> rfl

/-- The accumulator's buffer, whole: the rectangle of every access the body makes to it and to the output block. -/
abbrev rs2 : Rect S512x128 := Rect.unit (s := S512x128) ![0, 0] S512x128.size inb_S512x128_S512x128_0_0

theorem mem_rs2 (y : S512x128.Idx) : y ∈ rs2.set :=
  View.mem_set_unit_zero zeros2 inb_S512x128_S512x128_0_0 y

/-- A list of stores whose last is of the whole buffer covers it. -/
theorem cover2 (w : Vec F S512x128 .f32) (L : List (View.Piece (Elt F) S512x128 .f32)) (y : S512x128.Idx) :
    ∃ pc ∈ ((⟨rs2, w⟩ : View.Piece (Elt F) S512x128 .f32) :: L), y ∈ pc.1.set :=
  ⟨_, List.mem_cons_self, mem_rs2 y⟩

/-- After stores the last of which is of the whole buffer, the buffer reads that store's payload. -/
theorem read_stores2 {sp : Space} (v : View sig .tc sp S512x128 .f32) (f : v.ty.Contents (Elt F)) (w : Vec F S512x128 .f32)
    (L : List (View.Piece (Elt F) S512x128 .f32)) :
    v.read (Elt F) (v.writes (Elt F) f ((⟨rs2, w⟩ : View.Piece (Elt F) S512x128 .f32) :: L)) = w := by
  rw [View.read_writes_eq_canon _ _ _ (cover2 w L)]
  exact View.canon_cons_unit_zero zeros2 inb_S512x128_S512x128_0_0 w L

/-- A whole-buffer load of a whole memref owned at contents X reads X. -/
theorem load_whole {S : Shape} {e : EltTy} {off : Fin S.rank → Nat} (hz : off = fun _ => 0) (inb : ∀ a, off a + S.size a ≤ S.size a)
    (m : Memref sig .tc .vmem S e) (h : m.IsWhole) (X : S.Idx → Elt F e) :
    View.readAt (Elt F) m.view (Rect.unit off S.size inb).toLoadRect (h.unread X) = X := by
  rw [View.readAt_eq_ld, h.read_unread]; exact View.ld_unit_zero hz inb X

/-! ## The two conditions of the body -/

/-- The body's first conditional, from the grid coordinate: the point is the first of the grid. -/
abbrev first2 (i : grid2.Coords) : Prop :=
  (Scalar.cmpi .ne (Scalar.extui (Scalar.cmpi .eq (BitVec.ofNat 32 (i 0).val) 0#32)) 0#32) = 1#1
/-- The body's second conditional: the point is the last of the grid. -/
abbrev last2 (i : grid2.Coords) : Prop := k2_cond2 i = 1#1

theorem first2_iff : ∀ t : Fin cfg2.N, first2 (grid2.coords t) ↔ t.val = 0 :=
  (by decide +kernel : ∀ t : Fin grid2.N, first2 (grid2.coords t) ↔ t.val = 0)
theorem last2_iff : ∀ t : Fin cfg2.N, last2 (grid2.coords t) ↔ t.val = 24 :=
  (by decide +kernel : ∀ t : Fin grid2.N, last2 (grid2.coords t) ↔ t.val = 24)

/-! ## The body's triple, case by case

The staging memrefs and the accumulator's are whole buffers; every load and store of the body is of a whole
buffer. With the four input blocks `x0 x1 x2 x3` the body's one update of the accumulator stores
`k2_pay2 x0 x1 x2 x3 a`, where `a` is what the accumulator held: the zero block `k2_pay1` at the first point,
which has just stored it, and what the point before left otherwise. -/

set_option maxHeartbeats 2000000 in
/-- The first point: the accumulator is found at anything, zeroed, then updated; the output block is not touched. -/
theorem sound_kernel2_A (c : Dev nD) (E : Set ℕ) (i : grid2.Coords) (hc0 : first2 i) (hc1 : ¬last2 i)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x1 .i32) (harg4 : arg4.IsWhole)
    (arg5 : Memref sig .tc .vmem S512x128 .f32) (harg5 : arg5.IsWhole) (arg6 : Memref sig .tc .vmem S512x128 .f32) (harg6 : arg6.IsWhole)
    (x0 : Vec F S2000x128 .f32) (x1 : Vec F S2000x1 .f32) (x2 : Vec F S1x128 .f32) (x3 : Vec F S2000x1 .i32)
    (xo : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo
            ∗ owns (c : Thread nD τ) arg6 fullShare (k2_pay2 x0 x1 x2 x3 (k2_pay1 (F := F)))) -∗ K ⟨⟩))
      ⊢ wp frame (wpE (defs₀ (F := F)) Variants.none c none) E (cc2__pool_fused_kernel i arg1 harg1 arg2 harg2 arg3 harg3 arg4 harg4 arg5 harg5 arg6 harg6) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  sl_unfold_words
  rw [read_stores2, View.readCov_unit_zero (S := S512x128) _ zeros2]
  simp only [load_whole (S := S2000x128) zeros2, load_whole (S := S2000x1) zeros2, load_whole (S := S1x128) zeros2,
    load_whole (S := S512x128) zeros2]

set_option maxHeartbeats 2000000 in
/-- A point neither first nor last: the accumulator, found at `acc`, is updated; the output block is not touched. -/
theorem sound_kernel2_B (c : Dev nD) (E : Set ℕ) (i : grid2.Coords) (hc0 : ¬first2 i) (hc1 : ¬last2 i)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x1 .i32) (harg4 : arg4.IsWhole)
    (arg5 : Memref sig .tc .vmem S512x128 .f32) (harg5 : arg5.IsWhole) (arg6 : Memref sig .tc .vmem S512x128 .f32) (harg6 : arg6.IsWhole)
    (x0 : Vec F S2000x128 .f32) (x1 : Vec F S2000x1 .f32) (x2 : Vec F S1x128 .f32) (x3 : Vec F S2000x1 .i32)
    (xo : Vec F S512x128 .f32) (acc : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo
            ∗ owns (c : Thread nD τ) arg6 fullShare (k2_pay2 x0 x1 x2 x3 acc)) -∗ K ⟨⟩))
      ⊢ wp frame (wpE (defs₀ (F := F)) Variants.none c none) E (cc2__pool_fused_kernel i arg1 harg1 arg2 harg2 arg3 harg3 arg4 harg4 arg5 harg5 arg6 harg6) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [read_stores2]
  simp only [load_whole (S := S2000x128) zeros2, load_whole (S := S2000x1) zeros2, load_whole (S := S1x128) zeros2,
    load_whole (S := S512x128) zeros2]

set_option maxHeartbeats 2000000 in
/-- The last point: the accumulator, found at `acc`, is updated, and what it then holds is stored whole into the
    output block, found at anything. -/
theorem sound_kernel2_C (c : Dev nD) (E : Set ℕ) (i : grid2.Coords) (hc0 : ¬first2 i) (hc1 : last2 i)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x1 .i32) (harg4 : arg4.IsWhole)
    (arg5 : Memref sig .tc .vmem S512x128 .f32) (harg5 : arg5.IsWhole) (arg6 : Memref sig .tc .vmem S512x128 .f32) (harg6 : arg6.IsWhole)
    (x0 : Vec F S2000x128 .f32) (x1 : Vec F S2000x1 .f32) (x2 : Vec F S1x128 .f32) (x3 : Vec F S2000x1 .i32)
    (acc : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k2_pay2 x0 x1 x2 x3 acc)
            ∗ owns (c : Thread nD τ) arg6 fullShare (k2_pay2 x0 x1 x2 x3 acc)) -∗ K ⟨⟩))
      ⊢ wp frame (wpE (defs₀ (F := F)) Variants.none c none) E (cc2__pool_fused_kernel i arg1 harg1 arg2 harg2 arg3 harg3 arg4 harg4 arg5 harg5 arg6 harg6) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg1.eq_unread hf0; obtain rfl := harg2.eq_unread hf1; obtain rfl := harg3.eq_unread hf2
  obtain rfl := harg4.eq_unread hf3; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [read_stores2, View.readCov_unit_zero (S := S512x128) _ zeros2]
    simp only [load_whole (S := S2000x128) zeros2, load_whole (S := S2000x1) zeros2, load_whole (S := S1x128) zeros2,
    load_whole (S := S512x128) zeros2]
  iexists _; isplitr
  swap; · iexact H5
  ipureintro
  sl_unfold_words
  rw [read_stores2]
  simp only [load_whole (S := S2000x128) zeros2, load_whole (S := S2000x1) zeros2, load_whole (S := S1x128) zeros2,
    load_whole (S := S512x128) zeros2]

/-! ## Where the output block is idle

The output block is stored only at the last point. Everywhere else the pipeline's table calls it idle, and it is
written back at the last point only: at the other points its buffer goes back as it came. -/

theorem idle2_4 (i : grid2.Coords) (h : ¬last2 i) : cfg2.idle 4 i = true := by
  show (!(k2_cond2 i == 1#1)) = true
  cases hb : (k2_cond2 i == 1#1)
  · rfl
  · exact absurd (eq_of_beq hb) h

theorem live2_4 (i : grid2.Coords) (h : last2 i) : cfg2.idle 4 i = false := by
  show (!(k2_cond2 i == 1#1)) = false
  rw [show k2_cond2 i = 1#1 from h]; rfl

theorem noFlush2_4 (t : Fin cfg2.N) (h : t.val ≠ 24) : (cfg2.win 4).flush t = false := by
  have hN : t.val < 25 := lt_of_lt_of_eq t.isLt (show cfg2.N = 25 from N_2)
  cases hf : (cfg2.win 4).flush t
  · rfl
  · exfalso; have := (flush2_4 t).mp hf; omega

/-! ## The accumulator, point by point -/

/-- What the accumulator holds after point `n`: the update of the zero block by the first point's four input
    blocks, then of each point's predecessor by that point's. -/
def scr2 (c : Dev nD) : (n : ℕ) → n < cfg2.N → Vec F S512x128 .f32
  | 0, h => k2_pay2 (iblk2 V c 0 ⟨0, h⟩) (iblk2 V c 1 ⟨0, h⟩) (iblk2 V c 2 ⟨0, h⟩) (iblk2 V c 3 ⟨0, h⟩) (k2_pay1 (F := F))
  | n + 1, h => k2_pay2 (iblk2 V c 0 ⟨n + 1, h⟩) (iblk2 V c 1 ⟨n + 1, h⟩) (iblk2 V c 2 ⟨n + 1, h⟩) (iblk2 V c 3 ⟨n + 1, h⟩)
      (scr2 c n (Nat.lt_of_succ_lt h))

theorem scr2_zero (c : Dev nD) (h : 0 < cfg2.N) :
    scr2 V c 0 h = k2_pay2 (iblk2 V c 0 ⟨0, h⟩) (iblk2 V c 1 ⟨0, h⟩) (iblk2 V c 2 ⟨0, h⟩) (iblk2 V c 3 ⟨0, h⟩) (k2_pay1 (F := F)) := rfl

theorem scr2_succ (c : Dev nD) (n : ℕ) (h : n + 1 < cfg2.N) :
    scr2 V c (n + 1) h = k2_pay2 (iblk2 V c 0 ⟨n + 1, h⟩) (iblk2 V c 1 ⟨n + 1, h⟩) (iblk2 V c 2 ⟨n + 1, h⟩) (iblk2 V c 3 ⟨n + 1, h⟩)
      (scr2 V c n (Nat.lt_of_succ_lt h)) := rfl

/-- At the first point, stated at the point itself. -/
theorem scr2_first (c : Dev nD) (t : Fin cfg2.N) (hz : t.val = 0) :
    scr2 V c t.val t.isLt = k2_pay2 (iblk2 V c 0 t) (iblk2 V c 1 t) (iblk2 V c 2 t) (iblk2 V c 3 t) (k2_pay1 (F := F)) := by
  obtain ⟨n, hn⟩ := t
  cases n with
  | zero => rfl
  | succ n => exact absurd hz (Nat.succ_ne_zero n)

/-- At a later point, over what the point before left. -/
theorem scr2_later (c : Dev nD) (t : Fin cfg2.N) (hz : t.val ≠ 0) :
    scr2 V c t.val t.isLt = k2_pay2 (iblk2 V c 0 t) (iblk2 V c 1 t) (iblk2 V c 2 t) (iblk2 V c 3 t)
      (scr2 V c (t.val - 1) (Nat.lt_of_le_of_lt (Nat.sub_le _ _) t.isLt)) := by
  obtain ⟨n, hn⟩ := t
  cases n with
  | zero => exact absurd rfl hz
  | succ n => rfl

/-! ## The region's invariant -/

/-- The accumulator's buffer as the body is passed it. -/
abbrev scM2 : Memref sig .tc .vmem S512x128 .f32 := Memref.whole cc2_scratch0

/-- What the launch hands the region: the accumulator at some contents, every other scoped buffer that is no
    staging buffer of this call at some contents, unopened, and the generator register at some state. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

/-- The invariant before point `n`: before the first, what the launch hands over; afterwards the same with the
    accumulator at what the point before left. -/
def PhiS2 (c : Dev nD) : (n : ℕ) → n ≤ cfg2.N → sProp 𝕄
  | 0, _ => Pipeline.ΦA spec2 c
  | n + 1, hn => iprop(iprop(owns (c : Thread nD τ) scM2 fullShare (scr2 V c n hn)
          ∗ Pipeline.scopedRestBut (Ix := Unit) (Name := ℕ) (U := UR sig nD τ) (Lvl := ℕ) (Val := Elt F) spec2 c [cc2_scratch0])
        ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (scr2 V c n hn)
          ∗ Pipeline.scopedRestBut (Ix := Unit) (Name := ℕ) (U := UR sig nD τ) (Lvl := ℕ) (Val := Elt F) spec2 c [cc2_scratch0])
        ∗ (∃ r, prngReg c r)) := rfl

theorem PhiS2_pos (c : Dev nD) (n : ℕ) (h : n ≤ cfg2.N) (hz : n ≠ 0) :
    PhiS2 V c n h = iprop(iprop(owns (c : Thread nD τ) scM2 fullShare (scr2 V c (n - 1) (by omega))
          ∗ Pipeline.scopedRestBut (Ix := Unit) (Name := ℕ) (U := UR sig nD τ) (Lvl := ℕ) (Val := Elt F) spec2 c [cc2_scratch0])
        ∗ (∃ r, prngReg c r)) := by
  cases n with
  | zero => exact absurd rfl hz
  | succ n => rfl

/-! ## The pipeline's proof data -/

/-- The proof data of this pipeline on core `c`: the arrays as the region finds them; after the body at point `t`
    each input's buffer at its block and the output's at what the accumulator then holds (read at the last point
    only: elsewhere the output block is idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => scr2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) : ∀ w, (dat2 V c).q w = fullShare := fun _ => rfl
theorem owed_eq2 (c : Dev nD) : ∀ t, (dat2 V c).owed t = 0 := fun _ => rfl
theorem recorded_eq2 (c : Dev nD) : ∀ t, (dat2 V c).recorded t = Set.univ := fun _ => rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = scr2 V c t.val t.isLt := by dsimp only [dat2]

/-- What the last point leaves in the output block: the accumulator after all twenty-five updates. -/
theorem after2_4_last (c : Dev nD) (h : 24 < cfg2.N) : (dat2 V c).after 4 ⟨24, h⟩ = scr2 V c 24 h := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant at a point's start, restated at the point's position. -/
theorem Phi2_castSucc (c : Dev nD) (t : Fin cfg2.N) :
    (dat2 V c).Φ t.castSucc = PhiS2 V c t.val (Nat.le_of_lt t.isLt) := by
  dsimp only [dat2]; simp only [Fin.coe_castSucc]

/-- An input's buffer goes back holding its block: no input window is ever idle. -/
theorem leaves2_0 (c : Dev nD) (t : Fin cfg2.N) :
    (dat2 V c).leavesExact 0 t = owns (c : Thread nD τ) (st2_0 t) fullShare (iblk2 V c 0 t) := by
  rw [← after2_0 V c t]
theorem leaves2_1 (c : Dev nD) (t : Fin cfg2.N) :
    (dat2 V c).leavesExact 1 t = owns (c : Thread nD τ) (st2_1 t) fullShare (iblk2 V c 1 t) := by
  rw [← after2_1 V c t]
theorem leaves2_2 (c : Dev nD) (t : Fin cfg2.N) :
    (dat2 V c).leavesExact 2 t = owns (c : Thread nD τ) (st2_2 t) fullShare (iblk2 V c 2 t) := by
  rw [← after2_2 V c t]
theorem leaves2_3 (c : Dev nD) (t : Fin cfg2.N) :
    (dat2 V c).leavesExact 3 t = owns (c : Thread nD τ) (st2_3 t) fullShare (iblk2 V c 3 t) := by
  rw [← after2_3 V c t]

/-- At the last point the output block goes back at what the body stored. -/
theorem leaves2_4_last (c : Dev nD) (t : Fin cfg2.N) (hl : last2 (grid2.coords t)) :
    (dat2 V c).leavesExact 4 t = owns (c : Thread nD τ) (st2_4 t) fullShare (scr2 V c t.val t.isLt) := by
  rw [← after2_4 V c t]; unfold Dat.leavesExact; rw [live2_4 _ hl]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point. The inputs' buffers hold their blocks; the position says which of the three cases the
    point is in; the invariant hands the body the accumulator (at anything before the first point, at what the
    point before left afterwards) and takes it back at this point's contents; the rest of the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 25 := lt_of_lt_of_eq t.isLt (show cfg2.N = 25 from N_2)
  by_cases hz : t.val = 0
  · -- the first point
    have hf : first2 (grid2.coords t) := (first2_iff t).mpr hz
    have hl : ¬last2 (grid2.coords t) := fun h => by have := (last2_iff t).mp h; omega
    rw [Dat.leavesExact_idle (dat2 V c) 4 t (idle2_4 _ hl) (noFlush2_4 t (by omega))]
    rw [scr2_first V c t hz, Phi2_castSucc, PhiS2_zero V c _ _ hz, PhiA2_eq]
    iintro ⟨⟨⟨HS, HR⟩, Hg⟩, Ho, ⟨%d0, H0⟩, ⟨%d1, H1⟩, ⟨%d2, H2⟩, ⟨%d3, H3⟩, ⟨%d4, H4⟩⟩
    iapply (sound_kernel2_A c Set.univ (grid2.coords t) hf hl _ _ _ _ _ _ _ _ _ _ _ _
      (iblk2 V c 0 t) (iblk2 V c 1 t) (iblk2 V c 2 t) (iblk2 V c 3 t) ((dat2 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hf : ¬first2 (grid2.coords t) := fun h => hz ((first2_iff t).mp h)
    by_cases h24 : t.val = 24
    · -- the last point
      have hl : last2 (grid2.coords t) := (last2_iff t).mpr h24
      rw [leaves2_4_last V c t hl]
      rw [scr2_later V c t hz, Phi2_castSucc, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel2_C c Set.univ (grid2.coords t) hf hl _ _ _ _ _ _ _ _ _ _ _ _
        (iblk2 V c 0 t) (iblk2 V c 1 t) (iblk2 V c 2 t) (iblk2 V c 3 t) (scr2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · -- a point in between
      have hl : ¬last2 (grid2.coords t) := fun h => h24 ((last2_iff t).mp h)
      rw [Dat.leavesExact_idle (dat2 V c) 4 t (idle2_4 _ hl) (noFlush2_4 t h24)]
      rw [scr2_later V c t hz, Phi2_castSucc, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel2_B c Set.univ (grid2.coords t) hf hl _ _ _ _ _ _ _ _ _ _ _ _
        (iblk2 V c 0 t) (iblk2 V c 1 t) (iblk2 V c 2 t) (iblk2 V c 3 t) ((dat2 V c).before 4 t d4)
        (scr2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After any point the invariant gives the launch's back: the accumulator's named contents are forgotten. -/
theorem Phi2_out (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- After the last point the invariant gives it back: the accumulator's named contents are forgotten. -/
theorem hout2 (c : Dev nD) : (dat2 V c).Φ (Fin.last cfg2.N) ⊢ (Pipeline.ΦA spec2 c : sProp 𝕄) :=
  Phi2_out V c _ (by rw [Fin.val_last]; have : cfg2.N = 25 := N_2; omega)

end Cert.Kernel.Hand

end
-- ==== Proof.K.R3.lean ====
/-
  The fourth pallas_call, one grid point over whole arrays: the pooled sums divided row by row by max(count, 1), then
  three dense layers (relu, relu, linear). It stores the second layer's activation (the embedding) and the last
  layer's output, each whole.
-/
import proofs.«409948_j46497315946702_2_alg».proof.Proof.Gen.Kernel.Launch
import proofs.«409948_j46497315946702_2_alg».proof.Proof.Gen.Kernel.Skeleton
import proofs.«409948_j46497315946702_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

abbrev r3_512x128 : Rect S512x128 := Rect.unit (s := S512x128) ![0, 0] S512x128.size inb_S512x128_S512x128_0_0
abbrev r3_512x1 : Rect S512x1 := Rect.unit (s := S512x1) ![0, 0] S512x1.size inb_S512x1_S512x1_0_0
abbrev r3_128x64 : Rect S128x64 := Rect.unit (s := S128x64) ![0, 0] S128x64.size inb_S128x64_S128x64_0_0
abbrev r3_1x64 : Rect S1x64 := Rect.unit (s := S1x64) ![0, 0] S1x64.size inb_S1x64_S1x64_0_0
abbrev r3_64x128 : Rect S64x128 := Rect.unit (s := S64x128) ![0, 0] S64x128.size inb_S64x128_S64x128_0_0
abbrev r3_1x128 : Rect S1x128 := Rect.unit (s := S1x128) ![0, 0] S1x128.size inb_S1x128_S1x128_0_0
abbrev r3_128x1 : Rect S128x1 := Rect.unit (s := S128x1) ![0, 0] S128x1.size inb_S128x1_S128x1_0_0
abbrev r3_1x1 : Rect S1x1 := Rect.unit (s := S1x1) ![0, 0] S1x1.size inb_S1x1_S1x1_0_0

/-- The embedding's staging buffer after the body: its one whole store. -/
def out3_8 (x0 : Vec F S512x128 .f32) (x1 : Vec F S512x1 .f32) (x2 : Vec F S128x64 .f32) (x3 : Vec F S1x64 .f32)
    (x4 : Vec F S64x128 .f32) (x5 : Vec F S1x128 .f32) : Vec F S512x128 .f32 :=
  View.canon [⟨r3_512x128, k3_pay1 (View.ld x0 r3_512x128) (View.ld x1 r3_512x1) (View.ld x2 r3_128x64) (View.ld x3 r3_1x64) (View.ld x4 r3_64x128) (View.ld x5 r3_1x128)⟩]

/-- The last layer's staging buffer after the body: its one whole store. -/
def out3_9 (x0 : Vec F S512x128 .f32) (x1 : Vec F S512x1 .f32) (x2 : Vec F S128x64 .f32) (x3 : Vec F S1x64 .f32)
    (x4 : Vec F S64x128 .f32) (x5 : Vec F S1x128 .f32) (x6 : Vec F S128x1 .f32) (x7 : Vec F S1x1 .f32) : Vec F S512x1 .f32 :=
  View.canon [⟨r3_512x1, k3_pay2 (View.ld x0 r3_512x128) (View.ld x1 r3_512x1) (View.ld x2 r3_128x64) (View.ld x3 r3_1x64) (View.ld x4 r3_64x128) (View.ld x5 r3_1x128) (View.ld x6 r3_128x1) (View.ld x7 r3_1x1)⟩]

/-! ## Each store covers its buffer -/

/-- The embedding's one store covers its buffer. -/
theorem cover3_8 (p0 : Vec F S512x128 .f32) (y : S512x128.Idx) :
    ∃ pc ∈ ([⟨r3_512x128, p0⟩] : List (View.Piece (Elt F) S512x128 .f32)), y ∈ pc.1.set :=
  View.cover_of_tiled [⟨r3_512x128, p0⟩] S512x128.size (by rfl) y

/-- The last layer's one store covers its buffer. -/
theorem cover3_9 (p0 : Vec F S512x1 .f32) (y : S512x1.Idx) :
    ∃ pc ∈ ([⟨r3_512x1, p0⟩] : List (View.Piece (Elt F) S512x1 .f32)), y ∈ pc.1.set :=
  View.cover_of_tiled [⟨r3_512x1, p0⟩] S512x1.size (by rfl) y

/-! ## The body's triple -/

set_option maxHeartbeats 2000000 in
/-- The body on whole staging memrefs, the eight inputs' at contents `x0 … x7` and the two outputs' at anything,
    runs to the continuation holding the inputs' as they were, the embedding's at `out3_8` of the first six and the
    last layer's at `out3_9` of all eight. The eight loads come first and fix both payloads; each output buffer is
    then read once (the value is dropped) and overwritten whole, so neither store sees the other's buffer. -/
theorem sound_kernel3 (c : Dev nD) (E : Set ℕ) (i : grid3.Coords)
    (arg1 : Memref sig .tc .vmem S512x128 .f32) (harg1 : arg1.IsWhole) (arg2 : Memref sig .tc .vmem S512x1 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x128 .f32) (harg5 : arg5.IsWhole) (arg6 : Memref sig .tc .vmem S1x128 .f32) (harg6 : arg6.IsWhole)
    (arg7 : Memref sig .tc .vmem S128x1 .f32) (harg7 : arg7.IsWhole) (arg8 : Memref sig .tc .vmem S1x1 .f32) (harg8 : arg8.IsWhole)
    (arg9 : Memref sig .tc .vmem S512x128 .f32) (harg9 : arg9.IsWhole) (arg10 : Memref sig .tc .vmem S512x1 .f32) (harg10 : arg10.IsWhole)
    (x0 : Vec F S512x128 .f32) (x1 : Vec F S512x1 .f32) (x2 : Vec F S128x64 .f32) (x3 : Vec F S1x64 .f32)
    (x4 : Vec F S64x128 .f32) (x5 : Vec F S1x128 .f32) (x6 : Vec F S128x1 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out3_8 x0 x1 x2 x3 x4 x5)
            ∗ owns (c : Thread nD τ) arg10 fullShare (out3_9 x0 x1 x2 x3 x4 x5 x6 x7)) -∗ K ⟨⟩))
      ⊢ wp frame (wpE (defs₀ (F := F)) Variants.none c none) E
          (cc3__head_kernel i arg1 harg1 arg2 harg2 arg3 harg3 arg4 harg4 arg5 harg5 arg6 harg6 arg7 harg7 arg8 harg8 arg9 harg9 arg10 harg10) K := by
  simp only [cc3__head_kernel_eq_skeleton]; unfold cc3__head_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  -- the eight inputs: never written, each given back at the contents it came with
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  -- the embedding's buffer: one whole-buffer write of the pair's first component, read back through the cover
  isplitl [H8]
  · iexists _; isplitr
    swap; · iexact H8
    ipureintro
    exact View.read_writes_eq_canon _ _ _ (cover3_8 _)
  -- the last layer's buffer: one whole-buffer write of the pair's second component
  iexists _; isplitr
  swap; · iexact H9
  ipureintro
  exact View.read_writes_eq_canon _ _ _ (cover3_9 _)

/-! ## The pipeline's proof data -/

/-- The proof data of the head's pipeline on core `c`. Every window's array starts at what the region finds in it.
    After the body at the single grid point, windows 0 to 7 still hold their input blocks (the body only reads them),
    window 8 holds the second layer's activation `out3_8`, a function of the first six input blocks, and window 9
    holds the last layer's output `out3_9`, a function of all eight. The invariant carried across the point is the
    rest of the core's scoped memory together with the generator's register, which the body leaves alone; every
    share is the full one and no wait is owed at any point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) :
    (dat3 V c).after 8 t = out3_8 (iblk3 V c 0 t) (iblk3 V c 1 t) (iblk3 V c 2 t) (iblk3 V c 3 t) (iblk3 V c 4 t) (iblk3 V c 5 t) := by dsimp only [dat3]
theorem after3_9 (c : Dev nD) (t : Fin cfg3.N) :
    (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the pipeline hands the body at point `t`: the invariant and the ledger as they stand, and each of the ten
    windows' current staging buffers owned whole at what it holds before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- What the body hands back: the invariant and the ledger one point on, and each buffer at what it holds after. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at point `t` takes `bodyPre3` to `bodyPost3`: the inputs' buffers hold their blocks, so the triple
    applies at those blocks; the body touches neither the invariant nor the ledger, which do not move with the point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Bounds.lean ====
/-
  The contents of the core's unscoped buffers at the boundaries of the program's ten segments (host operations, then
  the four pallas_calls with host operations between them): a host stretch applies its operations to the contents
  before it; a pallas_call replaces its windows' arrays by what its write-backs leave and keeps every other buffer.
-/
import proofs.«409948_j46497315946702_2_alg».proof.Proof.Gen.Kernel.Regions
import proofs.«409948_j46497315946702_2_alg».proof.Proof.K.R0
import proofs.«409948_j46497315946702_2_alg».proof.Proof.K.R1
import proofs.«409948_j46497315946702_2_alg».proof.Proof.K.R2
import proofs.«409948_j46497315946702_2_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (edge lists with self loops, degrees, their inverse square roots). -/
abbrev W1 : Dev nD → Valuation τ sig (Elt F) := fun c => StableHlo.after hostOps0 (W0 m c)
/-- After the select that zeroes the factor of a node of degree zero. -/
abbrev W2 : Dev nD → Valuation τ sig (Elt F) := fun c => StableHlo.after hostOps0_1 (W1 m c)
/-- After the reshape of the factor to a column: the first pallas_call's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the first pallas_call's exit. -/
def W4 (c : Dev nD) : Valuation τ sig (Elt F) :=
  Pipeline.withArrays spec0 c (W3 m c) fun w => (dat0 (V3 m) c).arrAt w cfg0.N
/-- After the first gather and scatter-add: the second pallas_call's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At the second pallas_call's exit. -/
def W6 (c : Dev nD) : Valuation τ sig (Elt F) :=
  Pipeline.withArrays spec1 c (W5 m c) fun w => (dat1 (V5 m) c).arrAt w cfg1.N
/-- After the second gather and scatter-add and the per-graph node counts: the third pallas_call's entry. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At the third pallas_call's exit. -/
def W8 (c : Dev nD) : Valuation τ sig (Elt F) :=
  Pipeline.withArrays spec2 c (W7 m c) fun w => (dat2 (V7 m) c).arrAt w cfg2.N
/-- After the reshapes of the three biases: the fourth pallas_call's entry. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- At the fourth pallas_call's exit: the end of the program. -/
def W10 (c : Dev nD) : Valuation τ sig (Elt F) :=
  Pipeline.withArrays spec3 c (W9 m c) fun w => (dat3 (V9 m) c).arrAt w cfg3.N

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

/-! ## What each segment leaves alone -/

/-- A reference outside a host stretch's write set holds after the stretch what it held before: one lemma per stretch. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h
theorem W9_of (c : Dev nD) (r : Ref sig .tc) (h : r ∉ hostOps3_W) : W9 m c (Proc.devRef .tc r) = W8 m c (Proc.devRef .tc r) :=
  StableHlo.after_of_writes_sub hostOps3 _ hostOps3_writes h

/-- An input window's array leaves a pallas_call as it entered it: its write-back fold never fires, so the array at
    the last point is the array at entry, which the proof data read off the entry contents. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hin _).trans (A_eq1 (V5 m) c w))
theorem W10_in (c : Dev nD) (w : Fin cfg3.W) (hin : (cfg3.win w).isOut = false) :
    W10 m c (Proc.devRef .tc (Pipeline.arrRef spec3 w)) = W9 m c (Proc.devRef .tc (Pipeline.arrRef spec3 w)) :=
  (W10_arr m c w).trans (((dat3 (V9 m) c).arrAt_in w hin _).trans (A_eq3 (V9 m) c w))

/-- A reference that none of the six host stretches writes and that each of the four pallas_calls hands back as it
    found it (`e0 … e3`: it is an input window's array there, or no window's) ends the program at its launch contents:
    the ten boundary contents are walked back one segment at a time. -/
theorem W10_launch (c : Dev nD) (r : Ref sig .tc)
    (h0 : r ∉ hostOps0_W) (h1 : r ∉ hostOps0_1_W) (h2 : r ∉ hostOps0_2_W) (h4 : r ∉ hostOps1_W) (h6 : r ∉ hostOps2_W) (h8 : r ∉ hostOps3_W)
    (e0 : W4 m c (Proc.devRef .tc r) = W3 m c (Proc.devRef .tc r)) (e1 : W6 m c (Proc.devRef .tc r) = W5 m c (Proc.devRef .tc r))
    (e2 : W8 m c (Proc.devRef .tc r) = W7 m c (Proc.devRef .tc r)) (e3 : W10 m c (Proc.devRef .tc r) = W9 m c (Proc.devRef .tc r)) :
    W10 m c (Proc.devRef .tc r) = m ((c : Thread nD τ).loc r) :=
  calc W10 m c (Proc.devRef .tc r)
    _ = W9 m c (Proc.devRef .tc r) := e3
    _ = W8 m c (Proc.devRef .tc r) := W9_of m c r h8
    _ = W7 m c (Proc.devRef .tc r) := e2
    _ = W6 m c (Proc.devRef .tc r) := W7_of m c r h6
    _ = W5 m c (Proc.devRef .tc r) := e1
    _ = W4 m c (Proc.devRef .tc r) := W5_of m c r h4
    _ = W3 m c (Proc.devRef .tc r) := e0
    _ = W2 m c (Proc.devRef .tc r) := W3_of m c r h2
    _ = W1 m c (Proc.devRef .tc r) := W2_of m c r h1
    _ = W0 m c (Proc.devRef .tc r) := W1_of m c r h0
    _ = m ((c : Thread nD τ).loc r) := rfl

end Cert.Kernel.Hand

end
-- ==== Proof.K.Run.lean ====
/-
  The whole program as ten segments: host operations, then the four pallas_calls with host operations between them.
  `W0 … W10`, defined in the module before this one, are the contents of the core's unscoped buffers at the segment
  boundaries: a host stretch applies its operations, a pallas_call replaces its windows' arrays by what its write-backs
  leave and keeps every other buffer.
  `run_all`: every weakly fair execution terminates without a fault and ends with every unscoped buffer at `W10`.
  The arguments are written by nothing on the way, so `W10` at an argument is its launch contents.
-/
import proofs.«409948_j46497315946702_2_alg».proof.Proof.K.R0
import proofs.«409948_j46497315946702_2_alg».proof.Proof.K.R1
import proofs.«409948_j46497315946702_2_alg».proof.Proof.K.R2
import proofs.«409948_j46497315946702_2_alg».proof.Proof.K.R3
import proofs.«409948_j46497315946702_2_alg».proof.Proof.K.Bounds
import proofs.«409948_j46497315946702_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

The thirteen arguments are the node features, the edge list, the graph ids, and the weights and biases of the two
convolutions and of the three layers of the head. Every one of them is only ever read: six enter a pallas_call through
an input window (the features and the first weight in the first call, the second weight in the second, the head's three
weights in the fourth), the other seven are read by host operations (the edge list sliced into sources and destinations,
the graph ids broadcast and reshaped, each bias reshaped to a row) whose results are other buffers. -/

/-- The node features: input window 0 of the first pallas_call, its row blocks fetched point by point and never written back. -/
theorem W10_main_arg0 (c : Dev nD) : W10 m c (Proc.devRef .tc main_arg0) = m ((c : Thread nD τ).loc main_arg0) :=
  W10_launch m c main_arg0 (by decide) (by decide) (by decide) (by decide) (by decide) (by decide)
    (W4_in m c 0 rfl) (W6_of_ne m c main_arg0 (by decide)) (W8_of_ne m c main_arg0 (by decide)) (W10_of_ne m c main_arg0 (by decide))

/-- The edge list: the first host stretch slices its two rows out of it into buffers of their own; no pallas_call sees it. -/
theorem W10_main_arg1 (c : Dev nD) : W10 m c (Proc.devRef .tc main_arg1) = m ((c : Thread nD τ).loc main_arg1) :=
  W10_launch m c main_arg1 (by decide) (by decide) (by decide) (by decide) (by decide) (by decide)
    (W4_of_ne m c main_arg1 (by decide)) (W6_of_ne m c main_arg1 (by decide)) (W8_of_ne m c main_arg1 (by decide)) (W10_of_ne m c main_arg1 (by decide))

/-- The graph ids: the stretch before the third pallas_call broadcasts them for the node counts and reshapes them to the
    column that call reads; the column is another buffer, and the ids themselves are no window. -/
theorem W10_main_arg2 (c : Dev nD) : W10 m c (Proc.devRef .tc main_arg2) = m ((c : Thread nD τ).loc main_arg2) :=
  W10_launch m c main_arg2 (by decide) (by decide) (by decide) (by decide) (by decide) (by decide)
    (W4_of_ne m c main_arg2 (by decide)) (W6_of_ne m c main_arg2 (by decide)) (W8_of_ne m c main_arg2 (by decide)) (W10_of_ne m c main_arg2 (by decide))

/-- The first convolution's weight: input window 1 of the first pallas_call, fetched once and kept. -/
theorem W10_main_arg3 (c : Dev nD) : W10 m c (Proc.devRef .tc main_arg3) = m ((c : Thread nD τ).loc main_arg3) :=
  W10_launch m c main_arg3 (by decide) (by decide) (by decide) (by decide) (by decide) (by decide)
    (W4_in m c 1 rfl) (W6_of_ne m c main_arg3 (by decide)) (W8_of_ne m c main_arg3 (by decide)) (W10_of_ne m c main_arg3 (by decide))

/-- The first convolution's bias: reshaped to a row by the stretch before the second pallas_call, which reads the row. -/
theorem W10_main_arg4 (c : Dev nD) : W10 m c (Proc.devRef .tc main_arg4) = m ((c : Thread nD τ).loc main_arg4) :=
  W10_launch m c main_arg4 (by decide) (by decide) (by decide) (by decide) (by decide) (by decide)
    (W4_of_ne m c main_arg4 (by decide)) (W6_of_ne m c main_arg4 (by decide)) (W8_of_ne m c main_arg4 (by decide)) (W10_of_ne m c main_arg4 (by decide))

/-- The second convolution's weight: input window 3 of the second pallas_call, fetched once and kept. -/
theorem W10_main_arg5 (c : Dev nD) : W10 m c (Proc.devRef .tc main_arg5) = m ((c : Thread nD τ).loc main_arg5) :=
  W10_launch m c main_arg5 (by decide) (by decide) (by decide) (by decide) (by decide) (by decide)
    (W4_of_ne m c main_arg5 (by decide)) (W6_in m c 3 rfl) (W8_of_ne m c main_arg5 (by decide)) (W10_of_ne m c main_arg5 (by decide))

/-- The second convolution's bias: reshaped to a row by the stretch before the third pallas_call, which reads the row. -/
theorem W10_main_arg6 (c : Dev nD) : W10 m c (Proc.devRef .tc main_arg6) = m ((c : Thread nD τ).loc main_arg6) :=
  W10_launch m c main_arg6 (by decide) (by decide) (by decide) (by decide) (by decide) (by decide)
    (W4_of_ne m c main_arg6 (by decide)) (W6_of_ne m c main_arg6 (by decide)) (W8_of_ne m c main_arg6 (by decide)) (W10_of_ne m c main_arg6 (by decide))

/-- The head's first weight: input window 2 of the fourth pallas_call. -/
theorem W10_main_arg7 (c : Dev nD) : W10 m c (Proc.devRef .tc main_arg7) = m ((c : Thread nD τ).loc main_arg7) :=
  W10_launch m c main_arg7 (by decide) (by decide) (by decide) (by decide) (by decide) (by decide)
    (W4_of_ne m c main_arg7 (by decide)) (W6_of_ne m c main_arg7 (by decide)) (W8_of_ne m c main_arg7 (by decide)) (W10_in m c 2 rfl)

/-- The head's first bias: reshaped to a row by the last host stretch. -/
theorem W10_main_arg8 (c : Dev nD) : W10 m c (Proc.devRef .tc main_arg8) = m ((c : Thread nD τ).loc main_arg8) :=
  W10_launch m c main_arg8 (by decide) (by decide) (by decide) (by decide) (by decide) (by decide)
    (W4_of_ne m c main_arg8 (by decide)) (W6_of_ne m c main_arg8 (by decide)) (W8_of_ne m c main_arg8 (by decide)) (W10_of_ne m c main_arg8 (by decide))

/-- The embedding layer's weight: input window 4 of the fourth pallas_call. -/
theorem W10_main_arg9 (c : Dev nD) : W10 m c (Proc.devRef .tc main_arg9) = m ((c : Thread nD τ).loc main_arg9) :=
  W10_launch m c main_arg9 (by decide) (by decide) (by decide) (by decide) (by decide) (by decide)
    (W4_of_ne m c main_arg9 (by decide)) (W6_of_ne m c main_arg9 (by decide)) (W8_of_ne m c main_arg9 (by decide)) (W10_in m c 4 rfl)

/-- The embedding layer's bias: reshaped to a row by the last host stretch. -/
theorem W10_main_arg10 (c : Dev nD) : W10 m c (Proc.devRef .tc main_arg10) = m ((c : Thread nD τ).loc main_arg10) :=
  W10_launch m c main_arg10 (by decide) (by decide) (by decide) (by decide) (by decide) (by decide)
    (W4_of_ne m c main_arg10 (by decide)) (W6_of_ne m c main_arg10 (by decide)) (W8_of_ne m c main_arg10 (by decide)) (W10_of_ne m c main_arg10 (by decide))

/-- The output layer's weight: input window 6 of the fourth pallas_call. -/
theorem W10_main_arg11 (c : Dev nD) : W10 m c (Proc.devRef .tc main_arg11) = m ((c : Thread nD τ).loc main_arg11) :=
  W10_launch m c main_arg11 (by decide) (by decide) (by decide) (by decide) (by decide) (by decide)
    (W4_of_ne m c main_arg11 (by decide)) (W6_of_ne m c main_arg11 (by decide)) (W8_of_ne m c main_arg11 (by decide)) (W10_in m c 6 rfl)

/-- The output layer's bias: reshaped to a one-by-one by the last host stretch. -/
theorem W10_main_arg12 (c : Dev nD) : W10 m c (Proc.devRef .tc main_arg12) = m ((c : Thread nD τ).loc main_arg12) :=
  W10_launch m c main_arg12 (by decide) (by decide) (by decide) (by decide) (by decide) (by decide)
    (W4_of_ne m c main_arg12 (by decide)) (W6_of_ne m c main_arg12 (by decide)) (W8_of_ne m c main_arg12 (by decide)) (W10_of_ne m c main_arg12 (by decide))

/-! ## The proof data family -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The thread state between segments -/

abbrev 𝒱₀ : Variants := Variants.none
/-- No core waits on another: no level is assigned anywhere. -/
abbrev L : GSem nD τ sig → Finset Unit := fun _ => ∅
abbrev lv : GSem nD τ sig → Unit → ℕ := fun _ _ => 0

/-- What a core holds beside its unscoped buffers at every boundary: its generator register at some state (a
    pallas_call's invariant takes it in and gives it back) and the ledger of what it owes, which is nothing. -/
abbrev aside (c : Dev nD) : sProp 𝕄 :=
  iprop((∃ r, prngReg c r) ∗ ∃ W, owes (c : Thread nD τ) (0 : CellTallies nD τ sig Unit) W)

/-- A host stretch as a segment: its operations run over the unscoped buffers from the contents `W`, to those
    contents after the operations, `aside` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside

/-- The last thread state but for the ledger: every unscoped buffer at `W10`, the generator register at some state. -/
abbrev Tend (c : Dev nD) : sProp 𝕄 :=
  iprop(StableHlo.held (c : Thread nD τ) (Pipeline.ucRefs τ sig) (W10 m c) ∗ ∃ r, prngReg c r)

/-- A core owing nothing, whatever pairs it has recorded, meets a pipeline's entry ledger when the proof data owe
    nothing before the first point and put no bound on the recorded pairs there. -/
theorem owes_in {cfg : Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [h0, hr]
  iintro ⟨%W, HO⟩; iexists W
  isplitr; · ipureintro; exact fun _ _ => Or.inl trivial
  iexact HO

/-- A pipeline's exit ledger, when the proof data owe nothing after the last point, is a core owing nothing. -/
theorem owes_out {cfg : Cfg sig Λ₀} {c : Dev nD} (dat : Dat τ (Elt F) Unit ℕ (UR sig nD τ) ℕ cfg c)
    (h : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [h]
  iintro ⟨%W, -, HO⟩; iexists W; iexact HO

/-! ## The exit contents read at the TensorCore's references -/

abbrev E4 : (c : Dev nD) → (b : Ref sig .tc) → Buf (Elt F) ((c : Thread nD τ).loc b) := fun c b => W4 m c b
abbrev E6 : (c : Dev nD) → (b : Ref sig .tc) → Buf (Elt F) ((c : Thread nD τ).loc b) := fun c b => W6 m c b
abbrev E8 : (c : Dev nD) → (b : Ref sig .tc) → Buf (Elt F) ((c : Thread nD τ).loc b) := fun c b => W8 m c b
abbrev E10 : (c : Dev nD) → (b : Ref sig .tc) → Buf (Elt F) ((c : Thread nD τ).loc b) := fun c b => W10 m c b

/-- At a pallas_call's exit each of its arrays holds what the write-backs leave (`exit_arrK`) and every other buffer
    what it held at entry (`exit_restK`): the two facts that put the arrays back among the unscoped buffers. -/
theorem exit_arr0 (c : Dev nD) (w : Fin cfg0.W) : (dat0 (V3 m) c).arrAt w cfg0.N = E4 m c (Pipeline.arrRef spec0 w) :=
  (W4_arr m c w).symm
theorem exit_rest0 (c : Dev nD) : ∀ b, b ∉ Finset.univ.image (Pipeline.arrRef spec0) → E4 m c b = V3 m c b :=
  fun b hb => W4_of_ne m c b fun w e => hb (Finset.mem_image.mpr ⟨w, Finset.mem_univ _, e⟩)
theorem exit_arr1 (c : Dev nD) (w : Fin cfg1.W) : (dat1 (V5 m) c).arrAt w cfg1.N = E6 m c (Pipeline.arrRef spec1 w) :=
  (W6_arr m c w).symm
theorem exit_rest1 (c : Dev nD) : ∀ b, b ∉ Finset.univ.image (Pipeline.arrRef spec1) → E6 m c b = V5 m c b :=
  fun b hb => W6_of_ne m c b fun w e => hb (Finset.mem_image.mpr ⟨w, Finset.mem_univ _, e⟩)
theorem exit_arr2 (c : Dev nD) (w : Fin cfg2.W) : (dat2 (V7 m) c).arrAt w cfg2.N = E8 m c (Pipeline.arrRef spec2 w) :=
  (W8_arr m c w).symm
theorem exit_rest2 (c : Dev nD) : ∀ b, b ∉ Finset.univ.image (Pipeline.arrRef spec2) → E8 m c b = V7 m c b :=
  fun b hb => W8_of_ne m c b fun w e => hb (Finset.mem_image.mpr ⟨w, Finset.mem_univ _, e⟩)
theorem exit_arr3 (c : Dev nD) (w : Fin cfg3.W) : (dat3 (V9 m) c).arrAt w cfg3.N = E10 m c (Pipeline.arrRef spec3 w) :=
  (W10_arr m c w).symm
theorem exit_rest3 (c : Dev nD) : ∀ b, b ∉ Finset.univ.image (Pipeline.arrRef spec3) → E10 m c b = V9 m c b :=
  fun b hb => W10_of_ne m c b fun w e => hb (Finset.mem_image.mpr ⟨w, Finset.mem_univ _, e⟩)

/-! ## The pallas_calls as segments

Each of the four records below follows one protocol. ENTRY: the call's window arrays are split out of the unscoped
buffers, at the contents its proof data read off the entry valuation; every other unscoped buffer bypasses the call;
the generator register goes into the call's invariant; the empty ledger becomes the pipeline's entry ledger. EXIT: the
arrays come back at what the write-backs leave (an input's as it entered, an output's with its blocks overwritten), and
together with the bypassing buffers they are the unscoped buffers at the next boundary's valuation, which was defined
as exactly that. No call has a semaphore of its own or a prefetched table, and none owes anything at any point.

The records need unification to unfold plain definitions inside a metavariable's type: the library states its lemmas
over the pinned configuration `pin pcs a p`, and the printed configuration is that only after unfolding. -/

set_option backward.isDefEq.respectTransparency.types false in
/-- The first pallas_call, (x · w1) scaled by the per-node factor. Its arrays are the node features and the first
    weight (two arguments), the factor column and the product's buffer; of the four only the last is an output, so
    `W4` differs from `W3` in that one buffer. The invariant is the plain one: the scoped buffers no window stages and
    the generator register, taken in and given back as they are. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ aside c)
  post c := iprop(StableHlo.held (c : Thread nD τ) (Pipeline.ucRefs τ sig) (W4 m c) ∗ aside c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) (fun w => A_eq0 (V3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat0 (V3 m) c) rfl rfl); iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (E4 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out (dat0 (V3 m) c) rfl); iexact HO

set_option backward.isDefEq.respectTransparency.types false in
/-- The second pallas_call, relu(agg · factor + b1) · w2 scaled by the factor again. Its arrays are the first
    aggregation, the factor column, the bias row the stretch before it made, the second weight (an argument) and the
    product's buffer, the one output: `W6` differs from `W5` there alone. The invariant is again the plain one. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ aside c)
  post c := iprop(StableHlo.held (c : Thread nD τ) (Pipeline.ucRefs τ sig) (W6 m c) ∗ aside c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) (fun w => A_eq1 (V5 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat1 (V5 m) c) rfl rfl); iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (E6 m c) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out (dat1 (V5 m) c) rfl); iexact HO

set_option backward.isDefEq.respectTransparency.types false in
/-- The third pallas_call, the per-graph sums of relu(agg · factor + b2). Its arrays are the second aggregation, the
    factor column, the bias row, the graph-id column and the sums' buffer. This call accumulates across its 25 points in
    a scratch buffer and writes the sums back at the last point only, so its invariant says more than the plain one
    between points; here the proof data are used through their exported facts alone: full shares (`q_eq2`), nothing
    owed (`owed_eq2`), no bound on the recorded pairs (`recorded_eq2`), and an invariant that the plain one
    entails before the first point (`hin2`) and that entails the plain one after the last (`hout2`). -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun c t => owed_eq2 (V7 m) c t
  pre c := iprop(StableHlo.held (c : Thread nD τ) (Pipeline.ucRefs τ sig) (W7 m c) ∗ aside c)
  post c := iprop(StableHlo.held (c : Thread nD τ) (Pipeline.ucRefs τ sig) (W8 m c) ∗ aside c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full (q_eq2 (V7 m) c)) (V7 m c) (fun w => A_eq2 (V7 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat2 (V7 m) c) (owed_eq2 (V7 m) c 0) (recorded_eq2 (V7 m) c 0)); iexact HO
    isplitl [Hp]; · iexact Hp
    iexact Hrest
  hin c := by
    refine BIBase.Entails.trans ?_ (hin2 (V7 m) c)
    unfold Pipeline.ΦA
    iintro ⟨Hp, -, Hr⟩
    isplitl [Hr]; · iexact Hr
    iexact Hp
  hout c := by
    rw [Pipeline.ownSems0_none]
    refine BIBase.Entails.trans (hout2 (V7 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full (q_eq2 (V7 m) c))
      (V7 m c) (E8 m c) ((pdats m 2 c).arrAt · cfg2.N) (exit_arr2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out (dat2 (V7 m) c) (owed_eq2 (V7 m) c (Fin.last cfg2.N))); iexact HO

set_option backward.isDefEq.respectTransparency.types false in
/-- The fourth pallas_call, the head: one point, eight inputs (the sums, the counts column, three weights that are
    arguments and three bias rows the last stretch made) and two outputs, the embedding and the prediction; `W10`
    differs from `W9` in those two buffers. The invariant is the plain one. This is the last segment: it leaves the
    final thread state, with the ledger set apart as the launch theorem wants it. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ aside c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) (fun w => A_eq3 (V9 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat3 (V9 m) c) rfl rfl); iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (E10 m c) ((pdats m 3 c).arrAt · cfg3.N) (exit_arr3 m c) (exit_rest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_out (dat3 (V9 m) c) rfl); iexact HO

/-! ## The program as its ten segments -/

/-- The ten segments in program order: three host stretches, then each pallas_call with the host stretch before the next. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]

/-- The program is the run of its segments: it is the chain of its ten items, and the segments' run is the chain of
    their programs, item for item. -/
theorem main_run (c : Dev nD) : main (F := F) c = Pipeline.Seg.run (segs m) := (main_chain c).trans (by chain_rfl)

/-! ## The run -/

-- the launch theorem's implicit arguments are found by unifying its conclusion with the goal, which takes unfolding
-- plain definitions inside a metavariable's type
set_option backward.isDefEq.respectTransparency.types false in
/-- From any memory with zero counters, every weakly fair execution of the program terminates, nothing faulting, and
    every final state holds every unscoped buffer of every core at `W10`. The launch deals each core its unscoped
    buffers at the launch memory, its generator register and an empty ledger: the first thread state. Each segment is
    entered from exactly what the one before left. The last state's buffers are read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ aside c)) (Tₙ := Tend m)
    (hch := ⟨fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- The frame: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c),
    (h c _ (mem_uc main_arg8 (by decide))).trans (W10_main_arg8 m c),
    (h c _ (mem_uc main_arg9 (by decide))).trans (W10_main_arg9 m c),
    (h c _ (mem_uc main_arg10 (by decide))).trans (W10_main_arg10 m c),
    (h c _ (mem_uc main_arg11 (by decide))).trans (W10_main_arg11 m c),
    (h c _ (mem_uc main_arg12 (by decide))).trans (W10_main_arg12 m c)⟩) (run_all m ρ)

end Cert.Kernel.Hand

end
-- ==== Proof.KI.R0.lean ====
/-
  The first pallas_call: ten row blocks of 5000 nodes. At each block the body computes (x_block · w1) with the
  per-node factor dis_block broadcast along the 128 features, and stores it whole into the output block. Stated
  here at any entry contents `V` of the core's buffers and at any float instance: what each window's staging buffer
  holds before and after the body, the body's triple, and the pipeline's proof data with the body obligation.
-/
import proofs.«409948_j46497315946702_2_alg».proof.Proof.Gen.KernelIdeal.Launch
import proofs.«409948_j46497315946702_2_alg».proof.Proof.Gen.KernelIdeal.Skeleton
import proofs.«409948_j46497315946702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S5000x128 := Rect.unit (s := S5000x128) ![0, 0] S5000x128.size inb_S5000x128_S5000x128_0_0
abbrev rw0 : Rect S128x128 := Rect.unit (s := S128x128) ![0, 0] S128x128.size inb_S128x128_S128x128_0_0
abbrev rd0 : Rect S5000x1 := Rect.unit (s := S5000x1) ![0, 0] S5000x1.size inb_S5000x1_S5000x1_0_0

/-! ## What the body leaves in the output block -/

/-- The output's staging buffer after the body: its one whole store, of the scaled product of the three input blocks. -/
def out0_3 (x0 : Vec F S5000x128 .f32) (x1 : Vec F S128x128 .f32) (x2 : Vec F S5000x1 .f32) : Vec F S5000x128 .f32 :=
  View.canon [⟨rx0, k0_pay1 (View.ld x0 rx0) (View.ld x1 rw0) (View.ld x2 rd0)⟩]

/-- The one store covers the buffer. -/
theorem cover0_3 (p0 : Vec F S5000x128 .f32) (y : S5000x128.Idx) :
    ∃ pc ∈ ([⟨rx0, p0⟩] : List (View.Piece (Elt F) S5000x128 .f32)), y ∈ pc.1.set :=
  View.cover_of_tiled [⟨rx0, p0⟩] S5000x128.size (by rfl) y

/-! ## The body's triple -/

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second pallas_call: ten row blocks of 5000 nodes. At each block the body forms relu(agg_block · dis_block + b1),
  multiplies it by w2 and scales the product by dis_block again, and stores it whole into the output block. Stated
  here at any entry contents `V` of the core's buffers and at any float instance: what each of the five windows'
  staging buffers holds before and after the body, the body's triple, and the pipeline's proof data with the body
  obligation.
-/
import proofs.«409948_j46497315946702_2_alg».proof.Proof.Gen.KernelIdeal.Launch
import proofs.«409948_j46497315946702_2_alg».proof.Proof.Gen.KernelIdeal.Skeleton
import proofs.«409948_j46497315946702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched (the bias row and the weight matrix after the first point) its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rx1 : Rect S5000x128 := Rect.unit (s := S5000x128) ![0, 0] S5000x128.size inb_S5000x128_S5000x128_0_0
abbrev rd1 : Rect S5000x1 := Rect.unit (s := S5000x1) ![0, 0] S5000x1.size inb_S5000x1_S5000x1_0_0
abbrev rb1 : Rect S1x128 := Rect.unit (s := S1x128) ![0, 0] S1x128.size inb_S1x128_S1x128_0_0
abbrev rw1 : Rect S128x128 := Rect.unit (s := S128x128) ![0, 0] S128x128.size inb_S128x128_S128x128_0_0

/-! ## What the body leaves in the output block -/

/-- The output's staging buffer after the body: its one whole store. The per-node factor is loaded twice by the body
    (once for each of its two uses); both loads read the same block. -/
def out1_4 (x0 : Vec F S5000x128 .f32) (x1 : Vec F S5000x1 .f32) (x2 : Vec F S1x128 .f32) (x3 : Vec F S128x128 .f32) : Vec F S5000x128 .f32 :=
  View.canon [⟨rx1, k1_pay1 (View.ld x0 rx1) (View.ld x1 rd1) (View.ld x2 rb1) (View.ld x3 rw1) (View.ld x1 rd1)⟩]

/-- The one store is of the whole 5000×128 block, so it covers every index of the buffer. -/
theorem cover1_4 (p0 : Vec F S5000x128 .f32) (y : S5000x128.Idx) :
    ∃ pc ∈ ([⟨rx1, p0⟩] : List (View.Piece (Elt F) S5000x128 .f32)), y ∈ pc.1.set :=
  View.cover_of_tiled [⟨rx1, p0⟩] S5000x128.size (by rfl) y

/-! ## The body's triple -/

set_option maxHeartbeats 1000000 in
/-- The body on whole staging memrefs, the four inputs' at contents `x0 x1 x2 x3` and the output's at anything, runs to
    the continuation holding the inputs' as they were and the output's at `out1_4` of them. The per-node factor's
    buffer is read twice and never written between, so both reads return `x1`; the read of the output buffer ahead
    of the store returns whatever was there and feeds nothing. -/
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__bias_relu_matmul_scaled_kernel i arg1 harg1 arg2 harg2 arg3 harg3 arg4 harg4 arg5 harg5) K := by
  simp only [cc1__bias_relu_matmul_scaled_kernel_eq_skeleton]; unfold cc1__bias_relu_matmul_scaled_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this pipeline on core `c`: the arrays as the region finds them; after the body at point `t`
    each of the four inputs' buffers at its block and the output's at `out1_4` of the input blocks; the invariant is
    the scoped rest and the generator register, untouched; nothing owed; full shares. -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is entered with at point `t`: the invariant and the debt as at `t`, and each window's current
    staging buffer owned whole at its `before` contents. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body leaves at point `t`: the invariant and the debt as at the next point, and each window's current
    staging buffer owned whole at its `after` contents. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at point `t` takes `bodyPre1` to `bodyPost1`: the four inputs' buffers hold their blocks whatever the
    point, the invariant and the debt do not depend on the point, and the triple supplies the output. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  The third pallas_call: twenty-five row blocks of 2000 nodes, reduced into one 512 x 128 accumulator the kernel keeps
  in a scratch buffer. The first point zeroes the accumulator; every point adds onehot(batch_block)ᵀ · relu(agg_block ·
  dis_block + b2) to it; the last point copies it to the output block, which is written back only there.
  Stated here at any entry contents `V` of the core's buffers and at any float instance: the body's triple in its
  three control cases (first point, a point in between, last point), what the accumulator holds after each point,
  the invariant that carries it from point to point, and the pipeline's proof data with the body obligation.
-/
import proofs.«409948_j46497315946702_2_alg».proof.Proof.Gen.KernelIdeal.Launch
import proofs.«409948_j46497315946702_2_alg».proof.Proof.Gen.KernelIdeal.Skeleton
import proofs.«409948_j46497315946702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## Whole-buffer loads and stores -/

theorem zeros2 : (![0, 0] : Fin 2 → Nat) = fun _ => 0 := by
  funext a; fin_cases a <;> rfl

/-- The accumulator's buffer, whole: the rectangle of every access the body makes to it and to the output block. -/
abbrev rs2 : Rect S512x128 := Rect.unit (s := S512x128) ![0, 0] S512x128.size inb_S512x128_S512x128_0_0

theorem mem_rs2 (y : S512x128.Idx) : y ∈ rs2.set :=
  View.mem_set_unit_zero zeros2 inb_S512x128_S512x128_0_0 y

/-- A list of stores whose last is of the whole buffer covers it. -/
theorem cover2 (w : Vec F S512x128 .f32) (L : List (View.Piece (Elt F) S512x128 .f32)) (y : S512x128.Idx) :
    ∃ pc ∈ ((⟨rs2, w⟩ : View.Piece (Elt F) S512x128 .f32) :: L), y ∈ pc.1.set :=
  ⟨_, List.mem_cons_self, mem_rs2 y⟩

/-- After stores the last of which is of the whole buffer, the buffer reads that store's payload. -/
theorem read_stores2 {sp : Space} (v : View sig .tc sp S512x128 .f32) (f : v.ty.Contents (Elt F)) (w : Vec F S512x128 .f32)
    (L : List (View.Piece (Elt F) S512x128 .f32)) :
    v.read (Elt F) (v.writes (Elt F) f ((⟨rs2, w⟩ : View.Piece (Elt F) S512x128 .f32) :: L)) = w := by
  rw [View.read_writes_eq_canon _ _ _ (cover2 w L)]
  exact View.canon_cons_unit_zero zeros2 inb_S512x128_S512x128_0_0 w L

/-- A whole-buffer load of a whole memref owned at contents X reads X. -/
theorem load_whole {S : Shape} {e : EltTy} {off : Fin S.rank → Nat} (hz : off = fun _ => 0) (inb : ∀ a, off a + S.size a ≤ S.size a)
    (m : Memref sig .tc .vmem S e) (h : m.IsWhole) (X : S.Idx → Elt F e) :
    View.readAt (Elt F) m.view (Rect.unit off S.size inb).toLoadRect (h.unread X) = X := by
  rw [View.readAt_eq_ld, h.read_unread]; exact View.ld_unit_zero hz inb X

/-! ## The two conditions of the body -/

/-- The body's first conditional, from the grid coordinate: the point is the first of the grid. -/
abbrev first2 (i : grid2.Coords) : Prop :=
  (Scalar.cmpi .ne (Scalar.extui (Scalar.cmpi .eq (BitVec.ofNat 32 (i 0).val) 0#32)) 0#32) = 1#1
/-- The body's second conditional: the point is the last of the grid. -/
abbrev last2 (i : grid2.Coords) : Prop := k2_cond2 i = 1#1

theorem first2_iff : ∀ t : Fin cfg2.N, first2 (grid2.coords t) ↔ t.val = 0 :=
  (by decide +kernel : ∀ t : Fin grid2.N, first2 (grid2.coords t) ↔ t.val = 0)
theorem last2_iff : ∀ t : Fin cfg2.N, last2 (grid2.coords t) ↔ t.val = 24 :=
  (by decide +kernel : ∀ t : Fin grid2.N, last2 (grid2.coords t) ↔ t.val = 24)

/-! ## The body's triple, case by case

The staging memrefs and the accumulator's are whole buffers; every load and store of the body is of a whole
buffer. With the four input blocks `x0 x1 x2 x3` the body's one update of the accumulator stores
`k2_pay2 x0 x1 x2 x3 a`, where `a` is what the accumulator held: the zero block `k2_pay1` at the first point,
which has just stored it, and what the point before left otherwise. -/

set_option maxHeartbeats 2000000 in
/-- The first point: the accumulator is found at anything, zeroed, then updated; the output block is not touched. -/
theorem sound_kernel2_A (c : Dev nD) (E : Set ℕ) (i : grid2.Coords) (hc0 : first2 i) (hc1 : ¬last2 i)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x1 .i32) (harg4 : arg4.IsWhole)
    (arg5 : Memref sig .tc .vmem S512x128 .f32) (harg5 : arg5.IsWhole) (arg6 : Memref sig .tc .vmem S512x128 .f32) (harg6 : arg6.IsWhole)
    (x0 : Vec F S2000x128 .f32) (x1 : Vec F S2000x1 .f32) (x2 : Vec F S1x128 .f32) (x3 : Vec F S2000x1 .i32)
    (xo : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo
            ∗ owns (c : Thread nD τ) arg6 fullShare (k2_pay2 x0 x1 x2 x3 (k2_pay1 (F := F)))) -∗ K ⟨⟩))
      ⊢ wp frame (wpE (defs₀ (F := F)) Variants.none c none) E (cc2__pool_fused_kernel i arg1 harg1 arg2 harg2 arg3 harg3 arg4 harg4 arg5 harg5 arg6 harg6) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  sl_unfold_words
  rw [read_stores2, View.readCov_unit_zero (S := S512x128) _ zeros2]
  simp only [load_whole (S := S2000x128) zeros2, load_whole (S := S2000x1) zeros2, load_whole (S := S1x128) zeros2,
    load_whole (S := S512x128) zeros2]

set_option maxHeartbeats 2000000 in
/-- A point neither first nor last: the accumulator, found at `acc`, is updated; the output block is not touched. -/
theorem sound_kernel2_B (c : Dev nD) (E : Set ℕ) (i : grid2.Coords) (hc0 : ¬first2 i) (hc1 : ¬last2 i)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x1 .i32) (harg4 : arg4.IsWhole)
    (arg5 : Memref sig .tc .vmem S512x128 .f32) (harg5 : arg5.IsWhole) (arg6 : Memref sig .tc .vmem S512x128 .f32) (harg6 : arg6.IsWhole)
    (x0 : Vec F S2000x128 .f32) (x1 : Vec F S2000x1 .f32) (x2 : Vec F S1x128 .f32) (x3 : Vec F S2000x1 .i32)
    (xo : Vec F S512x128 .f32) (acc : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo
            ∗ owns (c : Thread nD τ) arg6 fullShare (k2_pay2 x0 x1 x2 x3 acc)) -∗ K ⟨⟩))
      ⊢ wp frame (wpE (defs₀ (F := F)) Variants.none c none) E (cc2__pool_fused_kernel i arg1 harg1 arg2 harg2 arg3 harg3 arg4 harg4 arg5 harg5 arg6 harg6) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [read_stores2]
  simp only [load_whole (S := S2000x128) zeros2, load_whole (S := S2000x1) zeros2, load_whole (S := S1x128) zeros2,
    load_whole (S := S512x128) zeros2]

set_option maxHeartbeats 2000000 in
/-- The last point: the accumulator, found at `acc`, is updated, and what it then holds is stored whole into the
    output block, found at anything. -/
theorem sound_kernel2_C (c : Dev nD) (E : Set ℕ) (i : grid2.Coords) (hc0 : ¬first2 i) (hc1 : last2 i)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x1 .i32) (harg4 : arg4.IsWhole)
    (arg5 : Memref sig .tc .vmem S512x128 .f32) (harg5 : arg5.IsWhole) (arg6 : Memref sig .tc .vmem S512x128 .f32) (harg6 : arg6.IsWhole)
    (x0 : Vec F S2000x128 .f32) (x1 : Vec F S2000x1 .f32) (x2 : Vec F S1x128 .f32) (x3 : Vec F S2000x1 .i32)
    (acc : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k2_pay2 x0 x1 x2 x3 acc)
            ∗ owns (c : Thread nD τ) arg6 fullShare (k2_pay2 x0 x1 x2 x3 acc)) -∗ K ⟨⟩))
      ⊢ wp frame (wpE (defs₀ (F := F)) Variants.none c none) E (cc2__pool_fused_kernel i arg1 harg1 arg2 harg2 arg3 harg3 arg4 harg4 arg5 harg5 arg6 harg6) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg1.eq_unread hf0; obtain rfl := harg2.eq_unread hf1; obtain rfl := harg3.eq_unread hf2
  obtain rfl := harg4.eq_unread hf3; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [read_stores2, View.readCov_unit_zero (S := S512x128) _ zeros2]
    simp only [load_whole (S := S2000x128) zeros2, load_whole (S := S2000x1) zeros2, load_whole (S := S1x128) zeros2,
    load_whole (S := S512x128) zeros2]
  iexists _; isplitr
  swap; · iexact H5
  ipureintro
  sl_unfold_words
  rw [read_stores2]
  simp only [load_whole (S := S2000x128) zeros2, load_whole (S := S2000x1) zeros2, load_whole (S := S1x128) zeros2,
    load_whole (S := S512x128) zeros2]

/-! ## Where the output block is idle

The output block is stored only at the last point. Everywhere else the pipeline's table calls it idle, and it is
written back at the last point only: at the other points its buffer goes back as it came. -/

theorem idle2_4 (i : grid2.Coords) (h : ¬last2 i) : cfg2.idle 4 i = true := by
  show (!(k2_cond2 i == 1#1)) = true
  cases hb : (k2_cond2 i == 1#1)
  · rfl
  · exact absurd (eq_of_beq hb) h

theorem live2_4 (i : grid2.Coords) (h : last2 i) : cfg2.idle 4 i = false := by
  show (!(k2_cond2 i == 1#1)) = false
  rw [show k2_cond2 i = 1#1 from h]; rfl

theorem noFlush2_4 (t : Fin cfg2.N) (h : t.val ≠ 24) : (cfg2.win 4).flush t = false := by
  have hN : t.val < 25 := lt_of_lt_of_eq t.isLt (show cfg2.N = 25 from N_2)
  cases hf : (cfg2.win 4).flush t
  · rfl
  · exfalso; have := (flush2_4 t).mp hf; omega

/-! ## The accumulator, point by point -/

/-- What the accumulator holds after point `n`: the update of the zero block by the first point's four input
    blocks, then of each point's predecessor by that point's. -/
def scr2 (c : Dev nD) : (n : ℕ) → n < cfg2.N → Vec F S512x128 .f32
  | 0, h => k2_pay2 (iblk2 V c 0 ⟨0, h⟩) (iblk2 V c 1 ⟨0, h⟩) (iblk2 V c 2 ⟨0, h⟩) (iblk2 V c 3 ⟨0, h⟩) (k2_pay1 (F := F))
  | n + 1, h => k2_pay2 (iblk2 V c 0 ⟨n + 1, h⟩) (iblk2 V c 1 ⟨n + 1, h⟩) (iblk2 V c 2 ⟨n + 1, h⟩) (iblk2 V c 3 ⟨n + 1, h⟩)
      (scr2 c n (Nat.lt_of_succ_lt h))

theorem scr2_zero (c : Dev nD) (h : 0 < cfg2.N) :
    scr2 V c 0 h = k2_pay2 (iblk2 V c 0 ⟨0, h⟩) (iblk2 V c 1 ⟨0, h⟩) (iblk2 V c 2 ⟨0, h⟩) (iblk2 V c 3 ⟨0, h⟩) (k2_pay1 (F := F)) := rfl

theorem scr2_succ (c : Dev nD) (n : ℕ) (h : n + 1 < cfg2.N) :
    scr2 V c (n + 1) h = k2_pay2 (iblk2 V c 0 ⟨n + 1, h⟩) (iblk2 V c 1 ⟨n + 1, h⟩) (iblk2 V c 2 ⟨n + 1, h⟩) (iblk2 V c 3 ⟨n + 1, h⟩)
      (scr2 V c n (Nat.lt_of_succ_lt h)) := rfl

/-- At the first point, stated at the point itself. -/
theorem scr2_first (c : Dev nD) (t : Fin cfg2.N) (hz : t.val = 0) :
    scr2 V c t.val t.isLt = k2_pay2 (iblk2 V c 0 t) (iblk2 V c 1 t) (iblk2 V c 2 t) (iblk2 V c 3 t) (k2_pay1 (F := F)) := by
  obtain ⟨n, hn⟩ := t
  cases n with
  | zero => rfl
  | succ n => exact absurd hz (Nat.succ_ne_zero n)

/-- At a later point, over what the point before left. -/
theorem scr2_later (c : Dev nD) (t : Fin cfg2.N) (hz : t.val ≠ 0) :
    scr2 V c t.val t.isLt = k2_pay2 (iblk2 V c 0 t) (iblk2 V c 1 t) (iblk2 V c 2 t) (iblk2 V c 3 t)
      (scr2 V c (t.val - 1) (Nat.lt_of_le_of_lt (Nat.sub_le _ _) t.isLt)) := by
  obtain ⟨n, hn⟩ := t
  cases n with
  | zero => exact absurd rfl hz
  | succ n => rfl

/-! ## The region's invariant -/

/-- The accumulator's buffer as the body is passed it. -/
abbrev scM2 : Memref sig .tc .vmem S512x128 .f32 := Memref.whole cc2_scratch0

/-- What the launch hands the region: the accumulator at some contents, every other scoped buffer that is no
    staging buffer of this call at some contents, unopened, and the generator register at some state. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

/-- The invariant before point `n`: before the first, what the launch hands over; afterwards the same with the
    accumulator at what the point before left. -/
def PhiS2 (c : Dev nD) : (n : ℕ) → n ≤ cfg2.N → sProp 𝕄
  | 0, _ => Pipeline.ΦA spec2 c
  | n + 1, hn => iprop(iprop(owns (c : Thread nD τ) scM2 fullShare (scr2 V c n hn)
          ∗ Pipeline.scopedRestBut (Ix := Unit) (Name := ℕ) (U := UR sig nD τ) (Lvl := ℕ) (Val := Elt F) spec2 c [cc2_scratch0])
        ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (scr2 V c n hn)
          ∗ Pipeline.scopedRestBut (Ix := Unit) (Name := ℕ) (U := UR sig nD τ) (Lvl := ℕ) (Val := Elt F) spec2 c [cc2_scratch0])
        ∗ (∃ r, prngReg c r)) := rfl

theorem PhiS2_pos (c : Dev nD) (n : ℕ) (h : n ≤ cfg2.N) (hz : n ≠ 0) :
    PhiS2 V c n h = iprop(iprop(owns (c : Thread nD τ) scM2 fullShare (scr2 V c (n - 1) (by omega))
          ∗ Pipeline.scopedRestBut (Ix := Unit) (Name := ℕ) (U := UR sig nD τ) (Lvl := ℕ) (Val := Elt F) spec2 c [cc2_scratch0])
        ∗ (∃ r, prngReg c r)) := by
  cases n with
  | zero => exact absurd rfl hz
  | succ n => rfl

/-! ## The pipeline's proof data -/

/-- The proof data of this pipeline on core `c`: the arrays as the region finds them; after the body at point `t`
    each input's buffer at its block and the output's at what the accumulator then holds (read at the last point
    only: elsewhere the output block is idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => scr2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) : ∀ w, (dat2 V c).q w = fullShare := fun _ => rfl
theorem owed_eq2 (c : Dev nD) : ∀ t, (dat2 V c).owed t = 0 := fun _ => rfl
theorem recorded_eq2 (c : Dev nD) : ∀ t, (dat2 V c).recorded t = Set.univ := fun _ => rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = scr2 V c t.val t.isLt := by dsimp only [dat2]

/-- What the last point leaves in the output block: the accumulator after all twenty-five updates. -/
theorem after2_4_last (c : Dev nD) (h : 24 < cfg2.N) : (dat2 V c).after 4 ⟨24, h⟩ = scr2 V c 24 h := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant at a point's start, restated at the point's position. -/
theorem Phi2_castSucc (c : Dev nD) (t : Fin cfg2.N) :
    (dat2 V c).Φ t.castSucc = PhiS2 V c t.val (Nat.le_of_lt t.isLt) := by
  dsimp only [dat2]; simp only [Fin.coe_castSucc]

/-- An input's buffer goes back holding its block: no input window is ever idle. -/
theorem leaves2_0 (c : Dev nD) (t : Fin cfg2.N) :
    (dat2 V c).leavesExact 0 t = owns (c : Thread nD τ) (st2_0 t) fullShare (iblk2 V c 0 t) := by
  rw [← after2_0 V c t]
theorem leaves2_1 (c : Dev nD) (t : Fin cfg2.N) :
    (dat2 V c).leavesExact 1 t = owns (c : Thread nD τ) (st2_1 t) fullShare (iblk2 V c 1 t) := by
  rw [← after2_1 V c t]
theorem leaves2_2 (c : Dev nD) (t : Fin cfg2.N) :
    (dat2 V c).leavesExact 2 t = owns (c : Thread nD τ) (st2_2 t) fullShare (iblk2 V c 2 t) := by
  rw [← after2_2 V c t]
theorem leaves2_3 (c : Dev nD) (t : Fin cfg2.N) :
    (dat2 V c).leavesExact 3 t = owns (c : Thread nD τ) (st2_3 t) fullShare (iblk2 V c 3 t) := by
  rw [← after2_3 V c t]

/-- At the last point the output block goes back at what the body stored. -/
theorem leaves2_4_last (c : Dev nD) (t : Fin cfg2.N) (hl : last2 (grid2.coords t)) :
    (dat2 V c).leavesExact 4 t = owns (c : Thread nD τ) (st2_4 t) fullShare (scr2 V c t.val t.isLt) := by
  rw [← after2_4 V c t]; unfold Dat.leavesExact; rw [live2_4 _ hl]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point. The inputs' buffers hold their blocks; the position says which of the three cases the
    point is in; the invariant hands the body the accumulator (at anything before the first point, at what the
    point before left afterwards) and takes it back at this point's contents; the rest of the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 25 := lt_of_lt_of_eq t.isLt (show cfg2.N = 25 from N_2)
  by_cases hz : t.val = 0
  · -- the first point
    have hf : first2 (grid2.coords t) := (first2_iff t).mpr hz
    have hl : ¬last2 (grid2.coords t) := fun h => by have := (last2_iff t).mp h; omega
    rw [Dat.leavesExact_idle (dat2 V c) 4 t (idle2_4 _ hl) (noFlush2_4 t (by omega))]
    rw [scr2_first V c t hz, Phi2_castSucc, PhiS2_zero V c _ _ hz, PhiA2_eq]
    iintro ⟨⟨⟨HS, HR⟩, Hg⟩, Ho, ⟨%d0, H0⟩, ⟨%d1, H1⟩, ⟨%d2, H2⟩, ⟨%d3, H3⟩, ⟨%d4, H4⟩⟩
    iapply (sound_kernel2_A c Set.univ (grid2.coords t) hf hl _ _ _ _ _ _ _ _ _ _ _ _
      (iblk2 V c 0 t) (iblk2 V c 1 t) (iblk2 V c 2 t) (iblk2 V c 3 t) ((dat2 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hf : ¬first2 (grid2.coords t) := fun h => hz ((first2_iff t).mp h)
    by_cases h24 : t.val = 24
    · -- the last point
      have hl : last2 (grid2.coords t) := (last2_iff t).mpr h24
      rw [leaves2_4_last V c t hl]
      rw [scr2_later V c t hz, Phi2_castSucc, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel2_C c Set.univ (grid2.coords t) hf hl _ _ _ _ _ _ _ _ _ _ _ _
        (iblk2 V c 0 t) (iblk2 V c 1 t) (iblk2 V c 2 t) (iblk2 V c 3 t) (scr2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · -- a point in between
      have hl : ¬last2 (grid2.coords t) := fun h => h24 ((last2_iff t).mp h)
      rw [Dat.leavesExact_idle (dat2 V c) 4 t (idle2_4 _ hl) (noFlush2_4 t h24)]
      rw [scr2_later V c t hz, Phi2_castSucc, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel2_B c Set.univ (grid2.coords t) hf hl _ _ _ _ _ _ _ _ _ _ _ _
        (iblk2 V c 0 t) (iblk2 V c 1 t) (iblk2 V c 2 t) (iblk2 V c 3 t) ((dat2 V c).before 4 t d4)
        (scr2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After any point the invariant gives the launch's back: the accumulator's named contents are forgotten. -/
theorem Phi2_out (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- After the last point the invariant gives it back: the accumulator's named contents are forgotten. -/
theorem hout2 (c : Dev nD) : (dat2 V c).Φ (Fin.last cfg2.N) ⊢ (Pipeline.ΦA spec2 c : sProp 𝕄) :=
  Phi2_out V c _ (by rw [Fin.val_last]; have : cfg2.N = 25 := N_2; omega)

end Cert.KernelIdeal.Hand

end
-- ==== Proof.KI.R3.lean ====
/-
  The fourth pallas_call, one grid point over whole arrays: the pooled sums divided row by row by max(count, 1), then
  three dense layers (relu, relu, linear). It stores the second layer's activation (the embedding) and the last
  layer's output, each whole.
-/
import proofs.«409948_j46497315946702_2_alg».proof.Proof.Gen.KernelIdeal.Launch
import proofs.«409948_j46497315946702_2_alg».proof.Proof.Gen.KernelIdeal.Skeleton
import proofs.«409948_j46497315946702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is made at this parameter
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

abbrev r3_512x128 : Rect S512x128 := Rect.unit (s := S512x128) ![0, 0] S512x128.size inb_S512x128_S512x128_0_0
abbrev r3_512x1 : Rect S512x1 := Rect.unit (s := S512x1) ![0, 0] S512x1.size inb_S512x1_S512x1_0_0
abbrev r3_128x64 : Rect S128x64 := Rect.unit (s := S128x64) ![0, 0] S128x64.size inb_S128x64_S128x64_0_0
abbrev r3_1x64 : Rect S1x64 := Rect.unit (s := S1x64) ![0, 0] S1x64.size inb_S1x64_S1x64_0_0
abbrev r3_64x128 : Rect S64x128 := Rect.unit (s := S64x128) ![0, 0] S64x128.size inb_S64x128_S64x128_0_0
abbrev r3_1x128 : Rect S1x128 := Rect.unit (s := S1x128) ![0, 0] S1x128.size inb_S1x128_S1x128_0_0
abbrev r3_128x1 : Rect S128x1 := Rect.unit (s := S128x1) ![0, 0] S128x1.size inb_S128x1_S128x1_0_0
abbrev r3_1x1 : Rect S1x1 := Rect.unit (s := S1x1) ![0, 0] S1x1.size inb_S1x1_S1x1_0_0

/-- The embedding's staging buffer after the body: its one whole store. -/
def out3_8 (x0 : Vec F S512x128 .f32) (x1 : Vec F S512x1 .f32) (x2 : Vec F S128x64 .f32) (x3 : Vec F S1x64 .f32)
    (x4 : Vec F S64x128 .f32) (x5 : Vec F S1x128 .f32) : Vec F S512x128 .f32 :=
  View.canon [⟨r3_512x128, k3_pay1 (View.ld x0 r3_512x128) (View.ld x1 r3_512x1) (View.ld x2 r3_128x64) (View.ld x3 r3_1x64) (View.ld x4 r3_64x128) (View.ld x5 r3_1x128)⟩]

/-- The last layer's staging buffer after the body: its one whole store. -/
def out3_9 (x0 : Vec F S512x128 .f32) (x1 : Vec F S512x1 .f32) (x2 : Vec F S128x64 .f32) (x3 : Vec F S1x64 .f32)
    (x4 : Vec F S64x128 .f32) (x5 : Vec F S1x128 .f32) (x6 : Vec F S128x1 .f32) (x7 : Vec F S1x1 .f32) : Vec F S512x1 .f32 :=
  View.canon [⟨r3_512x1, k3_pay2 (View.ld x0 r3_512x128) (View.ld x1 r3_512x1) (View.ld x2 r3_128x64) (View.ld x3 r3_1x64) (View.ld x4 r3_64x128) (View.ld x5 r3_1x128) (View.ld x6 r3_128x1) (View.ld x7 r3_1x1)⟩]

/-! ## Each store covers its buffer -/

/-- The embedding's one store covers its buffer. -/
theorem cover3_8 (p0 : Vec F S512x128 .f32) (y : S512x128.Idx) :
    ∃ pc ∈ ([⟨r3_512x128, p0⟩] : List (View.Piece (Elt F) S512x128 .f32)), y ∈ pc.1.set :=
  View.cover_of_tiled [⟨r3_512x128, p0⟩] S512x128.size (by rfl) y

/-- The last layer's one store covers its buffer. -/
theorem cover3_9 (p0 : Vec F S512x1 .f32) (y : S512x1.Idx) :
    ∃ pc ∈ ([⟨r3_512x1, p0⟩] : List (View.Piece (Elt F) S512x1 .f32)), y ∈ pc.1.set :=
  View.cover_of_tiled [⟨r3_512x1, p0⟩] S512x1.size (by rfl) y

/-! ## The body's triple -/

set_option maxHeartbeats 2000000 in
/-- The body on whole staging memrefs, the eight inputs' at contents `x0 … x7` and the two outputs' at anything,
    runs to the continuation holding the inputs' as they were, the embedding's at `out3_8` of the first six and the
    last layer's at `out3_9` of all eight. The eight loads come first and fix both payloads; each output buffer is
    then read once (the value is dropped) and overwritten whole, so neither store sees the other's buffer. -/
theorem sound_kernel3 (c : Dev nD) (E : Set ℕ) (i : grid3.Coords)
    (arg1 : Memref sig .tc .vmem S512x128 .f32) (harg1 : arg1.IsWhole) (arg2 : Memref sig .tc .vmem S512x1 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x128 .f32) (harg5 : arg5.IsWhole) (arg6 : Memref sig .tc .vmem S1x128 .f32) (harg6 : arg6.IsWhole)
    (arg7 : Memref sig .tc .vmem S128x1 .f32) (harg7 : arg7.IsWhole) (arg8 : Memref sig .tc .vmem S1x1 .f32) (harg8 : arg8.IsWhole)
    (arg9 : Memref sig .tc .vmem S512x128 .f32) (harg9 : arg9.IsWhole) (arg10 : Memref sig .tc .vmem S512x1 .f32) (harg10 : arg10.IsWhole)
    (x0 : Vec F S512x128 .f32) (x1 : Vec F S512x1 .f32) (x2 : Vec F S128x64 .f32) (x3 : Vec F S1x64 .f32)
    (x4 : Vec F S64x128 .f32) (x5 : Vec F S1x128 .f32) (x6 : Vec F S128x1 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out3_8 x0 x1 x2 x3 x4 x5)
            ∗ owns (c : Thread nD τ) arg10 fullShare (out3_9 x0 x1 x2 x3 x4 x5 x6 x7)) -∗ K ⟨⟩))
      ⊢ wp frame (wpE (defs₀ (F := F)) Variants.none c none) E
          (cc3__head_kernel i arg1 harg1 arg2 harg2 arg3 harg3 arg4 harg4 arg5 harg5 arg6 harg6 arg7 harg7 arg8 harg8 arg9 harg9 arg10 harg10) K := by
  simp only [cc3__head_kernel_eq_skeleton]; unfold cc3__head_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  -- the eight inputs: never written, each given back at the contents it came with
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  -- the embedding's buffer: one whole-buffer write of the pair's first component, read back through the cover
  isplitl [H8]
  · iexists _; isplitr
    swap; · iexact H8
    ipureintro
    exact View.read_writes_eq_canon _ _ _ (cover3_8 _)
  -- the last layer's buffer: one whole-buffer write of the pair's second component
  iexists _; isplitr
  swap; · iexact H9
  ipureintro
  exact View.read_writes_eq_canon _ _ _ (cover3_9 _)

/-! ## The pipeline's proof data -/

/-- The proof data of the head's pipeline on core `c`. Every window's array starts at what the region finds in it.
    After the body at the single grid point, windows 0 to 7 still hold their input blocks (the body only reads them),
    window 8 holds the second layer's activation `out3_8`, a function of the first six input blocks, and window 9
    holds the last layer's output `out3_9`, a function of all eight. The invariant carried across the point is the
    rest of the core's scoped memory together with the generator's register, which the body leaves alone; every
    share is the full one and no wait is owed at any point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) :
    (dat3 V c).after 8 t = out3_8 (iblk3 V c 0 t) (iblk3 V c 1 t) (iblk3 V c 2 t) (iblk3 V c 3 t) (iblk3 V c 4 t) (iblk3 V c 5 t) := by dsimp only [dat3]
theorem after3_9 (c : Dev nD) (t : Fin cfg3.N) :
    (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the pipeline hands the body at point `t`: the invariant and the ledger as they stand, and each of the ten
    windows' current staging buffers owned whole at what it holds before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- What the body hands back: the invariant and the ledger one point on, and each buffer at what it holds after. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at point `t` takes `bodyPre3` to `bodyPost3`: the inputs' buffers hold their blocks, so the triple
    applies at those blocks; the body touches neither the invariant nor the ledger, which do not move with the point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Bounds.lean ====
/-
  The contents of the core's unscoped buffers at the boundaries of the program's ten segments (host operations, then
  the four pallas_calls with host operations between them): a host stretch applies its operations to the contents
  before it; a pallas_call replaces its windows' arrays by what its write-backs leave and keeps every other buffer.
-/
import proofs.«409948_j46497315946702_2_alg».proof.Proof.Gen.KernelIdeal.Regions
import proofs.«409948_j46497315946702_2_alg».proof.Proof.KI.R0
import proofs.«409948_j46497315946702_2_alg».proof.Proof.KI.R1
import proofs.«409948_j46497315946702_2_alg».proof.Proof.KI.R2
import proofs.«409948_j46497315946702_2_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (edge lists with self loops, degrees, their inverse square roots). -/
abbrev W1 : Dev nD → Valuation τ sig (Elt F) := fun c => StableHlo.after hostOps0 (W0 m c)
/-- After the select that zeroes the factor of a node of degree zero. -/
abbrev W2 : Dev nD → Valuation τ sig (Elt F) := fun c => StableHlo.after hostOps0_1 (W1 m c)
/-- After the reshape of the factor to a column: the first pallas_call's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the first pallas_call's exit. -/
def W4 (c : Dev nD) : Valuation τ sig (Elt F) :=
  Pipeline.withArrays spec0 c (W3 m c) fun w => (dat0 (V3 m) c).arrAt w cfg0.N
/-- After the first gather and scatter-add: the second pallas_call's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At the second pallas_call's exit. -/
def W6 (c : Dev nD) : Valuation τ sig (Elt F) :=
  Pipeline.withArrays spec1 c (W5 m c) fun w => (dat1 (V5 m) c).arrAt w cfg1.N
/-- After the second gather and scatter-add and the per-graph node counts: the third pallas_call's entry. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At the third pallas_call's exit. -/
def W8 (c : Dev nD) : Valuation τ sig (Elt F) :=
  Pipeline.withArrays spec2 c (W7 m c) fun w => (dat2 (V7 m) c).arrAt w cfg2.N
/-- After the reshapes of the three biases: the fourth pallas_call's entry. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- At the fourth pallas_call's exit: the end of the program. -/
def W10 (c : Dev nD) : Valuation τ sig (Elt F) :=
  Pipeline.withArrays spec3 c (W9 m c) fun w => (dat3 (V9 m) c).arrAt w cfg3.N

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

/-! ## What each segment leaves alone -/

/-- A reference outside a host stretch's write set holds after the stretch what it held before: one lemma per stretch. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h
theorem W9_of (c : Dev nD) (r : Ref sig .tc) (h : r ∉ hostOps3_W) : W9 m c (Proc.devRef .tc r) = W8 m c (Proc.devRef .tc r) :=
  StableHlo.after_of_writes_sub hostOps3 _ hostOps3_writes h

/-- An input window's array leaves a pallas_call as it entered it: its write-back fold never fires, so the array at
    the last point is the array at entry, which the proof data read off the entry contents. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hin _).trans (A_eq1 (V5 m) c w))
theorem W10_in (c : Dev nD) (w : Fin cfg3.W) (hin : (cfg3.win w).isOut = false) :
    W10 m c (Proc.devRef .tc (Pipeline.arrRef spec3 w)) = W9 m c (Proc.devRef .tc (Pipeline.arrRef spec3 w)) :=
  (W10_arr m c w).trans (((dat3 (V9 m) c).arrAt_in w hin _).trans (A_eq3 (V9 m) c w))

/-- A reference that none of the six host stretches writes and that each of the four pallas_calls hands back as it
    found it (`e0 … e3`: it is an input window's array there, or no window's) ends the program at its launch contents:
    the ten boundary contents are walked back one segment at a time. -/
theorem W10_launch (c : Dev nD) (r : Ref sig .tc)
    (h0 : r ∉ hostOps0_W) (h1 : r ∉ hostOps0_1_W) (h2 : r ∉ hostOps0_2_W) (h4 : r ∉ hostOps1_W) (h6 : r ∉ hostOps2_W) (h8 : r ∉ hostOps3_W)
    (e0 : W4 m c (Proc.devRef .tc r) = W3 m c (Proc.devRef .tc r)) (e1 : W6 m c (Proc.devRef .tc r) = W5 m c (Proc.devRef .tc r))
    (e2 : W8 m c (Proc.devRef .tc r) = W7 m c (Proc.devRef .tc r)) (e3 : W10 m c (Proc.devRef .tc r) = W9 m c (Proc.devRef .tc r)) :
    W10 m c (Proc.devRef .tc r) = m ((c : Thread nD τ).loc r) :=
  calc W10 m c (Proc.devRef .tc r)
    _ = W9 m c (Proc.devRef .tc r) := e3
    _ = W8 m c (Proc.devRef .tc r) := W9_of m c r h8
    _ = W7 m c (Proc.devRef .tc r) := e2
    _ = W6 m c (Proc.devRef .tc r) := W7_of m c r h6
    _ = W5 m c (Proc.devRef .tc r) := e1
    _ = W4 m c (Proc.devRef .tc r) := W5_of m c r h4
    _ = W3 m c (Proc.devRef .tc r) := e0
    _ = W2 m c (Proc.devRef .tc r) := W3_of m c r h2
    _ = W1 m c (Proc.devRef .tc r) := W2_of m c r h1
    _ = W0 m c (Proc.devRef .tc r) := W1_of m c r h0
    _ = m ((c : Thread nD τ).loc r) := rfl

end Cert.KernelIdeal.Hand

end
-- ==== Proof.KI.Run.lean ====
/-
  The whole program as ten segments: host operations, then the four pallas_calls with host operations between them.
  `W0 … W10`, defined in the module before this one, are the contents of the core's unscoped buffers at the segment
  boundaries: a host stretch applies its operations, a pallas_call replaces its windows' arrays by what its write-backs
  leave and keeps every other buffer.
  `run_all`: every weakly fair execution terminates without a fault and ends with every unscoped buffer at `W10`.
  The arguments are written by nothing on the way, so `W10` at an argument is its launch contents.
-/
import proofs.«409948_j46497315946702_2_alg».proof.Proof.KI.R0
import proofs.«409948_j46497315946702_2_alg».proof.Proof.KI.R1
import proofs.«409948_j46497315946702_2_alg».proof.Proof.KI.R2
import proofs.«409948_j46497315946702_2_alg».proof.Proof.KI.R3
import proofs.«409948_j46497315946702_2_alg».proof.Proof.KI.Bounds
import proofs.«409948_j46497315946702_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

The thirteen arguments are the node features, the edge list, the graph ids, and the weights and biases of the two
convolutions and of the three layers of the head. Every one of them is only ever read: six enter a pallas_call through
an input window (the features and the first weight in the first call, the second weight in the second, the head's three
weights in the fourth), the other seven are read by host operations (the edge list sliced into sources and destinations,
the graph ids broadcast and reshaped, each bias reshaped to a row) whose results are other buffers. -/

/-- The node features: input window 0 of the first pallas_call, its row blocks fetched point by point and never written back. -/
theorem W10_main_arg0 (c : Dev nD) : W10 m c (Proc.devRef .tc main_arg0) = m ((c : Thread nD τ).loc main_arg0) :=
  W10_launch m c main_arg0 (by decide) (by decide) (by decide) (by decide) (by decide) (by decide)
    (W4_in m c 0 rfl) (W6_of_ne m c main_arg0 (by decide)) (W8_of_ne m c main_arg0 (by decide)) (W10_of_ne m c main_arg0 (by decide))

/-- The edge list: the first host stretch slices its two rows out of it into buffers of their own; no pallas_call sees it. -/
theorem W10_main_arg1 (c : Dev nD) : W10 m c (Proc.devRef .tc main_arg1) = m ((c : Thread nD τ).loc main_arg1) :=
  W10_launch m c main_arg1 (by decide) (by decide) (by decide) (by decide) (by decide) (by decide)
    (W4_of_ne m c main_arg1 (by decide)) (W6_of_ne m c main_arg1 (by decide)) (W8_of_ne m c main_arg1 (by decide)) (W10_of_ne m c main_arg1 (by decide))

/-- The graph ids: the stretch before the third pallas_call broadcasts them for the node counts and reshapes them to the
    column that call reads; the column is another buffer, and the ids themselves are no window. -/
theorem W10_main_arg2 (c : Dev nD) : W10 m c (Proc.devRef .tc main_arg2) = m ((c : Thread nD τ).loc main_arg2) :=
  W10_launch m c main_arg2 (by decide) (by decide) (by decide) (by decide) (by decide) (by decide)
    (W4_of_ne m c main_arg2 (by decide)) (W6_of_ne m c main_arg2 (by decide)) (W8_of_ne m c main_arg2 (by decide)) (W10_of_ne m c main_arg2 (by decide))

/-- The first convolution's weight: input window 1 of the first pallas_call, fetched once and kept. -/
theorem W10_main_arg3 (c : Dev nD) : W10 m c (Proc.devRef .tc main_arg3) = m ((c : Thread nD τ).loc main_arg3) :=
  W10_launch m c main_arg3 (by decide) (by decide) (by decide) (by decide) (by decide) (by decide)
    (W4_in m c 1 rfl) (W6_of_ne m c main_arg3 (by decide)) (W8_of_ne m c main_arg3 (by decide)) (W10_of_ne m c main_arg3 (by decide))

/-- The first convolution's bias: reshaped to a row by the stretch before the second pallas_call, which reads the row. -/
theorem W10_main_arg4 (c : Dev nD) : W10 m c (Proc.devRef .tc main_arg4) = m ((c : Thread nD τ).loc main_arg4) :=
  W10_launch m c main_arg4 (by decide) (by decide) (by decide) (by decide) (by decide) (by decide)
    (W4_of_ne m c main_arg4 (by decide)) (W6_of_ne m c main_arg4 (by decide)) (W8_of_ne m c main_arg4 (by decide)) (W10_of_ne m c main_arg4 (by decide))

/-- The second convolution's weight: input window 3 of the second pallas_call, fetched once and kept. -/
theorem W10_main_arg5 (c : Dev nD) : W10 m c (Proc.devRef .tc main_arg5) = m ((c : Thread nD τ).loc main_arg5) :=
  W10_launch m c main_arg5 (by decide) (by decide) (by decide) (by decide) (by decide) (by decide)
    (W4_of_ne m c main_arg5 (by decide)) (W6_in m c 3 rfl) (W8_of_ne m c main_arg5 (by decide)) (W10_of_ne m c main_arg5 (by decide))

/-- The second convolution's bias: reshaped to a row by the stretch before the third pallas_call, which reads the row. -/
theorem W10_main_arg6 (c : Dev nD) : W10 m c (Proc.devRef .tc main_arg6) = m ((c : Thread nD τ).loc main_arg6) :=
  W10_launch m c main_arg6 (by decide) (by decide) (by decide) (by decide) (by decide) (by decide)
    (W4_of_ne m c main_arg6 (by decide)) (W6_of_ne m c main_arg6 (by decide)) (W8_of_ne m c main_arg6 (by decide)) (W10_of_ne m c main_arg6 (by decide))

/-- The head's first weight: input window 2 of the fourth pallas_call. -/
theorem W10_main_arg7 (c : Dev nD) : W10 m c (Proc.devRef .tc main_arg7) = m ((c : Thread nD τ).loc main_arg7) :=
  W10_launch m c main_arg7 (by decide) (by decide) (by decide) (by decide) (by decide) (by decide)
    (W4_of_ne m c main_arg7 (by decide)) (W6_of_ne m c main_arg7 (by decide)) (W8_of_ne m c main_arg7 (by decide)) (W10_in m c 2 rfl)

/-- The head's first bias: reshaped to a row by the last host stretch. -/
theorem W10_main_arg8 (c : Dev nD) : W10 m c (Proc.devRef .tc main_arg8) = m ((c : Thread nD τ).loc main_arg8) :=
  W10_launch m c main_arg8 (by decide) (by decide) (by decide) (by decide) (by decide) (by decide)
    (W4_of_ne m c main_arg8 (by decide)) (W6_of_ne m c main_arg8 (by decide)) (W8_of_ne m c main_arg8 (by decide)) (W10_of_ne m c main_arg8 (by decide))

/-- The embedding layer's weight: input window 4 of the fourth pallas_call. -/
theorem W10_main_arg9 (c : Dev nD) : W10 m c (Proc.devRef .tc main_arg9) = m ((c : Thread nD τ).loc main_arg9) :=
  W10_launch m c main_arg9 (by decide) (by decide) (by decide) (by decide) (by decide) (by decide)
    (W4_of_ne m c main_arg9 (by decide)) (W6_of_ne m c main_arg9 (by decide)) (W8_of_ne m c main_arg9 (by decide)) (W10_in m c 4 rfl)

/-- The embedding layer's bias: reshaped to a row by the last host stretch. -/
theorem W10_main_arg10 (c : Dev nD) : W10 m c (Proc.devRef .tc main_arg10) = m ((c : Thread nD τ).loc main_arg10) :=
  W10_launch m c main_arg10 (by decide) (by decide) (by decide) (by decide) (by decide) (by decide)
    (W4_of_ne m c main_arg10 (by decide)) (W6_of_ne m c main_arg10 (by decide)) (W8_of_ne m c main_arg10 (by decide)) (W10_of_ne m c main_arg10 (by decide))

/-- The output layer's weight: input window 6 of the fourth pallas_call. -/
theorem W10_main_arg11 (c : Dev nD) : W10 m c (Proc.devRef .tc main_arg11) = m ((c : Thread nD τ).loc main_arg11) :=
  W10_launch m c main_arg11 (by decide) (by decide) (by decide) (by decide) (by decide) (by decide)
    (W4_of_ne m c main_arg11 (by decide)) (W6_of_ne m c main_arg11 (by decide)) (W8_of_ne m c main_arg11 (by decide)) (W10_in m c 6 rfl)

/-- The output layer's bias: reshaped to a one-by-one by the last host stretch. -/
theorem W10_main_arg12 (c : Dev nD) : W10 m c (Proc.devRef .tc main_arg12) = m ((c : Thread nD τ).loc main_arg12) :=
  W10_launch m c main_arg12 (by decide) (by decide) (by decide) (by decide) (by decide) (by decide)
    (W4_of_ne m c main_arg12 (by decide)) (W6_of_ne m c main_arg12 (by decide)) (W8_of_ne m c main_arg12 (by decide)) (W10_of_ne m c main_arg12 (by decide))

/-! ## The proof data family -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The thread state between segments -/

abbrev 𝒱₀ : Variants := Variants.none
/-- No core waits on another: no level is assigned anywhere. -/
abbrev L : GSem nD τ sig → Finset Unit := fun _ => ∅
abbrev lv : GSem nD τ sig → Unit → ℕ := fun _ _ => 0

/-- What a core holds beside its unscoped buffers at every boundary: its generator register at some state (a
    pallas_call's invariant takes it in and gives it back) and the ledger of what it owes, which is nothing. -/
abbrev aside (c : Dev nD) : sProp 𝕄 :=
  iprop((∃ r, prngReg c r) ∗ ∃ W, owes (c : Thread nD τ) (0 : CellTallies nD τ sig Unit) W)

/-- A host stretch as a segment: its operations run over the unscoped buffers from the contents `W`, to those
    contents after the operations, `aside` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside

/-- The last thread state but for the ledger: every unscoped buffer at `W10`, the generator register at some state. -/
abbrev Tend (c : Dev nD) : sProp 𝕄 :=
  iprop(StableHlo.held (c : Thread nD τ) (Pipeline.ucRefs τ sig) (W10 m c) ∗ ∃ r, prngReg c r)

/-- A core owing nothing, whatever pairs it has recorded, meets a pipeline's entry ledger when the proof data owe
    nothing before the first point and put no bound on the recorded pairs there. -/
theorem owes_in {cfg : Cfg sig Λ₀} {c : Dev nD} (dat : Dat τ (Elt F) Unit ℕ (UR sig nD τ) ℕ cfg c)
    (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [h0, hr]
  iintro ⟨%W, HO⟩; iexists W
  isplitr; · ipureintro; exact fun _ _ => Or.inl trivial
  iexact HO

/-- A pipeline's exit ledger, when the proof data owe nothing after the last point, is a core owing nothing. -/
theorem owes_out {cfg : Cfg sig Λ₀} {c : Dev nD} (dat : Dat τ (Elt F) Unit ℕ (UR sig nD τ) ℕ cfg c)
    (h : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [h]
  iintro ⟨%W, -, HO⟩; iexists W; iexact HO

/-! ## The exit contents read at the TensorCore's references -/

abbrev E4 : (c : Dev nD) → (b : Ref sig .tc) → Buf (Elt F) ((c : Thread nD τ).loc b) := fun c b => W4 m c b
abbrev E6 : (c : Dev nD) → (b : Ref sig .tc) → Buf (Elt F) ((c : Thread nD τ).loc b) := fun c b => W6 m c b
abbrev E8 : (c : Dev nD) → (b : Ref sig .tc) → Buf (Elt F) ((c : Thread nD τ).loc b) := fun c b => W8 m c b
abbrev E10 : (c : Dev nD) → (b : Ref sig .tc) → Buf (Elt F) ((c : Thread nD τ).loc b) := fun c b => W10 m c b

/-- At a pallas_call's exit each of its arrays holds what the write-backs leave (`exit_arrK`) and every other buffer
    what it held at entry (`exit_restK`): the two facts that put the arrays back among the unscoped buffers. -/
theorem exit_arr0 (c : Dev nD) (w : Fin cfg0.W) : (dat0 (V3 m) c).arrAt w cfg0.N = E4 m c (Pipeline.arrRef spec0 w) :=
  (W4_arr m c w).symm
theorem exit_rest0 (c : Dev nD) : ∀ b, b ∉ Finset.univ.image (Pipeline.arrRef spec0) → E4 m c b = V3 m c b :=
  fun b hb => W4_of_ne m c b fun w e => hb (Finset.mem_image.mpr ⟨w, Finset.mem_univ _, e⟩)
theorem exit_arr1 (c : Dev nD) (w : Fin cfg1.W) : (dat1 (V5 m) c).arrAt w cfg1.N = E6 m c (Pipeline.arrRef spec1 w) :=
  (W6_arr m c w).symm
theorem exit_rest1 (c : Dev nD) : ∀ b, b ∉ Finset.univ.image (Pipeline.arrRef spec1) → E6 m c b = V5 m c b :=
  fun b hb => W6_of_ne m c b fun w e => hb (Finset.mem_image.mpr ⟨w, Finset.mem_univ _, e⟩)
theorem exit_arr2 (c : Dev nD) (w : Fin cfg2.W) : (dat2 (V7 m) c).arrAt w cfg2.N = E8 m c (Pipeline.arrRef spec2 w) :=
  (W8_arr m c w).symm
theorem exit_rest2 (c : Dev nD) : ∀ b, b ∉ Finset.univ.image (Pipeline.arrRef spec2) → E8 m c b = V7 m c b :=
  fun b hb => W8_of_ne m c b fun w e => hb (Finset.mem_image.mpr ⟨w, Finset.mem_univ _, e⟩)
theorem exit_arr3 (c : Dev nD) (w : Fin cfg3.W) : (dat3 (V9 m) c).arrAt w cfg3.N = E10 m c (Pipeline.arrRef spec3 w) :=
  (W10_arr m c w).symm
theorem exit_rest3 (c : Dev nD) : ∀ b, b ∉ Finset.univ.image (Pipeline.arrRef spec3) → E10 m c b = V9 m c b :=
  fun b hb => W10_of_ne m c b fun w e => hb (Finset.mem_image.mpr ⟨w, Finset.mem_univ _, e⟩)

/-! ## The pallas_calls as segments

Each of the four records below follows one protocol. ENTRY: the call's window arrays are split out of the unscoped
buffers, at the contents its proof data read off the entry valuation; every other unscoped buffer bypasses the call;
the generator register goes into the call's invariant; the empty ledger becomes the pipeline's entry ledger. EXIT: the
arrays come back at what the write-backs leave (an input's as it entered, an output's with its blocks overwritten), and
together with the bypassing buffers they are the unscoped buffers at the next boundary's valuation, which was defined
as exactly that. No call has a semaphore of its own or a prefetched table, and none owes anything at any point.

The records need unification to unfold plain definitions inside a metavariable's type: the library states its lemmas
over the pinned configuration `pin pcs a p`, and the printed configuration is that only after unfolding. -/

set_option backward.isDefEq.respectTransparency.types false in
/-- The first pallas_call, (x · w1) scaled by the per-node factor. Its arrays are the node features and the first
    weight (two arguments), the factor column and the product's buffer; of the four only the last is an output, so
    `W4` differs from `W3` in that one buffer. The invariant is the plain one: the scoped buffers no window stages and
    the generator register, taken in and given back as they are. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ aside c)
  post c := iprop(StableHlo.held (c : Thread nD τ) (Pipeline.ucRefs τ sig) (W4 m c) ∗ aside c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) (fun w => A_eq0 (V3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat0 (V3 m) c) rfl rfl); iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (E4 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out (dat0 (V3 m) c) rfl); iexact HO

set_option backward.isDefEq.respectTransparency.types false in
/-- The second pallas_call, relu(agg · factor + b1) · w2 scaled by the factor again. Its arrays are the first
    aggregation, the factor column, the bias row the stretch before it made, the second weight (an argument) and the
    product's buffer, the one output: `W6` differs from `W5` there alone. The invariant is again the plain one. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ aside c)
  post c := iprop(StableHlo.held (c : Thread nD τ) (Pipeline.ucRefs τ sig) (W6 m c) ∗ aside c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) (fun w => A_eq1 (V5 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat1 (V5 m) c) rfl rfl); iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (E6 m c) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out (dat1 (V5 m) c) rfl); iexact HO

set_option backward.isDefEq.respectTransparency.types false in
/-- The third pallas_call, the per-graph sums of relu(agg · factor + b2). Its arrays are the second aggregation, the
    factor column, the bias row, the graph-id column and the sums' buffer. This call accumulates across its 25 points in
    a scratch buffer and writes the sums back at the last point only, so its invariant says more than the plain one
    between points; here the proof data are used through their exported facts alone: full shares (`q_eq2`), nothing
    owed (`owed_eq2`), no bound on the recorded pairs (`recorded_eq2`), and an invariant that the plain one
    entails before the first point (`hin2`) and that entails the plain one after the last (`hout2`). -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun c t => owed_eq2 (V7 m) c t
  pre c := iprop(StableHlo.held (c : Thread nD τ) (Pipeline.ucRefs τ sig) (W7 m c) ∗ aside c)
  post c := iprop(StableHlo.held (c : Thread nD τ) (Pipeline.ucRefs τ sig) (W8 m c) ∗ aside c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full (q_eq2 (V7 m) c)) (V7 m c) (fun w => A_eq2 (V7 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat2 (V7 m) c) (owed_eq2 (V7 m) c 0) (recorded_eq2 (V7 m) c 0)); iexact HO
    isplitl [Hp]; · iexact Hp
    iexact Hrest
  hin c := by
    refine BIBase.Entails.trans ?_ (hin2 (V7 m) c)
    unfold Pipeline.ΦA
    iintro ⟨Hp, -, Hr⟩
    isplitl [Hr]; · iexact Hr
    iexact Hp
  hout c := by
    rw [Pipeline.ownSems0_none]
    refine BIBase.Entails.trans (hout2 (V7 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full (q_eq2 (V7 m) c))
      (V7 m c) (E8 m c) ((pdats m 2 c).arrAt · cfg2.N) (exit_arr2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out (dat2 (V7 m) c) (owed_eq2 (V7 m) c (Fin.last cfg2.N))); iexact HO

set_option backward.isDefEq.respectTransparency.types false in
/-- The fourth pallas_call, the head: one point, eight inputs (the sums, the counts column, three weights that are
    arguments and three bias rows the last stretch made) and two outputs, the embedding and the prediction; `W10`
    differs from `W9` in those two buffers. The invariant is the plain one. This is the last segment: it leaves the
    final thread state, with the ledger set apart as the launch theorem wants it. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ aside c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) (fun w => A_eq3 (V9 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (dat3 (V9 m) c) rfl rfl); iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (E10 m c) ((pdats m 3 c).arrAt · cfg3.N) (exit_arr3 m c) (exit_rest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_out (dat3 (V9 m) c) rfl); iexact HO

/-! ## The program as its ten segments -/

/-- The ten segments in program order: three host stretches, then each pallas_call with the host stretch before the next. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]

/-- The program is the run of its segments: it is the chain of its ten items, and the segments' run is the chain of
    their programs, item for item. -/
theorem main_run (c : Dev nD) : main (F := F) c = Pipeline.Seg.run (segs m) := (main_chain c).trans (by chain_rfl)

/-! ## The run -/

-- the launch theorem's implicit arguments are found by unifying its conclusion with the goal, which takes unfolding
-- plain definitions inside a metavariable's type
set_option backward.isDefEq.respectTransparency.types false in
/-- From any memory with zero counters, every weakly fair execution of the program terminates, nothing faulting, and
    every final state holds every unscoped buffer of every core at `W10`. The launch deals each core its unscoped
    buffers at the launch memory, its generator register and an empty ledger: the first thread state. Each segment is
    entered from exactly what the one before left. The last state's buffers are read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ aside c)) (Tₙ := Tend m)
    (hch := ⟨fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- The frame: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c),
    (h c _ (mem_uc main_arg8 (by decide))).trans (W10_main_arg8 m c),
    (h c _ (mem_uc main_arg9 (by decide))).trans (W10_main_arg9 m c),
    (h c _ (mem_uc main_arg10 (by decide))).trans (W10_main_arg10 m c),
    (h c _ (mem_uc main_arg11 (by decide))).trans (W10_main_arg11 m c),
    (h c _ (mem_uc main_arg12 (by decide))).trans (W10_main_arg12 m c)⟩) (run_all m ρ)

end Cert.KernelIdeal.Hand

end
-- ==== Proof.Val.Spec.lean ====
/-
  WHAT BOTH PROGRAMS COMPUTE, as functions of the thirteen argument arrays on the extended reals, written twice.

  The graph: edge e < 800000 runs from node ei(0, e) to node ei(1, e); edges 800000 + n are the self loops n → n.
  A word used to GATHER a row has 50000 added when negative and is then clamped into the table; a word used to
  SCATTER lands at node n only when its signed value is n, and is dropped otherwise. The degree of a node counts the
  edges landing on it, and `dis n` is its inverse square root (zero for a node nothing lands on).

  One graph-convolution layer takes features X, weights W and a bias b to relu(Â (X W) + b) with Â the adjacency
  normalised by `dis` on both sides. The KERNEL FORM scales the projected features by `dis` at the source before the
  sum over incoming edges and by `dis` at the target after it; the REFERENCE FORM scales each edge's message by the
  product of the two factors before the sum. Two layers, then the mean over each graph's nodes (the kernel form sums
  over all nodes against an indicator, the reference form over the graph's nodes), then three dense layers.
-/
import Idealize.ShloMosaic.PureOps.Ideal
import Idealize.ShloMosaic.Lib.ValueIdx

noncomputable section

open scoped BigOperators

namespace Cert.Spec

open Idealize.ShloMosaic Idealize.ShloMosaic.ValueIdx

/-! ## Reading a buffer as a function of its literal index type -/

/-- A float buffer of shape `S`, read as a function from `S`'s indices to the extended reals. -/
abbrev rd (S : Shape) (f : S.Idx → EReal) : S.Idx → EReal := f
/-- A buffer of 32-bit words of shape `S`, read as a function from `S`'s indices to words. -/
abbrev rdw (S : Shape) (f : S.Idx → BitVec 32) : S.Idx → BitVec 32 := f

/-! ## The graph -/

/-- The edge list as the programs take it: two rows of 800000 words. -/
abbrev EdgeWords := IVec (⟨2, ![2, 800000]⟩ : Shape) 32
/-- The graph id of every node. -/
abbrev BatchWords := IVec (⟨1, ![50000]⟩ : Shape) 32

/-- The source word of edge `e`: the first row of the edge list, then the self loops. -/
def srcW (ei : EdgeWords) (e : Fin 850000) : BitVec 32 :=
  if h : e.val < 800000 then ei (ix2 (0 : Fin 2) (⟨e.val, h⟩ : Fin 800000)) else BitVec.ofNat 32 (e.val - 800000)
/-- The target word of edge `e`: the second row of the edge list, then the self loops. -/
def dstW (ei : EdgeWords) (e : Fin 850000) : BitVec 32 :=
  if h : e.val < 800000 then ei (ix2 (1 : Fin 2) (⟨e.val, h⟩ : Fin 800000)) else BitVec.ofNat 32 (e.val - 800000)

/-- The row a gather reads for the word `v`: a negative word has 50000 added, then the signed value is clamped into
    the table's 50000 rows. -/
def rowOf (v : BitVec 32) : Fin 50000 :=
  ⟨min (if v.slt 0#32 then v + 50000#32 else v).toInt.toNat 49999, by omega⟩

/-- The edges a scatter lands on node `n`: those whose target word, read signed, is `n`. -/
def into (ei : EdgeWords) (n : Fin 50000) : Finset (Fin 850000) :=
  Finset.univ.filter fun e => (dstW ei e).toInt = (n.val : Int)

/-- The float word of the degree's floor under the inverse square root, 1e-12 rounded to f32, as an extended real. -/
def tiny : EReal := Ideal.ofBits .f32 0x2B8CBCCC#32

/-- The degree of node `n`: the number of edges landing on it. -/
def deg (ei : EdgeWords) (n : Fin 50000) : EReal := 0 + ∑ _e ∈ into ei n, (1 : EReal)

/-- The normalisation factor of node `n`: the inverse square root of its degree, zero where the degree is not positive. -/
def dis (ei : EdgeWords) (n : Fin 50000) : EReal :=
  if Ideal.cmp .ogt (deg ei n) 0 = 1#1 then Ideal.rsqrt (max (deg ei n) tiny) else 0

/-! ## One layer, in the two forms -/

/-- Features times weights. -/
def proj (X : Fin 50000 → Fin 128 → EReal) (W : Fin 128 → Fin 128 → EReal) (n : Fin 50000) (k : Fin 128) : EReal :=
  ∑ j : Fin 128, X n j * W j k

/-- KERNEL FORM: the projected features scaled at the source, summed over the incoming edges, scaled at the target. -/
def layerK (ei : EdgeWords) (X : Fin 50000 → Fin 128 → EReal) (W : Fin 128 → Fin 128 → EReal) (b : Fin 128 → EReal)
    (n : Fin 50000) (k : Fin 128) : EReal :=
  max ((0 + ∑ e ∈ into ei n, proj X W (rowOf (srcW ei e)) k * dis ei (rowOf (srcW ei e))) * dis ei n + b k) 0

/-- REFERENCE FORM: each incoming edge's message scaled by the product of its two factors, then summed. -/
def layerR (ei : EdgeWords) (X : Fin 50000 → Fin 128 → EReal) (W : Fin 128 → Fin 128 → EReal) (b : Fin 128 → EReal)
    (n : Fin 50000) (k : Fin 128) : EReal :=
  max ((0 + ∑ e ∈ into ei n,
      proj X W (rowOf (srcW ei e)) k * (dis ei (rowOf (srcW ei e)) * dis ei (rowOf (dstW ei e)))) + b k) 0

/-! ## The pooling, in the two forms, and the counts -/

/-- KERNEL FORM: every node's features against the indicator that its graph id is the word `g`. -/
def poolK (bt : BatchWords) (H : Fin 50000 → Fin 128 → EReal) (g : Fin 512) (k : Fin 128) : EReal :=
  ∑ n : Fin 50000, (if bt (ix1 n) = BitVec.ofNat 32 g.val then (1 : EReal) else 0) * H n k

/-- REFERENCE FORM: the features of the nodes whose graph id, read signed, is `g`. -/
def poolR (bt : BatchWords) (H : Fin 50000 → Fin 128 → EReal) (g : Fin 512) (k : Fin 128) : EReal :=
  0 + ∑ n ∈ Finset.univ.filter (fun n : Fin 50000 => (bt (ix1 n)).toInt = (g.val : Int)), H n k

/-- The number of nodes of graph `g`. -/
def cnt (bt : BatchWords) (g : Fin 512) : EReal :=
  0 + ∑ _n ∈ Finset.univ.filter (fun n : Fin 50000 => (bt (ix1 n)).toInt = (g.val : Int)), (1 : EReal)

/-! ## The head: mean, then three dense layers -/

/-- The per-graph mean (sum over count, the count floored at one). -/
def mean (S : Fin 512 → Fin 128 → EReal) (cn : Fin 512 → EReal) (g : Fin 512) (k : Fin 128) : EReal :=
  Ideal.div (S g k) (max (cn g) 1)

/-- The first dense layer, 128 → 64, with relu. -/
def hid (M : Fin 512 → Fin 128 → EReal) (w : Fin 128 → Fin 64 → EReal) (b : Fin 64 → EReal) (g : Fin 512) (j : Fin 64) : EReal :=
  max ((∑ k : Fin 128, M g k * w k j) + b j) 0

/-- The second dense layer, 64 → 128, with relu: the embedding, the first result. -/
def emb (Z : Fin 512 → Fin 64 → EReal) (w : Fin 64 → Fin 128 → EReal) (b : Fin 128 → EReal) (g : Fin 512) (k : Fin 128) : EReal :=
  max ((∑ j : Fin 64, Z g j * w j k) + b k) 0

/-- The last dense layer, 128 → 1: the second result. -/
def out (E : Fin 512 → Fin 128 → EReal) (w : Fin 128 → EReal) (b : EReal) (g : Fin 512) : EReal :=
  (∑ k : Fin 128, E g k * w k) + b

/-! ## The arguments as functions of coordinates -/

structure Args where
  x : Fin 50000 → Fin 128 → EReal
  ei : EdgeWords
  bt : BatchWords
  w1 : Fin 128 → Fin 128 → EReal
  b1 : Fin 128 → EReal
  w2 : Fin 128 → Fin 128 → EReal
  b2 : Fin 128 → EReal
  fc1w : Fin 128 → Fin 64 → EReal
  fc1b : Fin 64 → EReal
  fembw : Fin 64 → Fin 128 → EReal
  fembb : Fin 128 → EReal
  foutw : Fin 128 → EReal
  foutb : EReal

/-- The thirteen argument arrays, as the programs take them, read by coordinates. -/
def Args.of (x0 : FVec Ideal (⟨2, ![50000, 128]⟩ : Shape) .f32) (x1 : EdgeWords) (x2 : BatchWords)
    (x3 : FVec Ideal (⟨2, ![128, 128]⟩ : Shape) .f32) (x4 : FVec Ideal (⟨1, ![128]⟩ : Shape) .f32)
    (x5 : FVec Ideal (⟨2, ![128, 128]⟩ : Shape) .f32) (x6 : FVec Ideal (⟨1, ![128]⟩ : Shape) .f32)
    (x7 : FVec Ideal (⟨2, ![128, 64]⟩ : Shape) .f32) (x8 : FVec Ideal (⟨1, ![64]⟩ : Shape) .f32)
    (x9 : FVec Ideal (⟨2, ![64, 128]⟩ : Shape) .f32) (x10 : FVec Ideal (⟨1, ![128]⟩ : Shape) .f32)
    (x11 : FVec Ideal (⟨2, ![128, 1]⟩ : Shape) .f32) (x12 : FVec Ideal (⟨1, ![1]⟩ : Shape) .f32) : Args where
  x n k := x0 (ix2 n k)
  ei := x1
  bt := x2
  w1 j k := x3 (ix2 j k)
  b1 k := x4 (ix1 k)
  w2 j k := x5 (ix2 j k)
  b2 k := x6 (ix1 k)
  fc1w k j := x7 (ix2 k j)
  fc1b j := x8 (ix1 j)
  fembw j k := x9 (ix2 j k)
  fembb k := x10 (ix1 k)
  foutw k := x11 (ix2 k (0 : Fin 1))
  foutb := x12 (ix1 (0 : Fin 1))

/-! ## The two results, in the two forms -/

def h1K (a : Args) := layerK a.ei a.x a.w1 a.b1
def h2K (a : Args) := layerK a.ei (h1K a) a.w2 a.b2
def embK (a : Args) : Fin 512 → Fin 128 → EReal :=
  emb (hid (mean (poolK a.bt (h2K a)) (cnt a.bt)) a.fc1w a.fc1b) a.fembw a.fembb
def outK (a : Args) : Fin 512 → EReal := out (embK a) a.foutw a.foutb

def h1R (a : Args) := layerR a.ei a.x a.w1 a.b1
def h2R (a : Args) := layerR a.ei (h1R a) a.w2 a.b2
def embR (a : Args) : Fin 512 → Fin 128 → EReal :=
  emb (hid (mean (poolR a.bt (h2R a)) (cnt a.bt)) a.fc1w a.fc1b) a.fembw a.fembb
def outR (a : Args) : Fin 512 → EReal := out (embR a) a.foutw a.foutb

end Cert.Spec

end
-- ==== Proof.Val.KerReg01.lean ====
/-
  What the first two pallas_calls leave in their output arrays, entry by entry, on the extended reals: ten row blocks
  of 5000 nodes tile the 50000 rows, and row n of the output depends on row n of the inputs only.

  First the arithmetic of one block: a 5000 x 128 block of rows times a 128 x 128 matrix read at an entry as a sum over
  the 128 inner indices, the per-node factor and the bias row spread over the block, and with them the value each
  body stores at an entry of its block. Then, for each call, the array function the output ends holding, each input
  block as rows of its array, the block a point writes back as a block of the array function, the cover of the
  50000 rows by the ten blocks, and the array after the last point.
-/
import proofs.«409948_j46497315946702_2_alg».proof.Proof.KI.R0
import proofs.«409948_j46497315946702_2_alg».proof.Proof.Val.Spec
import proofs.«409948_j46497315946702_2_alg».proof.Proof.KI.R1
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val.R01

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The block product: a 5000 x 128 block of rows times a 128 x 128 matrix -/

/-- The buffers' zero offsets, as the constant function. -/
theorem zero_offsets : (![0, 0] : Fin 2 → Nat) = fun _ => 0 :=
  funext fun a => by match a with | ⟨0, _⟩ => rfl | ⟨1, _⟩ => rfl

/-- The left factor's row is the result's row. -/
theorem blockDot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left factor's column is the summation index. -/
theorem blockDot_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row is the summation index. -/
theorem blockDot_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right factor's column is the result's column. -/
theorem blockDot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into a zero accumulator, entry (p, q): the sum over the 128 inner indices of row p of the left
    factor against column q of the right. -/
theorem blockDot_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ j : Fin 128, l (ix2 p j) * r (ix2 j q) := by
  simp only [matmul]
  rw [Ideal.matmul_constant_zero_apply,
    ← Equiv.sum_comp (contrEquiv1 dot_S5000x128_S128x128_S5000x128_1_0_0_1_n_n 128 rfl rfl).symm]
  refine Finset.sum_congr rfl fun j _ => ?_
  have hj := contrEquiv1_symm_val dot_S5000x128_S128x128_S5000x128_1_0_0_1_n_n 128 rfl rfl j
  have el : dot_S5000x128_S128x128_S5000x128_1_0_0_1_n_n.lhsIdx (ix2 p q)
      ((contrEquiv1 dot_S5000x128_S128x128_S5000x128_1_0_0_1_n_n 128 rfl rfl).symm j) = ix2 p j := funext fun a => Fin.ext (by
    match a with
    | ⟨0, _⟩ => exact blockDot_lhs_row _ _
    | ⟨1, _⟩ => exact (blockDot_lhs_col _ _).trans hj)
  have er : dot_S5000x128_S128x128_S5000x128_1_0_0_1_n_n.rhsIdx (ix2 p q)
      ((contrEquiv1 dot_S5000x128_S128x128_S5000x128_1_0_0_1_n_n 128 rfl rfl).symm j) = ix2 j q := funext fun a => Fin.ext (by
    match a with
    | ⟨0, _⟩ => exact (blockDot_rhs_row _ _).trans hj
    | ⟨1, _⟩ => exact blockDot_rhs_col _ _)
  rw [el, er]

/-- The per-node factor spread along the 128 features: entry (p, q) is the factor of row p. -/
theorem spreadRows_apply (d : Vec Ideal S5000x1 .f32) (p : Fin 5000) (q : Fin 128) :
    broadcastTo S5000x128 d broadcasts_S5000x1_S5000x128 (ix2 p q) = d (ix2 p (0 : Fin 1)) :=
  broadcastTo_apply d broadcasts_S5000x1_S5000x128 (ix2 p q) (ix2 p (0 : Fin 1)) fun a => by
    match a with
    | ⟨0, _⟩ => rfl
    | ⟨1, _⟩ => rfl

/-- The bias row spread along the 5000 rows: entry (p, q) is the bias of feature q. -/
theorem spreadCols_apply (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) fun a => by
    match a with
    | ⟨0, _⟩ => rfl
    | ⟨1, _⟩ => rfl

/-! ## The two bodies' stored values, entry by entry -/

/-- First call: entry (p, q) of the stored block is row p of the x block against column q of the weights, times the
    factor of row p. The narrowing to bf16 ahead of the product changes nothing on the extended reals. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ j : Fin 128, x0 (ix2 p j) * x1 (ix2 j q)) * x2 (ix2 p (0 : Fin 1)) := by
  unfold k0_pay1
  rw [mulf_apply, blockDot_apply, shapeCast_self, spreadRows_apply]
  rfl

/-- Second call: entry (p, q) of the stored block is relu(agg · factor + bias) of row p against column q of the
    weights, times the factor of row p again. The body loads the factor once for each of its two uses. -/
theorem pay1_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 x0 x1 x2 x3 x4 (ix2 p q)
      = (∑ j : Fin 128, max (x0 (ix2 p j) * x1 (ix2 p (0 : Fin 1)) + x2 (ix2 (0 : Fin 1) j)) 0 * x3 (ix2 j q))
        * x4 (ix2 p (0 : Fin 1)) := by
  unfold k1_pay1
  rw [mulf_apply, blockDot_apply, shapeCast_self x4, spreadRows_apply]
  refine congrArg (· * x4 (ix2 p (0 : Fin 1))) (Finset.sum_congr rfl fun j _ => ?_)
  rw [truncf_apply, truncf_apply, maximumf_apply, addf_apply, mulf_apply, shapeCast_self x0, shapeCast_self x1,
    shapeCast_self x2, spreadRows_apply, spreadCols_apply, broadcast_apply]
  show max _ (Ideal.ofBits .f32 0x00000000#32) * _ = _
  rw [Ideal.ofBits_zero_f32]

/-! ## From the ten row blocks to the arrays -/

-- the TensorCore's buffer contents when the region is entered, at the exact instance
variable (V : (c : Dev nD) → (b : Ref sig .tc) → Buf (Elt Ideal) ((c : Thread nD τ).loc b)) (c : Dev nD)

/-! ### The first call -/

/-- What the first call's output array ends holding, as one function of the three arrays the call reads: entry
    (n, k) is row n of x against column k of the weights, times the factor of node n. -/
def scaledProj (X : S50000x128.Idx → EReal) (W : S128x128.Idx → EReal) (D : S50000x1.Idx → EReal) :
    S50000x128.Idx → EReal :=
  fun i => (∑ j : Fin 128, X (ix2 (i 0) j) * W (ix2 j (i 1))) * D (ix2 (i 0) (0 : Fin 1))

/-- The block index of each window at point t: the row-blocked windows (x, the factor, the output) are at block
    row t, the weights stay at their one block. Decided over the ten points. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the x block at point t is row 5000 t + p of x. -/
theorem xBlock0_apply (t : Fin cfg0.N) (p : Fin 5000) (j : Fin 128) (n : Fin 50000) (hn : n.val = 5000 * t.val + p.val) :
    Spec.rd S5000x128 (iblk0 V c 0 t) (ix2 p j) = Spec.rd S50000x128 (V c main_arg0) (ix2 n j) := by
  obtain ⟨e0, e1, -⟩ := blockIndex0 t
  show V c main_arg0 (((cfg0.win 0).blk t).view.emb (ix2 p j)) = V c main_arg0 (ix2 n j)
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * j.val = j.val; omega

/-- The weights' block at every point is the whole matrix. -/
theorem wBlock0_apply (t : Fin cfg0.N) (j : Fin 128) (q : Fin 128) :
    Spec.rd S128x128 (iblk0 V c 1 t) (ix2 j q) = Spec.rd S128x128 (V c main_arg3) (ix2 j q) := by
  obtain ⟨-, -, e0, e1, -⟩ := blockIndex0 t
  show V c main_arg3 (((cfg0.win 1).blk t).view.emb (ix2 j q)) = V c main_arg3 (ix2 j q)
  refine congrArg _ (funext fun a => Fin.ext ?_)
  match a with
  | ⟨0, _⟩ => show win0_1.index t (0 : Fin 2) * 128 + 1 * j.val = j.val; omega
  | ⟨1, _⟩ => show win0_1.index t (1 : Fin 2) * 128 + 1 * q.val = q.val; omega

/-- Row p of the factor's block at point t is the factor of node 5000 t + p. -/
theorem dBlock0_apply (t : Fin cfg0.N) (p : Fin 5000) (n : Fin 50000) (hn : n.val = 5000 * t.val + p.val) :
    Spec.rd S5000x1 (iblk0 V c 2 t) (ix2 p (0 : Fin 1)) = Spec.rd S50000x1 (V c main_v17) (ix2 n (0 : Fin 1)) := by
  obtain ⟨-, -, -, -, e0, e1, -⟩ := blockIndex0 t
  show V c main_v17 (((cfg0.win 2).blk t).view.emb (ix2 p (0 : Fin 1))) = V c main_v17 (ix2 n (0 : Fin 1))
  refine congrArg _ (funext fun a => Fin.ext ?_)
  match a with
  | ⟨0, _⟩ => show win0_2.index t (0 : Fin 2) * 5000 + 1 * p.val = n.val; omega
  | ⟨1, _⟩ => show win0_2.index t (1 : Fin 2) * 1 + 1 * 0 = 0; omega

/-- One stored entry against the array function: if the three loaded blocks are the rows 5000 T … 5000 T + 4999 of x
    and of the factor and the whole weight matrix, the entry stored at y of the block is the array function at the
    index y sits at, row 5000 T + y₀ and column y₁. -/
theorem stored0_eq (X : S50000x128.Idx → EReal) (W : S128x128.Idx → EReal) (D : S50000x1.Idx → EReal)
    (x0 : Vec Ideal S5000x128 .f32) (x1 : Vec Ideal S128x128 .f32) (x2 : Vec Ideal S5000x1 .f32)
    (T : Nat) (y : S5000x128.Idx) (i : S50000x128.Idx)
    (hi0 : (i 0).val = 5000 * T + (y 0).val) (hi1 : (i 1).val = (y 1).val)
    (h0 : ∀ (p : Fin 5000) (j : Fin 128) (n : Fin 50000), n.val = 5000 * T + p.val → x0 (ix2 p j) = X (ix2 n j))
    (h1 : ∀ (j q : Fin 128), x1 (ix2 j q) = W (ix2 j q))
    (h2 : ∀ (p : Fin 5000) (n : Fin 50000), n.val = 5000 * T + p.val → x2 (ix2 p (0 : Fin 1)) = D (ix2 n (0 : Fin 1))) :
    k0_pay1 x0 x1 x2 y = scaledProj X W D i := by
  obtain ⟨p, q, rfl⟩ : ∃ (p : Fin 5000) (q : Fin 128), y = ix2 p q := ⟨y 0, y 1, eq_ix2 y⟩
  rw [pay0_apply]
  unfold scaledProj
  have hq : i 1 = q := Fin.ext hi1
  rw [hq, h2 p (i 0) hi0]
  exact congrArg (· * D (ix2 (i 0) (0 : Fin 1))) (Finset.sum_congr rfl fun j _ => by rw [h0 p j (i 0) hi0, h1 j q])

/-- What point t writes back is block t of the array function of the arrays as the region finds them. -/
theorem flushed0_eq (t : Fin cfg0.N) :
    (dat0 V c).flushed 3 t
      = ((cfg0.win 3).blk t).view.read (Elt Ideal) (scaledProj (V c main_arg0) (V c main_arg3) (V c main_v17)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e0, e1⟩ := blockIndex0 t
  funext y
  refine stored0_eq (V c main_arg0) (V c main_arg3) (V c main_v17) (iblk0 V c 0 t) (iblk0 V c 1 t) (iblk0 V c 2 t)
    t.val ((cfg0.win 3).xinj (grid0.coords t) y) (((cfg0.win 3).blk t).view.emb y) ?_ ?_
    (fun p j n hn => xBlock0_apply V c t p j n hn) (fun j q => wBlock0_apply V c t j q)
    (fun p n hn => dBlock0_apply V c t p n hn)
  · show win0_3.index t (0 : Fin 2) * 5000 + 1 * (y 0).val = 5000 * t.val + (y 0).val; omega
  · show win0_3.index t (1 : Fin 2) * 128 + 1 * (y 1).val = (y 1).val; omega

/-- An index of the output array is in point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- The ten blocks tile the 50000 rows: row r is in the block of point r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, -, -, e0, e1⟩ := blockIndex0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- So the first call's output array ends holding the array function. -/
theorem arr0_eq : (dat0 V c).arrAt 3 cfg0.N = scaledProj (V c main_arg0) (V c main_arg3) (V c main_v17) :=
  (dat0 V c).arrAt_eq_of_cover 3 (scaledProj (V c main_arg0) (V c main_arg3) (V c main_v17))
    (fun t _ => flushed0_eq V c t) (cover0)

/-- After the first pallas_call: (x · w1) scaled row by row by the per-node factor. -/
theorem arr0_out (n : Fin 50000) (k : Fin 128) :
    Spec.rd S50000x128 ((dat0 V c).arrAt 3 cfg0.N) (ix2 n k)
      = (∑ j : Fin 128, Spec.rd S50000x128 (V c main_arg0) (ix2 n j) * Spec.rd S128x128 (V c main_arg3) (ix2 j k))
        * Spec.rd S50000x1 (V c main_v17) (ix2 n (0 : Fin 1)) :=
  congrFun (arr0_eq V c) (ix2 n k)

/-! ### The second call -/

/-- What the second call's output array ends holding, as one function of the four arrays the call reads: entry
    (n, k) is relu(agg · factor + bias) of node n against column k of the weights, times the factor of node n. -/
def scaledLayer (A : S50000x128.Idx → EReal) (D : S50000x1.Idx → EReal) (B : S1x128.Idx → EReal)
    (W : S128x128.Idx → EReal) : S50000x128.Idx → EReal :=
  fun i => (∑ j : Fin 128, max (A (ix2 (i 0) j) * D (ix2 (i 0) (0 : Fin 1)) + B (ix2 (0 : Fin 1) j)) 0 * W (ix2 j (i 1)))
    * D (ix2 (i 0) (0 : Fin 1))

/-- The block index of each window at point t: the row-blocked windows (agg, the factor, the output) are at block
    row t, the bias row and the weights stay at their one block. Decided over the ten points. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the agg block at point t is row 5000 t + p of agg. -/
theorem aBlock1_apply (t : Fin cfg1.N) (p : Fin 5000) (j : Fin 128) (n : Fin 50000) (hn : n.val = 5000 * t.val + p.val) :
    Spec.rd S5000x128 (iblk1 V c 0 t) (ix2 p j) = Spec.rd S50000x128 (V c main_v28) (ix2 n j) := by
  obtain ⟨e0, e1, -⟩ := blockIndex1 t
  show V c main_v28 (((cfg1.win 0).blk t).view.emb (ix2 p j)) = V c main_v28 (ix2 n j)
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * j.val = j.val; omega

/-- Row p of the factor's block at point t is the factor of node 5000 t + p. -/
theorem dBlock1_apply (t : Fin cfg1.N) (p : Fin 5000) (n : Fin 50000) (hn : n.val = 5000 * t.val + p.val) :
    Spec.rd S5000x1 (iblk1 V c 1 t) (ix2 p (0 : Fin 1)) = Spec.rd S50000x1 (V c main_v17) (ix2 n (0 : Fin 1)) := by
  obtain ⟨-, -, e0, e1, -⟩ := blockIndex1 t
  show V c main_v17 (((cfg1.win 1).blk t).view.emb (ix2 p (0 : Fin 1))) = V c main_v17 (ix2 n (0 : Fin 1))
  refine congrArg _ (funext fun a => Fin.ext ?_)
  match a with
  | ⟨0, _⟩ => show win1_1.index t (0 : Fin 2) * 5000 + 1 * p.val = n.val; omega
  | ⟨1, _⟩ => show win1_1.index t (1 : Fin 2) * 1 + 1 * 0 = 0; omega

/-- The bias block at every point is the whole row. -/
theorem bBlock1_apply (t : Fin cfg1.N) (j : Fin 128) :
    Spec.rd S1x128 (iblk1 V c 2 t) (ix2 (0 : Fin 1) j) = Spec.rd S1x128 (V c main_v29) (ix2 (0 : Fin 1) j) := by
  obtain ⟨-, -, -, -, e0, e1, -⟩ := blockIndex1 t
  show V c main_v29 (((cfg1.win 2).blk t).view.emb (ix2 (0 : Fin 1) j)) = V c main_v29 (ix2 (0 : Fin 1) j)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * j.val = j.val; omega

/-- The weights' block at every point is the whole matrix. -/
theorem wBlock1_apply (t : Fin cfg1.N) (j : Fin 128) (q : Fin 128) :
    Spec.rd S128x128 (iblk1 V c 3 t) (ix2 j q) = Spec.rd S128x128 (V c main_arg5) (ix2 j q) := by
  obtain ⟨-, -, -, -, -, -, e0, e1, -⟩ := blockIndex1 t
  show V c main_arg5 (((cfg1.win 3).blk t).view.emb (ix2 j q)) = V c main_arg5 (ix2 j q)
  refine congrArg _ (funext fun a => Fin.ext ?_)
  match a with
  | ⟨0, _⟩ => show win1_3.index t (0 : Fin 2) * 128 + 1 * j.val = j.val; omega
  | ⟨1, _⟩ => show win1_3.index t (1 : Fin 2) * 128 + 1 * q.val = q.val; omega

/-- One stored entry against the array function: if the loaded blocks are the rows 5000 T … 5000 T + 4999 of agg and
    of the factor (both loads of it), the whole bias row and the whole weight matrix, the entry stored at y of the
    block is the array function at the index y sits at, row 5000 T + y₀ and column y₁. -/
theorem stored1_eq (A : S50000x128.Idx → EReal) (D : S50000x1.Idx → EReal) (B : S1x128.Idx → EReal)
    (W : S128x128.Idx → EReal)
    (x0 : Vec Ideal S5000x128 .f32) (x1 : Vec Ideal S5000x1 .f32) (x2 : Vec Ideal S1x128 .f32)
    (x3 : Vec Ideal S128x128 .f32)
    (T : Nat) (y : S5000x128.Idx) (i : S50000x128.Idx)
    (hi0 : (i 0).val = 5000 * T + (y 0).val) (hi1 : (i 1).val = (y 1).val)
    (h0 : ∀ (p : Fin 5000) (j : Fin 128) (n : Fin 50000), n.val = 5000 * T + p.val → x0 (ix2 p j) = A (ix2 n j))
    (h1 : ∀ (p : Fin 5000) (n : Fin 50000), n.val = 5000 * T + p.val → x1 (ix2 p (0 : Fin 1)) = D (ix2 n (0 : Fin 1)))
    (h2 : ∀ (j : Fin 128), x2 (ix2 (0 : Fin 1) j) = B (ix2 (0 : Fin 1) j))
    (h3 : ∀ (j q : Fin 128), x3 (ix2 j q) = W (ix2 j q)) :
    k1_pay1 x0 x1 x2 x3 x1 y = scaledLayer A D B W i := by
  obtain ⟨p, q, rfl⟩ : ∃ (p : Fin 5000) (q : Fin 128), y = ix2 p q := ⟨y 0, y 1, eq_ix2 y⟩
  rw [pay1_apply]
  unfold scaledLayer
  have hq : i 1 = q := Fin.ext hi1
  rw [hq, h1 p (i 0) hi0]
  exact congrArg (· * D (ix2 (i 0) (0 : Fin 1))) (Finset.sum_congr rfl fun j _ => by rw [h0 p j (i 0) hi0, h2 j, h3 j q])

/-- What point t writes back is block t of the array function of the arrays as the region finds them. -/
theorem flushed1_eq (t : Fin cfg1.N) :
    (dat1 V c).flushed 4 t
      = ((cfg1.win 4).blk t).view.read (Elt Ideal)
          (scaledLayer (V c main_v28) (V c main_v17) (V c main_v29) (V c main_arg5)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  obtain ⟨-, -, -, -, -, -, -, -, e0, e1⟩ := blockIndex1 t
  funext y
  refine stored1_eq (V c main_v28) (V c main_v17) (V c main_v29) (V c main_arg5)
    (iblk1 V c 0 t) (iblk1 V c 1 t) (iblk1 V c 2 t) (iblk1 V c 3 t)
    t.val ((cfg1.win 4).xinj (grid1.coords t) y) (((cfg1.win 4).blk t).view.emb y) ?_ ?_
    (fun p j n hn => aBlock1_apply V c t p j n hn) (fun p n hn => dBlock1_apply V c t p n hn)
    (fun j => bBlock1_apply V c t j) (fun j q => wBlock1_apply V c t j q)
  · show win1_4.index t (0 : Fin 2) * 5000 + 1 * (y 0).val = 5000 * t.val + (y 0).val; omega
  · show win1_4.index t (1 : Fin 2) * 128 + 1 * (y 1).val = (y 1).val; omega

/-- An index of the output array is in point t's block iff each coordinate is in the block's range on its axis. -/
theorem mem_block1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v30).slice (win1_4.rect t)).set ↔ _
  rw [View.set_slice_whole, Rect.mem_set_unit]
  exact Iff.rfl

/-- The ten blocks tile the 50000 rows: row r is in the block of point r / 5000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  obtain ⟨-, -, -, -, -, -, -, -, e0, e1⟩ := blockIndex1 t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- So the second call's output array ends holding the array function. -/
theorem arr1_eq :
    (dat1 V c).arrAt 4 cfg1.N = scaledLayer (V c main_v28) (V c main_v17) (V c main_v29) (V c main_arg5) :=
  (dat1 V c).arrAt_eq_of_cover 4 (scaledLayer (V c main_v28) (V c main_v17) (V c main_v29) (V c main_arg5))
    (fun t _ => flushed1_eq V c t) (cover1)

/-- After the second pallas_call: relu(agg · factor + b1) times w2, scaled row by row by the factor again. -/
theorem arr1_out (n : Fin 50000) (k : Fin 128) :
    Spec.rd S50000x128 ((dat1 V c).arrAt 4 cfg1.N) (ix2 n k)
      = (∑ j : Fin 128, max (Spec.rd S50000x128 (V c main_v28) (ix2 n j) * Spec.rd S50000x1 (V c main_v17) (ix2 n (0 : Fin 1))
            + Spec.rd S1x128 (V c main_v29) (ix2 (0 : Fin 1) j)) 0 * Spec.rd S128x128 (V c main_arg5) (ix2 j k))
        * Spec.rd S50000x1 (V c main_v17) (ix2 n (0 : Fin 1)) :=
  congrFun (arr1_eq V c) (ix2 n k)

end Cert.KernelIdeal.Val.R01

end
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.Val.KerReg2.lean ====
/-
  What the third pallas_call leaves in its output array: the accumulator after the last of the twenty-five row blocks,
  which is the sum over all 50000 nodes of the indicator that the node's graph id is the word g times the node's
  activated features.
-/
import proofs.«409948_j46497315946702_2_alg».proof.Proof.KI.R2
import proofs.«409948_j46497315946702_2_alg».proof.Proof.Val.Spec
import proofs.«409948_j46497315946702_2_alg».proof.Proof.LibScatterGather
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val.R2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the TensorCore's buffer contents when the region is entered, at the exact instance
variable (V : (c : Dev nD) → (b : Ref sig .tc) → Buf (Elt Ideal) ((c : Thread nD τ).loc b)) (c : Dev nD)

/-! ## The body's arithmetic at an index -/

/-- The reset: every entry of the accumulator is zero. -/
theorem pay1_apply (g : Fin 512) (k : Fin 128) : k2_pay1 (F := Ideal) (ix2 g k) = 0 := by
  unfold k2_pay1
  rw [shapeCast_self, broadcast_apply]
  exact Ideal.ofBits_zero_f32

/-- The indicator matrix at (r, g): one when row r's graph id is the word g, zero otherwise. The id column is
    repeated along the 512 graphs, the row of graph numbers along the 2000 rows, the two are compared, and the bit
    is widened and converted. -/
theorem onehot_apply (v16 : Vec Ideal S2000x1 .i32) (r : Fin 2000) (g : Fin 512) :
    (truncf .bf16 (sitofp .f32 (extui 32 (cmpi .eq (broadcastTo S2000x512 v16 broadcasts_S2000x1_S2000x512)
        (broadcastTo S2000x512 (iota .tc S1x512 32 [1] iota_S1x512_d1_w32) broadcasts_S1x512_S2000x512)) natLt_1_32))
      bitsLt_bf16_f32 : FVec Ideal S2000x512 .bf16) (ix2 r g)
      = if v16 (ix2 r (0 : Fin 1)) = BitVec.ofNat 32 g.val then (1 : EReal) else 0 := by
  rw [truncf_apply, sitofp_apply, extui_apply]
  show FloatOps.sitofp .f32 ((IntOp.cmpi .eq (broadcastTo S2000x512 v16 broadcasts_S2000x1_S2000x512 (ix2 r g))
      (broadcastTo S2000x512 (iota .tc S1x512 32 [1] iota_S1x512_d1_w32) broadcasts_S1x512_S2000x512 (ix2 r g))).setWidth 32) = _
  rw [broadcastTo_apply v16 broadcasts_S2000x1_S2000x512 (ix2 r g) (ix2 r (0 : Fin 1)) (fun a => match a with
      | ⟨0, _⟩ => by show r.val = if (2000 : Nat) = 1 then 0 else r.val; rw [if_neg (by decide)]
      | ⟨1, _⟩ => by show 0 = if (1 : Nat) = 1 then 0 else g.val; rw [if_pos rfl]),
    broadcastTo_apply (iota .tc S1x512 32 [1] iota_S1x512_d1_w32) broadcasts_S1x512_S2000x512 (ix2 r g) (ix2 (0 : Fin 1) g) (fun a => match a with
      | ⟨0, _⟩ => by show 0 = if (1 : Nat) = 1 then 0 else r.val; rw [if_pos rfl]
      | ⟨1, _⟩ => by show g.val = if (512 : Nat) = 1 then 0 else g.val; rw [if_neg (by decide)]),
    iota_single_apply, LibSG.sitofp_setWidth_bit]
  exact if_congr IntOp.cmpi_eq rfl rfl

/-- The activated features at (r, k): row r's aggregate scaled by row r's factor, plus the bias, floored at zero. -/
theorem act_apply (v3 : Vec Ideal S2000x128 .f32) (v5 : Vec Ideal S2000x1 .f32) (v9 : Vec Ideal S1x128 .f32)
    (r : Fin 2000) (k : Fin 128) :
    (truncf .bf16 (maximumf (addf (mulf v3 (broadcastTo S2000x128 v5 broadcasts_S2000x1_S2000x128))
        (broadcastTo S2000x128 v9 broadcasts_S1x128_S2000x128)) (broadcast S2000x128 (FloatOps.ofBits .f32 0#32)))
      bitsLt_bf16_f32 : FVec Ideal S2000x128 .bf16) (ix2 r k)
      = max (v3 (ix2 r k) * v5 (ix2 r (0 : Fin 1)) + v9 (ix2 (0 : Fin 1) k)) 0 := by
  rw [truncf_apply, maximumf_apply, addf_apply, mulf_apply, broadcast_apply,
    broadcastTo_apply v5 broadcasts_S2000x1_S2000x128 (ix2 r k) (ix2 r (0 : Fin 1)) (fun a => match a with
      | ⟨0, _⟩ => by show r.val = if (2000 : Nat) = 1 then 0 else r.val; rw [if_neg (by decide)]
      | ⟨1, _⟩ => by show 0 = if (1 : Nat) = 1 then 0 else k.val; rw [if_pos rfl]),
    broadcastTo_apply v9 broadcasts_S1x128_S2000x128 (ix2 r k) (ix2 (0 : Fin 1) k) (fun a => match a with
      | ⟨0, _⟩ => by show 0 = if (1 : Nat) = 1 then 0 else r.val; rw [if_pos rfl]
      | ⟨1, _⟩ => by show k.val = if (128 : Nat) = 1 then 0 else k.val; rw [if_neg (by decide)]),
    Ideal.ofBits_def, Ideal.ofBits_zero_f32]

/-- The contraction over the 2000 rows: the left operand's row axis is the summation index … -/
theorem pool_lhs_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
/-- … its graph axis is the result's first coordinate … -/
theorem pool_lhs_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
/-- … the right operand's row axis is the summation index … -/
theorem pool_rhs_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
/-- … and its feature axis is the result's second coordinate. -/
theorem pool_rhs_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- One step of the accumulation at (g, k): the accumulator's entry plus, over the block's 2000 rows, the indicator
    that the row's graph id is the word g times the row's activated feature k. -/
theorem pay2_apply (v3 : Vec Ideal S2000x128 .f32) (v5 : Vec Ideal S2000x1 .f32) (v9 : Vec Ideal S1x128 .f32)
    (v16 : Vec Ideal S2000x1 .i32) (v25 : Vec Ideal S512x128 .f32) (g : Fin 512) (k : Fin 128) :
    k2_pay2 (F := Ideal) v3 v5 v9 v16 v25 (ix2 g k)
      = v25 (ix2 g k) + ∑ r : Fin 2000, (if v16 (ix2 r (0 : Fin 1)) = BitVec.ofNat 32 g.val then (1 : EReal) else 0)
          * max (v3 (ix2 r k) * v5 (ix2 r (0 : Fin 1)) + v9 (ix2 (0 : Fin 1) k)) 0 := by
  unfold k2_pay2
  dsimp only
  simp only [shapeCast_self]
  rw [addf_apply]
  simp only [matmul]
  rw [Ideal.matmul_constant_zero_apply, ← Equiv.sum_comp (ValueIdx.contrEquiv1 dot_S2000x512_S2000x128_S512x128_0_0_1_1_n_n 2000 rfl rfl).symm]
  refine congrArg (v25 (ix2 g k) + ·) (Finset.sum_congr rfl fun r _ => ?_)
  have hk := ValueIdx.contrEquiv1_symm_val dot_S2000x512_S2000x128_S512x128_0_0_1_1_n_n 2000 rfl rfl r
  have el : dot_S2000x512_S2000x128_S512x128_0_0_1_1_n_n.lhsIdx (ix2 g k) ((ValueIdx.contrEquiv1 dot_S2000x512_S2000x128_S512x128_0_0_1_1_n_n 2000 rfl rfl).symm r) = ix2 r g := funext fun a => Fin.ext (by
    match a with
    | ⟨0, _⟩ => exact (pool_lhs_0 _ _).trans hk
    | ⟨1, _⟩ => exact pool_lhs_1 _ _)
  have er : dot_S2000x512_S2000x128_S512x128_0_0_1_1_n_n.rhsIdx (ix2 g k) ((ValueIdx.contrEquiv1 dot_S2000x512_S2000x128_S512x128_0_0_1_1_n_n 2000 rfl rfl).symm r) = ix2 r k := funext fun a => Fin.ext (by
    match a with
    | ⟨0, _⟩ => exact (pool_rhs_0 _ _).trans hk
    | ⟨1, _⟩ => exact pool_rhs_1 _ _)
  rw [el, er, onehot_apply, act_apply]

/-! ## The blocks against the arrays -/

/-- The printed index maps over the grid: the three row-blocked windows move with the point along the rows, the bias
    and the output stay at block zero. -/
theorem idx2_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

/-- Row r of the aggregate's block at point t is row 2000 t + r of the aggregate. -/
theorem blk0_apply (t : Fin cfg2.N) (r : Fin 2000) (k : Fin 128) (hr : 2000 * t.val + r.val < 50000) :
    Spec.rd S2000x128 (iblk2 V c 0 t) (ix2 r k) = Spec.rd S50000x128 (V c main_v40) (ix2 ⟨2000 * t.val + r.val, hr⟩ k) := by
  obtain ⟨e0, e1, -⟩ := idx2_facts t
  show V c main_v40 (((cfg2.win 0).blk t).view.emb (ix2 r k)) = V c main_v40 (ix2 ⟨2000 * t.val + r.val, hr⟩ k)
  refine congrArg (V c main_v40) (funext fun a => Fin.ext ?_)
  match a with
  | ⟨0, _⟩ => show win2_0.index t 0 * 2000 + 1 * r.val = 2000 * t.val + r.val; rw [e0]; omega
  | ⟨1, _⟩ => show win2_0.index t 1 * 128 + 1 * k.val = k.val; rw [e1]; omega

/-- Row r of the factor's block at point t is row 2000 t + r of the factor column. -/
theorem blk1_apply (t : Fin cfg2.N) (r : Fin 2000) (hr : 2000 * t.val + r.val < 50000) :
    Spec.rd S2000x1 (iblk2 V c 1 t) (ix2 r (0 : Fin 1))
      = Spec.rd S50000x1 (V c main_v17) (ix2 ⟨2000 * t.val + r.val, hr⟩ (0 : Fin 1)) := by
  obtain ⟨-, -, e0, e1, -⟩ := idx2_facts t
  show V c main_v17 (((cfg2.win 1).blk t).view.emb (ix2 r (0 : Fin 1))) = V c main_v17 (ix2 ⟨2000 * t.val + r.val, hr⟩ (0 : Fin 1))
  refine congrArg (V c main_v17) (funext fun a => Fin.ext ?_)
  match a with
  | ⟨0, _⟩ => show win2_1.index t 0 * 2000 + 1 * r.val = 2000 * t.val + r.val; rw [e0]; omega
  | ⟨1, _⟩ => show win2_1.index t 1 * 1 + 1 * 0 = 0; rw [e1]

/-- The bias block is the bias at every point. -/
theorem blk2_apply (t : Fin cfg2.N) (k : Fin 128) :
    Spec.rd S1x128 (iblk2 V c 2 t) (ix2 (0 : Fin 1) k) = Spec.rd S1x128 (V c main_v46) (ix2 (0 : Fin 1) k) := by
  obtain ⟨-, -, -, -, e0, e1, -⟩ := idx2_facts t
  show V c main_v46 (((cfg2.win 2).blk t).view.emb (ix2 (0 : Fin 1) k)) = V c main_v46 (ix2 (0 : Fin 1) k)
  refine congrArg (V c main_v46) (funext fun a => Fin.ext ?_)
  match a with
  | ⟨0, _⟩ => show win2_2.index t 0 * 1 + 1 * 0 = 0; rw [e0]
  | ⟨1, _⟩ => show win2_2.index t 1 * 128 + 1 * k.val = k.val; rw [e1]; omega

/-- Row r of the graph ids' block at point t is row 2000 t + r of the id column. -/
theorem blk3_apply (t : Fin cfg2.N) (r : Fin 2000) (hr : 2000 * t.val + r.val < 50000) :
    Spec.rdw S2000x1 (iblk2 V c 3 t) (ix2 r (0 : Fin 1))
      = Spec.rdw S50000x1 (V c main_v47) (ix2 ⟨2000 * t.val + r.val, hr⟩ (0 : Fin 1)) := by
  obtain ⟨-, -, -, -, -, -, e0, e1, -⟩ := idx2_facts t
  show V c main_v47 (((cfg2.win 3).blk t).view.emb (ix2 r (0 : Fin 1))) = V c main_v47 (ix2 ⟨2000 * t.val + r.val, hr⟩ (0 : Fin 1))
  refine congrArg (V c main_v47) (funext fun a => Fin.ext ?_)
  match a with
  | ⟨0, _⟩ => show win2_3.index t 0 * 2000 + 1 * r.val = 2000 * t.val + r.val; rw [e0]; omega
  | ⟨1, _⟩ => show win2_3.index t 1 * 1 + 1 * 0 = 0; rw [e1]

/-! ## The accumulator is the running sum over the blocks -/

/-- Node n's contribution to entry (g, k): the indicator that its graph id is the word g times its activated feature k. -/
def nodeTerm (g : Fin 512) (k : Fin 128) (n : Fin 50000) : EReal :=
  (if Spec.rdw S50000x1 (V c main_v47) (ix2 n (0 : Fin 1)) = BitVec.ofNat 32 g.val then (1 : EReal) else 0)
    * max (Spec.rd S50000x128 (V c main_v40) (ix2 n k) * Spec.rd S50000x1 (V c main_v17) (ix2 n (0 : Fin 1))
        + Spec.rd S1x128 (V c main_v46) (ix2 (0 : Fin 1) k)) 0

/-- The contribution of the 2000 nodes of block t (nothing for a block number past the grid). -/
def blockSum (g : Fin 512) (k : Fin 128) (t : ℕ) : EReal :=
  if h : t < 25 then ∑ r : Fin 2000, nodeTerm V c g k ⟨2000 * t + r.val, by have := r.isLt; omega⟩ else 0

/-- Equal ids, aggregates, factors and biases give equal contributions. -/
theorem term_congr {a a' w : BitVec 32} {x x' y y' z z' : EReal} (ha : a = a') (hx : x = x') (hy : y = y') (hz : z = z') :
    (if a = w then (1 : EReal) else 0) * max (x * y + z) 0 = (if a' = w then (1 : EReal) else 0) * max (x' * y' + z') 0 := by
  subst ha hx hy hz; rfl

/-- One point of the grid adds its block's contribution to the accumulator. -/
theorem step_at (t : Fin cfg2.N) (acc : Vec Ideal S512x128 .f32) (g : Fin 512) (k : Fin 128) :
    k2_pay2 (F := Ideal) (iblk2 V c 0 t) (iblk2 V c 1 t) (iblk2 V c 2 t) (iblk2 V c 3 t) acc (ix2 g k)
      = acc (ix2 g k) + blockSum V c g k t.val := by
  have hN : cfg2.N = 25 := N_2
  have ht : t.val < 25 := hN ▸ t.isLt
  refine (pay2_apply (iblk2 V c 0 t) (iblk2 V c 1 t) (iblk2 V c 2 t) (iblk2 V c 3 t) acc g k).trans ?_
  unfold blockSum
  rw [dif_pos ht]
  refine congrArg (acc (ix2 g k) + ·) (Finset.sum_congr rfl fun r _ => ?_)
  have hr : 2000 * t.val + r.val < 50000 := by have := r.isLt; omega
  exact term_congr (blk3_apply V c t r hr) (blk0_apply V c t r k hr) (blk1_apply V c t r hr) (blk2_apply V c t k)

/-- After point n the accumulator holds the contributions of blocks 0 … n: the first point starts from zero, every
    later one adds its block to what the point before left. -/
theorem scr2_apply (g : Fin 512) (k : Fin 128) :
    ∀ (n : ℕ) (h : n < cfg2.N), scr2 V c n h (ix2 g k) = ∑ t ∈ Finset.range (n + 1), blockSum V c g k t
  | 0, h => by
    rw [scr2_zero]
    refine (step_at V c ⟨0, h⟩ (k2_pay1 (F := Ideal)) g k).trans ?_
    rw [pay1_apply, zero_add, Finset.sum_range_one]
  | n + 1, h => by
    rw [scr2_succ]
    refine (step_at V c ⟨n + 1, h⟩ (scr2 V c n (Nat.lt_of_succ_lt h)) g k).trans ?_
    rw [scr2_apply g k n (Nat.lt_of_succ_lt h), Finset.sum_range_succ _ (n + 1)]

/-- Twenty-five blocks of 2000 rows are the 50000 rows: row 2000 t + r is the pair (t, r). -/
theorem sum_blocks (f : Fin 50000 → EReal) :
    ∑ t ∈ Finset.range 25, (if h : t < 25 then ∑ r : Fin 2000, f ⟨2000 * t + r.val, by have := r.isLt; omega⟩ else 0)
      = ∑ n : Fin 50000, f n := by
  rw [Finset.sum_range]
  have hrow : ∀ t : Fin 25, (if h : t.val < 25 then ∑ r : Fin 2000, f ⟨2000 * t.val + r.val, by have := r.isLt; omega⟩ else 0)
      = ∑ r : Fin 2000, f (finProdFinEquiv (t, r)) := fun t => by
    rw [dif_pos t.isLt]
    refine Finset.sum_congr rfl fun r _ => congrArg f (Fin.ext ?_)
    show 2000 * t.val + r.val = r.val + 2000 * t.val
    omega
  rw [Finset.sum_congr rfl fun t _ => hrow t]
  calc ∑ t : Fin 25, ∑ r : Fin 2000, f (finProdFinEquiv (t, r))
      = ∑ p : Fin 25 × Fin 2000, f (finProdFinEquiv (p.1, p.2)) :=
        (Fintype.sum_prod_type' fun (t : Fin 25) (r : Fin 2000) => f (finProdFinEquiv (t, r))).symm
    _ = ∑ n : Fin 50000, f n := Fintype.sum_equiv finProdFinEquiv _ _ (fun _ => rfl)

/-! ## The output array -/

/-- The accumulator after the last point, as contents of the output array. -/
abbrev pooled : Buf (Elt Ideal) ((c : Thread nD τ).loc main_v48) :=
  scr2 V c 24 (by rw [show cfg2.N = 25 from N_2]; decide)

/-- The one write-back, at the last point, writes the accumulator: the output's block is the whole array. -/
theorem flushed4_eq (t : Fin cfg2.N) (hf : (cfg2.win 4).flush t = true) :
    (dat2 V c).flushed 4 t = ((cfg2.win 4).blk t).view.read (Elt Ideal) (pooled V c) := by
  have hN : cfg2.N = 25 := N_2
  have hlt : 24 < cfg2.N := by rw [hN]; decide
  have h24 : t.val = 24 := by have := (flush2_4 t).mp hf; have := t.isLt; omega
  obtain ⟨-, -, -, -, -, -, -, -, e0, e1⟩ := idx2_facts t
  obtain rfl : t = ⟨24, hlt⟩ := Fin.ext h24
  show (cfg2.win 4).cut (grid2.coords _) ((dat2 V c).after 4 _) = _
  rw [after2_4_last]
  have hz' : (fun a => win2_4.index ⟨24, hlt⟩ a * main_v48.ty.shape.size a) = fun _ => 0 := funext fun a => by
    match a with
    | ⟨0, _⟩ => show win2_4.index _ 0 * _ = 0; rw [e0, Nat.zero_mul]
    | ⟨1, _⟩ => show win2_4.index _ 1 * _ = 0; rw [e1, Nat.zero_mul]
  exact (Memref.read_access_unit_zero (Elt Ideal) main_v48 hz' (fun a => by rw [congrFun hz' a]; simp) (pooled V c)).symm

/-- An index of the output array is in a point's block when each coordinate is in the block's range. -/
theorem mem_blk4 (t : Fin cfg2.N) (i : S512x128.Idx) :
    i ∈ ((cfg2.win 4).blk t).view.set ↔ ∀ a : Fin 2, win2_4.index t a * S512x128.size a ≤ (i a).val
      ∧ (i a).val < win2_4.index t a * S512x128.size a + S512x128.size a := by
  show i ∈ ((View.whole main_v48).slice (win2_4.rect t)).set ↔ _
  rw [View.set_slice_whole, Rect.mem_set_unit]
  exact Iff.rfl

/-- So the output array ends holding the accumulator after the last point. -/
theorem arr4_final : (dat2 V c).arrAt 4 cfg2.N = pooled V c := by
  have hN : cfg2.N = 25 := N_2
  have hlt : 24 < cfg2.N := by rw [hN]; decide
  refine (dat2 V c).arrAt_eq_of_cover 4 (pooled V c) (flushed4_eq V c) fun i => ⟨⟨24, hlt⟩, (flush2_4 _).mpr rfl, ?_⟩
  obtain ⟨-, -, -, -, -, -, -, -, e0, e1⟩ := idx2_facts ⟨24, hlt⟩
  have h0 : (i 0 : Nat) < 512 := (i 0).isLt
  have h1 : (i 1 : Nat) < 128 := (i 1).isLt
  rw [mem_blk4]
  intro a
  match a with
  | ⟨0, _⟩ =>
    show win2_4.index _ 0 * 512 ≤ (i 0 : Nat) ∧ (i 0 : Nat) < win2_4.index _ 0 * 512 + 512
    rw [e0]; omega
  | ⟨1, _⟩ =>
    show win2_4.index _ 1 * 128 ≤ (i 1 : Nat) ∧ (i 1 : Nat) < win2_4.index _ 1 * 128 + 128
    rw [e1]; omega

theorem arr2_out (g : Fin 512) (k : Fin 128) :
    Spec.rd S512x128 ((dat2 V c).arrAt 4 cfg2.N) (ix2 g k)
      = ∑ n : Fin 50000, (if Spec.rdw S50000x1 (V c main_v47) (ix2 n (0 : Fin 1)) = BitVec.ofNat 32 g.val then (1 : EReal) else 0)
          * max (Spec.rd S50000x128 (V c main_v40) (ix2 n k) * Spec.rd S50000x1 (V c main_v17) (ix2 n (0 : Fin 1))
              + Spec.rd S1x128 (V c main_v46) (ix2 (0 : Fin 1) k)) 0 := by
  refine (congrFun (arr4_final V c) (ix2 g k)).trans ?_
  refine (scr2_apply V c g k 24 _).trans ?_
  exact sum_blocks (nodeTerm V c g k)

end Cert.KernelIdeal.Val.R2

end
-- ==== Proof.Val.KerReg3.lean ====
/-
  What the fourth pallas_call leaves in its two output arrays: the per-graph mean, then the three dense layers, as
  the specification's head applied to the arrays the call is entered with.
-/
import proofs.«409948_j46497315946702_2_alg».proof.Proof.KI.R3
import proofs.«409948_j46497315946702_2_alg».proof.Proof.Val.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost

set_option maxRecDepth 16384

noncomputable section

open scoped BigOperators

namespace Cert.KernelIdeal.Val.R3

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the TensorCore's buffer contents when the region is entered, at the exact instance
variable (V : (c : Dev nD) → (b : Ref sig .tc) → Buf (Elt Ideal) ((c : Thread nD τ).loc b)) (c : Dev nD)

/-- The embedding the head computes from the entry contents. -/
def headEmb : Fin 512 → Fin 128 → EReal :=
  Spec.emb (Spec.hid (Spec.mean (fun g k => Spec.rd S512x128 (V c main_v48) (ix2 g k)) (fun g => Spec.rd S512x1 (V c main_v45) (ix2 g (0 : Fin 1))))
      (fun k j => Spec.rd S128x64 (V c main_arg7) (ix2 k j)) (fun j => Spec.rd S1x64 (V c main_v49) (ix2 (0 : Fin 1) j)))
    (fun j k => Spec.rd S64x128 (V c main_arg9) (ix2 j k)) (fun k => Spec.rd S1x128 (V c main_v50) (ix2 (0 : Fin 1) k))

/-! ## One grid point: every window's block is its whole array -/

/-- Both offsets of a whole-array access are zero. -/
theorem zeros2 : (![0, 0] : Fin 2 → Nat) = fun _ => 0 := funext fun a => by fin_cases a <;> rfl

/-! At the only grid point every window's index map is zero on both axes and its block has the array's own sizes, so
    the block read off the array is the array. One statement per input window: 0 the pooled sums, 1 the counts,
    2 and 3 the first layer's weights and bias, 4 and 5 the second layer's, 6 and 7 the last layer's. -/

theorem blk3_0 (t : Fin cfg3.N) : iblk3 V c 0 t = V c main_v48 := by
  obtain rfl : t = t3_0 := fin_N3 t
  have hz : (fun a => win3_0.index t3_0 a * main_v48.ty.shape.size a) = fun _ => 0 := funext fun a => by fin_cases a <;> decide
  exact Memref.read_access_unit_zero (Elt Ideal) main_v48 hz (fun a => by rw [congrFun hz a]; simp) (V c main_v48)
theorem blk3_1 (t : Fin cfg3.N) : iblk3 V c 1 t = V c main_v45 := by
  obtain rfl : t = t3_0 := fin_N3 t
  have hz : (fun a => win3_1.index t3_0 a * main_v45.ty.shape.size a) = fun _ => 0 := funext fun a => by fin_cases a <;> decide
  exact Memref.read_access_unit_zero (Elt Ideal) main_v45 hz (fun a => by rw [congrFun hz a]; simp) (V c main_v45)
theorem blk3_2 (t : Fin cfg3.N) : iblk3 V c 2 t = V c main_arg7 := by
  obtain rfl : t = t3_0 := fin_N3 t
  have hz : (fun a => win3_2.index t3_0 a * main_arg7.ty.shape.size a) = fun _ => 0 := funext fun a => by fin_cases a <;> decide
  exact Memref.read_access_unit_zero (Elt Ideal) main_arg7 hz (fun a => by rw [congrFun hz a]; simp) (V c main_arg7)
theorem blk3_3 (t : Fin cfg3.N) : iblk3 V c 3 t = V c main_v49 := by
  obtain rfl : t = t3_0 := fin_N3 t
  have hz : (fun a => win3_3.index t3_0 a * main_v49.ty.shape.size a) = fun _ => 0 := funext fun a => by fin_cases a <;> decide
  exact Memref.read_access_unit_zero (Elt Ideal) main_v49 hz (fun a => by rw [congrFun hz a]; simp) (V c main_v49)
theorem blk3_4 (t : Fin cfg3.N) : iblk3 V c 4 t = V c main_arg9 := by
  obtain rfl : t = t3_0 := fin_N3 t
  have hz : (fun a => win3_4.index t3_0 a * main_arg9.ty.shape.size a) = fun _ => 0 := funext fun a => by fin_cases a <;> decide
  exact Memref.read_access_unit_zero (Elt Ideal) main_arg9 hz (fun a => by rw [congrFun hz a]; simp) (V c main_arg9)
theorem blk3_5 (t : Fin cfg3.N) : iblk3 V c 5 t = V c main_v50 := by
  obtain rfl : t = t3_0 := fin_N3 t
  have hz : (fun a => win3_5.index t3_0 a * main_v50.ty.shape.size a) = fun _ => 0 := funext fun a => by fin_cases a <;> decide
  exact Memref.read_access_unit_zero (Elt Ideal) main_v50 hz (fun a => by rw [congrFun hz a]; simp) (V c main_v50)
theorem blk3_6 (t : Fin cfg3.N) : iblk3 V c 6 t = V c main_arg11 := by
  obtain rfl : t = t3_0 := fin_N3 t
  have hz : (fun a => win3_6.index t3_0 a * main_arg11.ty.shape.size a) = fun _ => 0 := funext fun a => by fin_cases a <;> decide
  exact Memref.read_access_unit_zero (Elt Ideal) main_arg11 hz (fun a => by rw [congrFun hz a]; simp) (V c main_arg11)
theorem blk3_7 (t : Fin cfg3.N) : iblk3 V c 7 t = V c main_v51 := by
  obtain rfl : t = t3_0 := fin_N3 t
  have hz : (fun a => win3_7.index t3_0 a * main_v51.ty.shape.size a) = fun _ => 0 := funext fun a => by fin_cases a <;> decide
  exact Memref.read_access_unit_zero (Elt Ideal) main_v51 hz (fun a => by rw [congrFun hz a]; simp) (V c main_v51)

/-- The embedding's array after the call, as the body's first payload of the six arrays it depends on. -/
abbrev embArr : Vec Ideal S512x128 .f32 :=
  k3_pay1 (V c main_v48) (V c main_v45) (V c main_arg7) (V c main_v49) (V c main_arg9) (V c main_v50)

/-- The last layer's array after the call, as the body's second payload of all eight arrays. -/
abbrev outArr : Vec Ideal S512x1 .f32 :=
  k3_pay2 (V c main_v48) (V c main_v45) (V c main_arg7) (V c main_v49) (V c main_arg9) (V c main_v50) (V c main_arg11) (V c main_v51)

/-- What the one point writes back to the embedding's array is the whole of `embArr`. -/
theorem flushed3_8 (t : Fin cfg3.N) :
    (dat3 V c).flushed 8 t = ((cfg3.win 8).blk t).view.read (Elt Ideal) (embArr V c) := by
  show (cfg3.win 8).cut (grid3.coords t) ((dat3 V c).after 8 t) = _
  rw [after3_8, blk3_0, blk3_1, blk3_2, blk3_3, blk3_4, blk3_5]
  unfold out3_8
  rw [View.canon_unit_zero zeros2]
  simp only [View.ld_unit_zero (S := S512x128) zeros2, View.ld_unit_zero (S := S512x1) zeros2, View.ld_unit_zero (S := S128x64) zeros2,
    View.ld_unit_zero (S := S1x64) zeros2, View.ld_unit_zero (S := S64x128) zeros2, View.ld_unit_zero (S := S1x128) zeros2]
  obtain rfl : t = t3_0 := fin_N3 t
  have hz : (fun a => win3_8.index t3_0 a * main_v52_0.ty.shape.size a) = fun _ => 0 := funext fun a => by fin_cases a <;> decide
  exact (Memref.read_access_unit_zero (Elt Ideal) main_v52_0 hz (fun a => by rw [congrFun hz a]; simp) (embArr V c)).symm

/-- What the one point writes back to the last layer's array is the whole of `outArr`. -/
theorem flushed3_9 (t : Fin cfg3.N) :
    (dat3 V c).flushed 9 t = ((cfg3.win 9).blk t).view.read (Elt Ideal) (outArr V c) := by
  show (cfg3.win 9).cut (grid3.coords t) ((dat3 V c).after 9 t) = _
  rw [after3_9, blk3_0, blk3_1, blk3_2, blk3_3, blk3_4, blk3_5, blk3_6, blk3_7]
  unfold out3_9
  rw [View.canon_unit_zero zeros2]
  simp only [View.ld_unit_zero (S := S512x128) zeros2, View.ld_unit_zero (S := S512x1) zeros2, View.ld_unit_zero (S := S128x64) zeros2,
    View.ld_unit_zero (S := S1x64) zeros2, View.ld_unit_zero (S := S64x128) zeros2, View.ld_unit_zero (S := S1x128) zeros2,
    View.ld_unit_zero (S := S128x1) zeros2, View.ld_unit_zero (S := S1x1) zeros2]
  obtain rfl : t = t3_0 := fin_N3 t
  have hz : (fun a => win3_9.index t3_0 a * main_v52_1.ty.shape.size a) = fun _ => 0 := funext fun a => by fin_cases a <;> decide
  exact (Memref.read_access_unit_zero (Elt Ideal) main_v52_1 hz (fun a => by rw [congrFun hz a]; simp) (outArr V c)).symm

/-- The one point's block of the embedding's array holds every index of it. -/
theorem covered3_8 (i : ((cfg3.win 8).arr.view.loc (c.tc : Thread nD τ)).2.ty.Idx) :
    ∃ t : Fin cfg3.N, (cfg3.win 8).flush t = true ∧ i ∈ ((cfg3.win 8).blk t).view.set := by
  refine ⟨t3_0, flush3_8 t3_0, ?_⟩
  show i ∈ ((View.whole main_v52_0).slice (win3_8.rect t3_0)).set
  rw [View.set_slice_whole]
  have hz : (fun a => win3_8.index t3_0 a * main_v52_0.ty.shape.size a) = fun _ => 0 := funext fun a => by fin_cases a <;> decide
  exact View.mem_set_unit_zero (S := S512x128) hz _ i

/-- The one point's block of the last layer's array holds every index of it. -/
theorem covered3_9 (i : ((cfg3.win 9).arr.view.loc (c.tc : Thread nD τ)).2.ty.Idx) :
    ∃ t : Fin cfg3.N, (cfg3.win 9).flush t = true ∧ i ∈ ((cfg3.win 9).blk t).view.set := by
  refine ⟨t3_0, flush3_9 t3_0, ?_⟩
  show i ∈ ((View.whole main_v52_1).slice (win3_9.rect t3_0)).set
  rw [View.set_slice_whole]
  have hz : (fun a => win3_9.index t3_0 a * main_v52_1.ty.shape.size a) = fun _ => 0 := funext fun a => by fin_cases a <;> decide
  exact View.mem_set_unit_zero (S := S512x1) hz _ i

/-- So the embedding's array ends holding `embArr` … -/
theorem arr3_8 : (dat3 V c).arrAt 8 cfg3.N = embArr V c :=
  (dat3 V c).arrAt_eq_of_cover 8 (embArr V c) (fun t _ => flushed3_8 V c t) (covered3_8 c)

/-- … and the last layer's `outArr`. -/
theorem arr3_9 : (dat3 V c).arrAt 9 cfg3.N = outArr V c :=
  (dat3 V c).arrAt_eq_of_cover 9 (outArr V c) (fun t _ => flushed3_9 V c t) (covered3_9 c)

/-! ## The three contractions, read at an index

Each of the body's three products contracts the left operand's second axis with the right operand's first and has
no batch axis. At result index (g, j) and summation index q the left operand is therefore read at (g, q) and the
right at (q, j): four coordinate facts per product, then the product into a zero accumulator as a sum over the
contracted extent. The operands pass through a narrowing format change first, which is the identity on the
extended reals. -/

theorem dense1_lhs_row (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem dense1_lhs_sum (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem dense1_rhs_sum (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem dense1_rhs_col (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- Row `g` of the means against column `j` of the first layer's weights: a sum over the 128 features. -/
theorem dense1_apply (a : FVec Ideal S512x128 .f32) (w : FVec Ideal S128x64 .f32) (g : Fin 512) (j : Fin 64) :
    matmul dot_S512x128_S128x64_S512x64_1_0_0_1_n_n none (truncf .bf16 a bitsLt_bf16_f32) (truncf .bf16 w bitsLt_bf16_f32)
        (constant (F := Ideal) S512x64 .f32 0x00000000#32) (ix2 g j)
      = ∑ k : Fin 128, a (ix2 g k) * w (ix2 k j) := by
  simp only [matmul]
  rw [Ideal.matmul_constant_zero_apply, ← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx (ix2 g j) ((ValueIdx.contrEquiv1 dot_S512x128_S128x64_S512x64_1_0_0_1_n_n 128 rfl rfl).symm k) = ix2 g k := funext fun d => Fin.ext (by
    match d with
    | ⟨0, _⟩ => exact dense1_lhs_row _ _
    | ⟨1, _⟩ => exact (dense1_lhs_sum _ _).trans hk)
  have er : dot_S512x128_S128x64_S512x64_1_0_0_1_n_n.rhsIdx (ix2 g j) ((ValueIdx.contrEquiv1 dot_S512x128_S128x64_S512x64_1_0_0_1_n_n 128 rfl rfl).symm k) = ix2 k j := funext fun d => Fin.ext (by
    match d with
    | ⟨0, _⟩ => exact (dense1_rhs_sum _ _).trans hk
    | ⟨1, _⟩ => exact dense1_rhs_col _ _)
  rw [truncf_apply, truncf_apply, el, er]

theorem dense2_lhs_row (i : S512x128.Idx) (q : dot_S512x64_S64x128_S512x128_1_0_0_1_n_n.contr.Idx) :
    (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide), dif_pos (show (0 : Fin S512x64.rank) ∈ dot_S512x64_S64x128_S512x128_1_0_0_1_n_n.lhsNonContracting by decide)]
  rfl
theorem dense2_lhs_sum (i : S512x128.Idx) (q : dot_S512x64_S64x128_S512x128_1_0_0_1_n_n.contr.Idx) :
    (dot_S512x64_S64x128_S512x128_1_0_0_1_n_n.lhsIdx i q 1).val = (q ⟨0, by decide⟩).val :=
  dot_S512x64_S64x128_S512x128_1_0_0_1_n_n.lhsIdx_val_of_single rfl i q
theorem dense2_rhs_sum (i : S512x128.Idx) (q : dot_S512x64_S64x128_S512x128_1_0_0_1_n_n.contr.Idx) :
    (dot_S512x64_S64x128_S512x128_1_0_0_1_n_n.rhsIdx i q 0).val = (q ⟨0, by decide⟩).val :=
  dot_S512x64_S64x128_S512x128_1_0_0_1_n_n.rhsIdx_val_of_single rfl i q
theorem dense2_rhs_col (i : S512x128.Idx) (q : dot_S512x64_S64x128_S512x128_1_0_0_1_n_n.contr.Idx) :
    (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide), dif_pos (show (1 : Fin S64x128.rank) ∈ dot_S512x64_S64x128_S512x128_1_0_0_1_n_n.rhsNonContracting by decide)]
  rfl

/-- Row `g` of the hidden activations against column `k` of the second layer's weights: a sum over the 64 hidden units. -/
theorem dense2_apply (a : FVec Ideal S512x64 .f32) (w : FVec Ideal S64x128 .f32) (g : Fin 512) (j : Fin 128) :
    matmul dot_S512x64_S64x128_S512x128_1_0_0_1_n_n none (truncf .bf16 a bitsLt_bf16_f32) (truncf .bf16 w bitsLt_bf16_f32)
        (constant (F := Ideal) S512x128 .f32 0x00000000#32) (ix2 g j)
      = ∑ k : Fin 64, a (ix2 g k) * w (ix2 k j) := by
  simp only [matmul]
  rw [Ideal.matmul_constant_zero_apply, ← Equiv.sum_comp (ValueIdx.contrEquiv1 dot_S512x64_S64x128_S512x128_1_0_0_1_n_n 64 rfl rfl).symm]
  refine Finset.sum_congr rfl fun k _ => ?_
  have hk := ValueIdx.contrEquiv1_symm_val dot_S512x64_S64x128_S512x128_1_0_0_1_n_n 64 rfl rfl k
  have el : dot_S512x64_S64x128_S512x128_1_0_0_1_n_n.lhsIdx (ix2 g j) ((ValueIdx.contrEquiv1 dot_S512x64_S64x128_S512x128_1_0_0_1_n_n 64 rfl rfl).symm k) = ix2 g k := funext fun d => Fin.ext (by
    match d with
    | ⟨0, _⟩ => exact dense2_lhs_row _ _
    | ⟨1, _⟩ => exact (dense2_lhs_sum _ _).trans hk)
  have er : dot_S512x64_S64x128_S512x128_1_0_0_1_n_n.rhsIdx (ix2 g j) ((ValueIdx.contrEquiv1 dot_S512x64_S64x128_S512x128_1_0_0_1_n_n 64 rfl rfl).symm k) = ix2 k j := funext fun d => Fin.ext (by
    match d with
    | ⟨0, _⟩ => exact (dense2_rhs_sum _ _).trans hk
    | ⟨1, _⟩ => exact dense2_rhs_col _ _)
  rw [truncf_apply, truncf_apply, el, er]

theorem dense3_lhs_row (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem dense3_lhs_sum (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem dense3_rhs_sum (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem dense3_rhs_col (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- Row `g` of the embedding against the last layer's one column: a sum over the 128 features. -/
theorem dense3_apply (a : FVec Ideal S512x128 .f32) (w : FVec Ideal S128x1 .f32) (g : Fin 512) (j : Fin 1) :
    matmul dot_S512x128_S128x1_S512x1_1_0_0_1_n_n none (truncf .bf16 a bitsLt_bf16_f32) (truncf .bf16 w bitsLt_bf16_f32)
        (constant (F := Ideal) S512x1 .f32 0x00000000#32) (ix2 g j)
      = ∑ k : Fin 128, a (ix2 g k) * w (ix2 k j) := by
  simp only [matmul]
  rw [Ideal.matmul_constant_zero_apply, ← Equiv.sum_comp (ValueIdx.contrEquiv1 dot_S512x128_S128x1_S512x1_1_0_0_1_n_n 128 rfl rfl).symm]
  refine Finset.sum_congr rfl fun k _ => ?_
  have hk := ValueIdx.contrEquiv1_symm_val dot_S512x128_S128x1_S512x1_1_0_0_1_n_n 128 rfl rfl k
  have el : dot_S512x128_S128x1_S512x1_1_0_0_1_n_n.lhsIdx (ix2 g j) ((ValueIdx.contrEquiv1 dot_S512x128_S128x1_S512x1_1_0_0_1_n_n 128 rfl rfl).symm k) = ix2 g k := funext fun d => Fin.ext (by
    match d with
    | ⟨0, _⟩ => exact dense3_lhs_row _ _
    | ⟨1, _⟩ => exact (dense3_lhs_sum _ _).trans hk)
  have er : dot_S512x128_S128x1_S512x1_1_0_0_1_n_n.rhsIdx (ix2 g j) ((ValueIdx.contrEquiv1 dot_S512x128_S128x1_S512x1_1_0_0_1_n_n 128 rfl rfl).symm k) = ix2 k j := funext fun d => Fin.ext (by
    match d with
    | ⟨0, _⟩ => exact (dense3_rhs_sum _ _).trans hk
    | ⟨1, _⟩ => exact dense3_rhs_col _ _)
  rw [truncf_apply, truncf_apply, el, er]

/-! ## The body's arithmetic in four stages -/

/-- The pooled sums divided row by row by the counts floored at one, as the body writes it. -/
def meanV (s : FVec Ideal S512x128 .f32) (n : FVec Ideal S512x1 .f32) : FVec Ideal S512x128 .f32 :=
  divf (shapeCast S512x128 s shapeCasts_S512x128_S512x128)
    (broadcastTo S512x128 (maximumf (shapeCast S512x1 n shapeCasts_S512x1_S512x1)
      (broadcast S512x1 (Scalar.ofBits (F := Ideal) .f32 0x3F800000#32))) broadcasts_S512x1_S512x128)

/-- The first dense layer as the body writes it: product into a zero accumulator, the bias row on every row, relu. -/
def hidV (m : FVec Ideal S512x128 .f32) (w : FVec Ideal S128x64 .f32) (b : FVec Ideal S1x64 .f32) : FVec Ideal S512x64 .f32 :=
  maximumf (addf (matmul dot_S512x128_S128x64_S512x64_1_0_0_1_n_n none (truncf .bf16 m bitsLt_bf16_f32) (truncf .bf16 w bitsLt_bf16_f32) (constant (F := Ideal) S512x64 .f32 0x00000000#32))
      (broadcastTo S512x64 (shapeCast S1x64 b shapeCasts_S1x64_S1x64) broadcasts_S1x64_S512x64))
    (broadcast S512x64 (Scalar.ofBits (F := Ideal) .f32 0x00000000#32))

/-- The second dense layer, the same way. -/
def embV (z : FVec Ideal S512x64 .f32) (w : FVec Ideal S64x128 .f32) (b : FVec Ideal S1x128 .f32) : FVec Ideal S512x128 .f32 :=
  maximumf (addf (matmul dot_S512x64_S64x128_S512x128_1_0_0_1_n_n none (truncf .bf16 z bitsLt_bf16_f32) (truncf .bf16 w bitsLt_bf16_f32) (constant (F := Ideal) S512x128 .f32 0x00000000#32))
      (broadcastTo S512x128 (shapeCast S1x128 b shapeCasts_S1x128_S1x128) broadcasts_S1x128_S512x128))
    (broadcast S512x128 (Scalar.ofBits (F := Ideal) .f32 0x00000000#32))

/-- The last dense layer: product into a zero accumulator and the one bias on every row, no relu. -/
def outV (e : FVec Ideal S512x128 .f32) (w : FVec Ideal S128x1 .f32) (b : FVec Ideal S1x1 .f32) : FVec Ideal S512x1 .f32 :=
  addf (matmul dot_S512x128_S128x1_S512x1_1_0_0_1_n_n none (truncf .bf16 e bitsLt_bf16_f32) (truncf .bf16 w bitsLt_bf16_f32) (constant (F := Ideal) S512x1 .f32 0x00000000#32))
    (broadcastTo S512x1 (shapeCast S1x1 b shapeCasts_S1x1_S1x1) broadcasts_S1x1_S512x1)

/-- The first payload is the first three stages composed … -/
theorem pay1_stages (x0 : Vec Ideal S512x128 .f32) (x1 : Vec Ideal S512x1 .f32) (x2 : Vec Ideal S128x64 .f32) (x3 : Vec Ideal S1x64 .f32)
    (x4 : Vec Ideal S64x128 .f32) (x5 : Vec Ideal S1x128 .f32) :
    k3_pay1 x0 x1 x2 x3 x4 x5 = embV (hidV (meanV x0 x1) x2 x3) x4 x5 := rfl

/-- … and the second payload the last stage on the first payload. -/
theorem pay2_stages (x0 : Vec Ideal S512x128 .f32) (x1 : Vec Ideal S512x1 .f32) (x2 : Vec Ideal S128x64 .f32) (x3 : Vec Ideal S1x64 .f32)
    (x4 : Vec Ideal S64x128 .f32) (x5 : Vec Ideal S1x128 .f32) (x6 : Vec Ideal S128x1 .f32) (x7 : Vec Ideal S1x1 .f32) :
    k3_pay2 x0 x1 x2 x3 x4 x5 x6 x7 = outV (k3_pay1 x0 x1 x2 x3 x4 x5) x6 x7 := rfl

/-- The mean at (g, k): the sum there over the count of row `g` floored at one (the word 0x3F800000 is one). -/
theorem meanV_apply (s : FVec Ideal S512x128 .f32) (n : FVec Ideal S512x1 .f32) (g : Fin 512) (k : Fin 128) :
    meanV s n (ix2 g k) = Spec.mean (fun g k => s (ix2 g k)) (fun g => n (ix2 g (0 : Fin 1))) g k := by
  unfold meanV Spec.mean
  rw [divf_apply, shapeCast_self, broadcastTo_apply _ broadcasts_S512x1_S512x128 (ix2 g k) (ix2 g (0 : Fin 1)) (fun a => by
      match a with
      | ⟨0, _⟩ => show g.val = if (512 : Nat) = 1 then 0 else g.val; rw [if_neg (by decide)]
      | ⟨1, _⟩ => show (0 : Fin 1).val = if (1 : Nat) = 1 then 0 else k.val; rw [if_pos rfl]; rfl),
    maximumf_apply, shapeCast_self, broadcast_apply]
  show Ideal.div _ (max _ (Ideal.ofBits .f32 0x3F800000#32)) = _
  rw [Ideal.ofBits_one_f32]

/-- The first dense layer at (g, j). -/
theorem hidV_apply (m : FVec Ideal S512x128 .f32) (w : FVec Ideal S128x64 .f32) (b : FVec Ideal S1x64 .f32) (g : Fin 512) (j : Fin 64) :
    hidV m w b (ix2 g j) = Spec.hid (fun g k => m (ix2 g k)) (fun k j => w (ix2 k j)) (fun j => b (ix2 (0 : Fin 1) j)) g j := by
  unfold hidV Spec.hid
  rw [maximumf_apply, addf_apply, dense1_apply, broadcastTo_apply _ broadcasts_S1x64_S512x64 (ix2 g j) (ix2 (0 : Fin 1) j) (fun a => by
      match a with
      | ⟨0, _⟩ => show (0 : Fin 1).val = if (1 : Nat) = 1 then 0 else g.val; rw [if_pos rfl]; rfl
      | ⟨1, _⟩ => show j.val = if (64 : Nat) = 1 then 0 else j.val; rw [if_neg (by decide)]),
    shapeCast_self, broadcast_apply]
  show max _ (Ideal.ofBits .f32 0x00000000#32) = _
  rw [Ideal.ofBits_zero_f32]

/-- The second dense layer at (g, k). -/
theorem embV_apply (z : FVec Ideal S512x64 .f32) (w : FVec Ideal S64x128 .f32) (b : FVec Ideal S1x128 .f32) (g : Fin 512) (k : Fin 128) :
    embV z w b (ix2 g k) = Spec.emb (fun g j => z (ix2 g j)) (fun j k => w (ix2 j k)) (fun k => b (ix2 (0 : Fin 1) k)) g k := by
  unfold embV Spec.emb
  rw [maximumf_apply, addf_apply, dense2_apply, broadcastTo_apply _ broadcasts_S1x128_S512x128 (ix2 g k) (ix2 (0 : Fin 1) k) (fun a => by
      match a with
      | ⟨0, _⟩ => show (0 : Fin 1).val = if (1 : Nat) = 1 then 0 else g.val; rw [if_pos rfl]; rfl
      | ⟨1, _⟩ => show k.val = if (128 : Nat) = 1 then 0 else k.val; rw [if_neg (by decide)]),
    shapeCast_self, broadcast_apply]
  show max _ (Ideal.ofBits .f32 0x00000000#32) = _
  rw [Ideal.ofBits_zero_f32]

/-- The last dense layer at row g. -/
theorem outV_apply (e : FVec Ideal S512x128 .f32) (w : FVec Ideal S128x1 .f32) (b : FVec Ideal S1x1 .f32) (g : Fin 512) :
    outV e w b (ix2 g (0 : Fin 1)) = Spec.out (fun g k => e (ix2 g k)) (fun k => w (ix2 k (0 : Fin 1))) (b (ix2 (0 : Fin 1) (0 : Fin 1))) g := by
  unfold outV Spec.out
  rw [addf_apply, dense3_apply, broadcastTo_apply _ broadcasts_S1x1_S512x1 (ix2 g (0 : Fin 1)) (ix2 (0 : Fin 1) (0 : Fin 1)) (fun a => by
      match a with
      | ⟨0, _⟩ => show (0 : Fin 1).val = if (1 : Nat) = 1 then 0 else g.val; rw [if_pos rfl]; rfl
      | ⟨1, _⟩ => show (0 : Fin 1).val = if (1 : Nat) = 1 then 0 else (0 : Fin 1).val; rw [if_pos rfl]; rfl),
    shapeCast_self]

/-- The first payload at (g, k) is the specification's embedding of the six arrays read by coordinates. -/
theorem pay1_apply (x0 : Vec Ideal S512x128 .f32) (x1 : Vec Ideal S512x1 .f32) (x2 : Vec Ideal S128x64 .f32) (x3 : Vec Ideal S1x64 .f32)
    (x4 : Vec Ideal S64x128 .f32) (x5 : Vec Ideal S1x128 .f32) (g : Fin 512) (k : Fin 128) :
    k3_pay1 x0 x1 x2 x3 x4 x5 (ix2 g k)
      = Spec.emb (Spec.hid (Spec.mean (fun g k => x0 (ix2 g k)) (fun g => x1 (ix2 g (0 : Fin 1)))) (fun k j => x2 (ix2 k j)) (fun j => x3 (ix2 (0 : Fin 1) j)))
          (fun j k => x4 (ix2 j k)) (fun k => x5 (ix2 (0 : Fin 1) k)) g k := by
  have hm : (fun (g : Fin 512) (k : Fin 128) => meanV x0 x1 (ix2 g k)) = Spec.mean (fun g k => x0 (ix2 g k)) (fun g => x1 (ix2 g (0 : Fin 1))) :=
    funext fun g => funext fun k => meanV_apply x0 x1 g k
  have hh : (fun (g : Fin 512) (j : Fin 64) => hidV (meanV x0 x1) x2 x3 (ix2 g j))
      = Spec.hid (Spec.mean (fun g k => x0 (ix2 g k)) (fun g => x1 (ix2 g (0 : Fin 1)))) (fun k j => x2 (ix2 k j)) (fun j => x3 (ix2 (0 : Fin 1) j)) :=
    funext fun g => funext fun j => by rw [hidV_apply, hm]
  rw [pay1_stages, embV_apply, hh]

/-- The second payload at row g is the specification's last layer on that embedding. -/
theorem pay2_apply (x0 : Vec Ideal S512x128 .f32) (x1 : Vec Ideal S512x1 .f32) (x2 : Vec Ideal S128x64 .f32) (x3 : Vec Ideal S1x64 .f32)
    (x4 : Vec Ideal S64x128 .f32) (x5 : Vec Ideal S1x128 .f32) (x6 : Vec Ideal S128x1 .f32) (x7 : Vec Ideal S1x1 .f32) (g : Fin 512) :
    k3_pay2 x0 x1 x2 x3 x4 x5 x6 x7 (ix2 g (0 : Fin 1))
      = Spec.out (Spec.emb (Spec.hid (Spec.mean (fun g k => x0 (ix2 g k)) (fun g => x1 (ix2 g (0 : Fin 1)))) (fun k j => x2 (ix2 k j)) (fun j => x3 (ix2 (0 : Fin 1) j)))
          (fun j k => x4 (ix2 j k)) (fun k => x5 (ix2 (0 : Fin 1) k))) (fun k => x6 (ix2 k (0 : Fin 1))) (x7 (ix2 (0 : Fin 1) (0 : Fin 1))) g := by
  have he : (fun (g : Fin 512) (k : Fin 128) => k3_pay1 x0 x1 x2 x3 x4 x5 (ix2 g k))
      = Spec.emb (Spec.hid (Spec.mean (fun g k => x0 (ix2 g k)) (fun g => x1 (ix2 g (0 : Fin 1)))) (fun k j => x2 (ix2 k j)) (fun j => x3 (ix2 (0 : Fin 1) j)))
          (fun j k => x4 (ix2 j k)) (fun k => x5 (ix2 (0 : Fin 1) k)) :=
    funext fun g => funext fun k => pay1_apply x0 x1 x2 x3 x4 x5 g k
  rw [pay2_stages, outV_apply, he]

/-! ## The two arrays after the call -/

theorem arr3_emb (g : Fin 512) (k : Fin 128) :
    Spec.rd S512x128 ((dat3 V c).arrAt 8 cfg3.N) (ix2 g k) = headEmb V c g k :=
  (congrFun (arr3_8 V c) (ix2 g k)).trans
    (pay1_apply (V c main_v48) (V c main_v45) (V c main_arg7) (V c main_v49) (V c main_arg9) (V c main_v50) g k)

theorem arr3_out (g : Fin 512) :
    Spec.rd S512x1 ((dat3 V c).arrAt 9 cfg3.N) (ix2 g (0 : Fin 1))
      = Spec.out (headEmb V c) (fun k => Spec.rd S128x1 (V c main_arg11) (ix2 k (0 : Fin 1)))
          (Spec.rd S1x1 (V c main_v51) (ix2 (0 : Fin 1) (0 : Fin 1))) g :=
  (congrFun (arr3_9 V c) (ix2 g (0 : Fin 1))).trans
    (pay2_apply (V c main_v48) (V c main_v45) (V c main_arg7) (V c main_v49) (V c main_arg9) (V c main_v50) (V c main_arg11) (V c main_v51) g)

end Cert.KernelIdeal.Val.R3

end
-- ==== Proof.Val.KerArgs.lean ====
/-
  The edge list and the graph ids of the kernel program's launch memory, typed as the specification takes them.
-/
import proofs.«409948_j46497315946702_2_alg».proof.Proof.KI.Bounds
import proofs.«409948_j46497315946702_2_alg».proof.Proof.Val.Spec

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- The edge list as the program is launched with it. -/
abbrev eiOf : Spec.EdgeWords := m ((c : Thread nD τ).loc main_arg1)
/-- The graph ids as the program is launched with them. -/
abbrev btOf : Spec.BatchWords := m ((c : Thread nD τ).loc main_arg2)

end Cert.KernelIdeal.Val

end
-- ==== Proof.Val.KerHostA.lean ====
/-
  The host operations before the first pallas_call, read at an index: the edge words with the self loops appended,
  the degree of every node as a scatter-add of ones, and the per-node factor (its inverse square root, zero where the
  degree is not positive) as a column.
-/
import proofs.«409948_j46497315946702_2_alg».proof.Proof.KI.Bounds
import proofs.«409948_j46497315946702_2_alg».proof.Proof.Val.KerArgs
import proofs.«409948_j46497315946702_2_alg».proof.Proof.Val.Spec
import proofs.«409948_j46497315946702_2_alg».proof.Proof.LibScatterGather
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val.HostA

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## A row of the edge list followed by the node numbers -/

/-- Row `r` of the two-row edge list, flattened to 800000 words, with the 50000 node numbers appended: below 800000
    the word is the edge list's entry (r, e); from 800000 on it is the number e - 800000. -/
theorem row_then_nodes_apply (r : Fin 2) (off : Fin 2 → Nat) (h0 : off 0 = r.val) (h1 : off 1 = 0)
    (ei : Spec.EdgeWords) (hs : S2x800000.Slices off S1x800000) (hc : S1x800000.ShapeCasts S800000)
    (hk : Shape.Concatenates [S800000, S50000] S850000 0) (e : Fin 850000) :
    concatenate S850000 0 [⟨S800000, shapeCast S800000 (extractStridedSlice S1x800000 off ei hs) hc⟩,
        ⟨S50000, iotaInDim S50000 32 0⟩] hk (ix1 e)
      = if h : e.val < 800000 then ei (ix2 r (⟨e.val, h⟩ : Fin 800000)) else BitVec.ofNat 32 (e.val - 800000) := by
  by_cases h : e.val < 800000
  · rw [dif_pos h]
    -- the first piece, at the same coordinate
    rw [concatenate_pair_apply_left (t := S850000) (s₁ := S800000) (s₂ := S50000) (0 : Fin 1) _ _ hk (ix1 e) rfl (ix1 (⟨e.val, h⟩ : Fin 800000))
      (fun b => by match b with | ⟨0, _⟩ => rfl)]
    -- the flattening keeps the row-major position: (0, e) of the one-row slice
    rw [shapeCast_apply _ hc (ix1 (⟨e.val, h⟩ : Fin 800000)) (ix2 (0 : Fin 1) (⟨e.val, h⟩ : Fin 800000))
      (by rw [Shape.rowMajor_val_two, Shape.rowMajor_val_one]; show 0 * 800000 + e.val = e.val; omega)]
    -- the slice starts at row r, column 0
    exact extractStridedSlice_apply off ei hs (ix2 (0 : Fin 1) (⟨e.val, h⟩ : Fin 800000)) (ix2 r (⟨e.val, h⟩ : Fin 800000))
      (fun a => by
        match a with
        | ⟨0, _⟩ => show r.val = off 0 + 0; omega
        | ⟨1, _⟩ => show e.val = off 1 + e.val; omega)
  · rw [dif_neg h]
    have he : e.val - 800000 < 50000 := by have := e.isLt; omega
    -- the second piece, its coordinate the first piece's length less
    rw [concatenate_pair_apply_right (t := S850000) (s₁ := S800000) (s₂ := S50000) (0 : Fin 1) _ _ hk (ix1 e) rfl rfl (ix1 (⟨e.val - 800000, he⟩ : Fin 50000))
      (fun b hb => absurd (Fin.ext (by have hb1 : b.val < 1 := b.isLt; show b.val = 0; omega)) hb)
      (by show e.val - 800000 + 800000 = e.val; omega)]
    rfl

/-! ## The buffers of the first stretch, each from the buffers before it -/

/-- The source words: the first row flattened, then the node numbers. -/
theorem srcWords_term : (W1 m c (Proc.devRef .tc main_v3) : S850000.Idx → BitVec 32)
    = concatenate S850000 0 [⟨S800000, shapeCast S800000 (extractStridedSlice S1x800000 ![0, 0] (eiOf m c)
          Facts₀.slices_S2x800000_S1x800000_0_0) Facts₀.shapeCasts_S1x800000_S800000⟩,
        ⟨S50000, iotaInDim S50000 32 0⟩] Facts₀.concatenates_S800000_S50000_S850000_d0 := by
  dsimp only [W1]; after_results <;> rfl

/-- The target words: the second row flattened, then the node numbers. -/
theorem dstWords_term : (W1 m c (Proc.devRef .tc main_v6) : S850000.Idx → BitVec 32)
    = concatenate S850000 0 [⟨S800000, shapeCast S800000 (extractStridedSlice S1x800000 ![1, 0] (eiOf m c)
          Facts₀.slices_S2x800000_S1x800000_1_0) Facts₀.shapeCasts_S1x800000_S800000⟩,
        ⟨S50000, iotaInDim S50000 32 0⟩] Facts₀.concatenates_S800000_S50000_S850000_d0 := by
  dsimp only [W1]; after_results <;> rfl

/-- The source words after the concatenation with the self loops. -/
theorem ker_srcW (e : Fin 850000) : Spec.rdw S850000 (W1 m c (Proc.devRef .tc main_v3)) (ix1 e) = Spec.srcW (eiOf m c) e := by
  show (W1 m c (Proc.devRef .tc main_v3) : S850000.Idx → BitVec 32) (ix1 e) = _
  rw [srcWords_term]
  exact row_then_nodes_apply 0 ![0, 0] rfl rfl (eiOf m c) _ _ _ e
/-- The target words after the concatenation with the self loops. -/
theorem ker_dstW (e : Fin 850000) : Spec.rdw S850000 (W1 m c (Proc.devRef .tc main_v6)) (ix1 e) = Spec.dstW (eiOf m c) e := by
  show (W1 m c (Proc.devRef .tc main_v6) : S850000.Idx → BitVec 32) (ix1 e) = _
  rw [dstWords_term]
  exact row_then_nodes_apply 1 ![1, 0] rfl rfl (eiOf m c) _ _ _ e

/-- The ones the scatter adds: 850000 copies of the float word of one. -/
theorem ones_term : (W1 m c (Proc.devRef .tc main_v7) : FVec Ideal S850000 .f32)
    = broadcastInDim S850000 ![] Facts₀.bcast_S_S850000 (constant (F := Ideal) S_ .f32 0x3F800000#32) := by
  dsimp only [W1]; after_results <;> rfl

/-- The zeros the scatter adds into. -/
theorem zeros_term : (W1 m c (Proc.devRef .tc main_v8) : FVec Ideal S50000 .f32)
    = broadcastInDim S50000 ![] Facts₀.bcast_S_S50000 (constant (F := Ideal) S_ .f32 0x00000000#32) := by
  dsimp only [W1]; after_results <;> rfl

/-- The target words as a column of start indices. -/
theorem dstColumn_term : (W1 m c (Proc.devRef .tc main_v9) : IVec S850000x1 32)
    = broadcastInDim S850000x1 ![0] Facts₀.bcast_S850000_S850000x1_0
        (W1 m c (Proc.devRef .tc main_v6) : IVec S850000 32) := by
  dsimp only [W1]; after_results <;> rfl

/-- The degrees: the ones scatter-added into the zeros at the target words. -/
theorem degree_term : (W1 m c (Proc.devRef .tc main_v10) : FVec Ideal S50000 .f32)
    = Host.scatterAdd (F := Ideal) (φ := .f32) scatter_S50000_S850000x1_S850000_n_0_0_1
        (W1 m c (Proc.devRef .tc main_v8) : FVec Ideal S50000 .f32)
        (W1 m c (Proc.devRef .tc main_v9) : IVec S850000x1 32)
        (W1 m c (Proc.devRef .tc main_v7) : FVec Ideal S850000 .f32) := by
  dsimp only [W1]; after_results_simp <;> rfl

/-- The zeros the degrees are compared with. -/
theorem zerosCmp_term : (W1 m c (Proc.devRef .tc main_v11) : FVec Ideal S50000 .f32)
    = broadcastInDim S50000 ![] Facts₀.bcast_S_S50000 (constant (F := Ideal) S_ .f32 0x00000000#32) := by
  dsimp only [W1]; after_results <;> rfl

/-- Which degrees are positive. -/
theorem positive_term : (W1 m c (Proc.devRef .tc main_v12) : IVec S50000 1)
    = cmpf (F := Ideal) (φ := .f32) .ogt (W1 m c (Proc.devRef .tc main_v10) : FVec Ideal S50000 .f32)
        (W1 m c (Proc.devRef .tc main_v11) : FVec Ideal S50000 .f32) := by
  dsimp only [W1]; after_results_simp <;> rfl

/-- The floor under the inverse square root, at every node. -/
theorem floor_term : (W1 m c (Proc.devRef .tc main_v13) : FVec Ideal S50000 .f32)
    = broadcastInDim S50000 ![] Facts₀.bcast_S_S50000 (constant (F := Ideal) S_ .f32 0x2B8CBCCC#32) := by
  dsimp only [W1]; after_results <;> rfl

/-- The degrees floored. -/
theorem floored_term : (W1 m c (Proc.devRef .tc main_v14) : FVec Ideal S50000 .f32)
    = maximumf (F := Ideal) (φ := .f32) (W1 m c (Proc.devRef .tc main_v10) : FVec Ideal S50000 .f32)
        (W1 m c (Proc.devRef .tc main_v13) : FVec Ideal S50000 .f32) := by
  dsimp only [W1]; after_results_simp <;> rfl

/-- Their inverse square roots. -/
theorem invSqrt_term : (W1 m c (Proc.devRef .tc main_v15) : FVec Ideal S50000 .f32)
    = Host.rsqrt (F := Ideal) (φ := .f32) (W1 m c (Proc.devRef .tc main_v14) : FVec Ideal S50000 .f32) := by
  dsimp only [W1]; after_results <;> rfl

/-- The scalar zero the selection falls back on. -/
theorem zeroScalar_term : (W1 m c (Proc.devRef .tc main_cst_3) : FVec Ideal S_ .f32)
    = constant (F := Ideal) S_ .f32 0x00000000#32 := by
  dsimp only [W1]; after_results <;> rfl

/-! ## The second and third stretches, from any contents before them -/

/-- The selection, whatever the buffers held before it: the second operand where the bit is set, the scalar in the
    third buffer spread over the nodes elsewhere. -/
theorem select_stretch (V : Valuation τ sig (Elt Ideal)) :
    (StableHlo.after hostOps0_1 V (Proc.devRef .tc main_v16) : FVec Ideal S50000 .f32)
      = select (V (Proc.devRef .tc main_v12) : IVec S50000 1) (V (Proc.devRef .tc main_v15) : FVec Ideal S50000 .f32)
          (broadcastInDim S50000 ![] Facts₀.bcast_S_S50000 (V (Proc.devRef .tc main_cst_3) : FVec Ideal S_ .f32)) := by
  after_results <;> rfl

/-- The reshape to a column, whatever the buffers held before it. -/
theorem column_stretch (V : Valuation τ sig (Elt Ideal)) :
    (StableHlo.after hostOps0_2 V (Proc.devRef .tc main_v17) : FVec Ideal S50000x1 .f32)
      = shapeCast S50000x1 (V (Proc.devRef .tc main_v16) : FVec Ideal S50000 .f32) Facts₀.shapeCasts_S50000_S50000x1 := by
  after_results <;> rfl

/-- The first stretch's bit and inverse square root are still there when the selection reads them. -/
theorem factor_term : (W2 m c (Proc.devRef .tc main_v16) : FVec Ideal S50000 .f32)
    = select (W1 m c (Proc.devRef .tc main_v12) : IVec S50000 1) (W1 m c (Proc.devRef .tc main_v15) : FVec Ideal S50000 .f32)
        (broadcastInDim S50000 ![] Facts₀.bcast_S_S50000 (W1 m c (Proc.devRef .tc main_cst_3) : FVec Ideal S_ .f32)) :=
  select_stretch (W1 m c)

/-- The factor as a column. -/
theorem factorColumn_term : (W3 m c (Proc.devRef .tc main_v17) : FVec Ideal S50000x1 .f32)
    = shapeCast S50000x1 (W2 m c (Proc.devRef .tc main_v16) : FVec Ideal S50000 .f32) Facts₀.shapeCasts_S50000_S50000x1 :=
  column_stretch (W2 m c)

/-! ## The degree and the factor at a node -/

/-- A float scalar spread over any shape reads, everywhere, the extended real of its word. -/
theorem spread_apply {T : Shape} (h : S_.BroadcastsInDim T ![]) (b : BitVec 32) (j : T.Idx) :
    broadcastInDim T ![] h (constant (F := Ideal) S_ .f32 b) j = Ideal.ofBits .f32 b := by
  rw [broadcastInDim_scalar_apply]; rfl

/-- Start index `e` of the scatter is the target word of edge `e`: the column repeats the vector along its unit axis. -/
theorem dstColumn_apply (e : Fin 850000) :
    (W1 m c (Proc.devRef .tc main_v9) : IVec S850000x1 32) (ix2 e (0 : Fin 1)) = Spec.dstW (eiOf m c) e := by
  rw [dstColumn_term, broadcastInDim_apply (s := S850000) (t := S850000x1) ![0] _ _ (ix2 e (0 : Fin 1)) (ix1 e)
    (fun a => by match a with | ⟨0, _⟩ => exact (if_neg (show ¬ (850000 : Nat) = 1 by decide)).symm)]
  exact ker_dstW m c e

/-- The degree of node `n`: zero plus a one for every edge whose target word, read signed, is `n`. -/
theorem degree_apply (n : Fin 50000) :
    (W1 m c (Proc.devRef .tc main_v10) : FVec Ideal S50000 .f32) (ix1 n) = Spec.deg (eiOf m c) n := by
  rw [degree_term, LibSG.scatterAdd_vec_apply scatter_S50000_S850000x1_S850000_n_0_0_1 rfl rfl rfl rfl]
  unfold Spec.deg Spec.into
  refine congrArg₂ (· + ·) ?_ (Finset.sum_congr (Finset.filter_congr fun e _ => ?_) fun e _ => ?_)
  · -- the operand is zero everywhere
    rw [zeros_term, spread_apply]; exact Ideal.ofBits_zero_f32
  · -- update e lands on n exactly when edge e's target word does
    rw [dstColumn_apply]
  · -- every update is a one
    rw [ones_term, spread_apply]; exact Ideal.ofBits_one_f32

/-- The comparison of two float vectors at an index is the comparison of the entries on the extended reals. -/
theorem cmpf_ogt_apply {s : Shape} (a b : FVec Ideal s .f32) (i : s.Idx) :
    cmpf (F := Ideal) .ogt a b i = Ideal.cmp .ogt (a i) (b i) := rfl

/-- The host's inverse square root at an index is the extended reals' inverse square root of the entry. -/
theorem hostRsqrt_apply {s : Shape} (x : FVec Ideal s .f32) (i : s.Idx) :
    Host.rsqrt (F := Ideal) x i = Ideal.rsqrt (x i) := rfl

/-- The factor of node `n` before it is laid out as a column: the comparison bit of its degree with zero selects the
    inverse square root of the floored degree, or zero. -/
theorem factor_apply (n : Fin 50000) :
    (W2 m c (Proc.devRef .tc main_v16) : FVec Ideal S50000 .f32) (ix1 n) = Spec.dis (eiOf m c) n := by
  have hd := degree_apply m c n
  -- the zero the degree is compared with, and the floor
  have h0 : (W1 m c (Proc.devRef .tc main_v11) : FVec Ideal S50000 .f32) (ix1 n) = (0 : EReal) := by
    rw [zerosCmp_term, spread_apply]; exact Ideal.ofBits_zero_f32
  have ht : (W1 m c (Proc.devRef .tc main_v13) : FVec Ideal S50000 .f32) (ix1 n) = Spec.tiny := by
    rw [floor_term, spread_apply, Spec.tiny]
  -- the bit: degree > 0
  have hp : (W1 m c (Proc.devRef .tc main_v12) : IVec S50000 1) (ix1 n)
      = Ideal.cmp .ogt (Spec.deg (eiOf m c) n) 0 := by
    rw [positive_term, cmpf_ogt_apply, hd, h0]
  -- the inverse square root of max(degree, floor)
  have hr : (W1 m c (Proc.devRef .tc main_v15) : FVec Ideal S50000 .f32) (ix1 n)
      = Ideal.rsqrt (max (Spec.deg (eiOf m c) n) Spec.tiny) := by
    rw [invSqrt_term, hostRsqrt_apply, floored_term, maximumf_apply, hd, ht]
  -- the fallback: the zero scalar spread over the nodes
  have hz : broadcastInDim S50000 ![] Facts₀.bcast_S_S50000 (W1 m c (Proc.devRef .tc main_cst_3) : FVec Ideal S_ .f32) (ix1 n)
      = (0 : EReal) := by
    rw [zeroScalar_term, spread_apply]; exact Ideal.ofBits_zero_f32
  -- the selection on a bit is the conditional of the specification
  rw [factor_term, select_apply, hp, hr, hz]
  rfl

/-- The per-node factor the first pallas_call is entered with. -/
theorem ker_dis (n : Fin 50000) : Spec.rd S50000x1 (Hand.V3 m c main_v17) (ix2 n (0 : Fin 1)) = Spec.dis (eiOf m c) n := by
  show (W3 m c (Proc.devRef .tc main_v17) : FVec Ideal S50000x1 .f32) (ix2 n (0 : Fin 1)) = _
  -- the column's entry (n, 0) is the vector's entry n: the same row-major position
  rw [factorColumn_term, shapeCast_apply _ _ (ix2 n (0 : Fin 1)) (ix1 n)
    (by rw [Shape.rowMajor_val_one, Shape.rowMajor_val_two]; show n.val = n.val * 1 + 0; omega)]
  exact factor_apply m c n

/-! ## The arguments are not written -/

/-- The first pallas_call finds the features and the first weights as launched. -/
theorem V3_arg0 : Hand.V3 m c main_arg0 = m ((c : Thread nD τ).loc main_arg0) :=
  (W3_of m c main_arg0 (by decide)).trans ((W2_of m c main_arg0 (by decide)).trans (W1_of m c main_arg0 (by decide)))
theorem V3_arg3 : Hand.V3 m c main_arg3 = m ((c : Thread nD τ).loc main_arg3) :=
  (W3_of m c main_arg3 (by decide)).trans ((W2_of m c main_arg3 (by decide)).trans (W1_of m c main_arg3 (by decide)))

end Cert.KernelIdeal.Val.HostA

end
-- ==== Proof.Val.KerHostB.lean ====
/-
  The host operations between the pallas_calls, read at an index: a gather of rows at the source words followed by a
  scatter-add at the target words is, at node n, the sum over the edges landing on n of the gathered rows; the
  per-graph node counts; the biases and graph ids reshaped; and which buffers nothing has written since they were made.
-/
import proofs.«409948_j46497315946702_2_alg».proof.Proof.KI.Bounds
import proofs.«409948_j46497315946702_2_alg».proof.Proof.Val.KerArgs
import proofs.«409948_j46497315946702_2_alg».proof.Proof.Val.Spec
import proofs.«409948_j46497315946702_2_alg».proof.Proof.LibScatterGather
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val.HostB

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## Small readings at an index -/

/-- A vector laid out as a one-column matrix reads, at row e, the vector's entry e. -/
theorem column_apply {α : Type} {M : Nat} (h : (⟨1, ![M]⟩ : Shape).BroadcastsInDim ⟨2, ![M, 1]⟩ ![0])
    (x : (⟨1, ![M]⟩ : Shape).Idx → α) (e : Fin M) :
    broadcastInDim ⟨2, ![M, 1]⟩ ![0] h x (ix2 e (0 : Fin 1)) = x (ix1 e) := by
  refine broadcastInDim_apply _ h x _ (ix1 e) fun a => ?_
  match a with
  | ⟨0, _⟩ =>
    show e.val = if M = 1 then 0 else e.val
    split
    · have := e.isLt; omega
    · rfl

/-- A vector reshaped to a one-column matrix reads, at row e, the vector's entry e. -/
theorem toColumn_apply {α : Type} {M : Nat} (x : (⟨1, ![M]⟩ : Shape).Idx → α)
    (h : (⟨1, ![M]⟩ : Shape).ShapeCasts ⟨2, ![M, 1]⟩) (e : Fin M) :
    shapeCast ⟨2, ![M, 1]⟩ x h (ix2 e (0 : Fin 1)) = x (ix1 e) :=
  shapeCast_apply x h _ _ (by
    rw [Shape.rowMajor_val_one, Shape.rowMajor_val_two]
    show e.val = e.val * 1 + 0
    omega)

/-- The wrap of a gather's word: a negative word has 50000 added. -/
theorem wrap_word (v : BitVec 32) :
    Scalar.select (IntOp.cmpi .slt v 0#32) (IntOp.addi v 50000#32) v = (if v.slt 0#32 then v + 50000#32 else v) := by
  unfold Scalar.select IntOp.cmpi IntOp.addi
  cases h : v.slt 0#32
  · simp
  · simp

/-! ## The stretch between two pallas_calls as one function of a table and the edge words -/

/-- Rows of the table `T` gathered at the wrapped source words `s`, then added into zeros at the target words `d`. -/
abbrev aggTerm (T : FVec Ideal S50000x128 .f32) (s d : IVec S850000 32) : FVec Ideal S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 d)
    (Host.gather gather_S50000x128_S850000x1_S850000x128_1_0_n_n_0_1_1128 T
      (broadcastInDim S850000x1 ![0] bcast_S850000_S850000x1_0
        (select (cmpi .slt s (broadcastInDim S850000 ![] bcast_S_S850000 (constantI S_ 32 0#32)))
          (addi s (broadcastInDim S850000 ![] bcast_S_S850000 (constantI S_ 32 50000#32))) s)))

/-- The word the gather reads for edge e: the source word, wrapped. -/
theorem wrapped_apply (s : IVec S850000 32) (e : Fin 850000) :
    (select (cmpi .slt s (broadcastInDim S850000 ![] bcast_S_S850000 (constantI S_ 32 0#32)))
        (addi s (broadcastInDim S850000 ![] bcast_S_S850000 (constantI S_ 32 50000#32))) s) (ix1 e)
      = (if (s (ix1 e)).slt 0#32 then s (ix1 e) + 50000#32 else s (ix1 e)) := by
  rw [select_apply]
  show Scalar.select (IntOp.cmpi .slt (s (ix1 e)) (broadcastInDim S850000 ![] bcast_S_S850000 (constantI S_ 32 0#32) (ix1 e)))
      (IntOp.addi (s (ix1 e)) (broadcastInDim S850000 ![] bcast_S_S850000 (constantI S_ 32 50000#32) (ix1 e))) (s (ix1 e)) = _
  rw [broadcastInDim_scalar_apply, broadcastInDim_scalar_apply, constantI_apply, constantI_apply]
  exact wrap_word _

/-- At node n and column k: zero plus, over the edges whose target word read signed is n, the table's entry at the row
    the wrapped and clamped source word names. -/
theorem aggTerm_apply (T : FVec Ideal S50000x128 .f32) (s d : IVec S850000 32) (n : Fin 50000) (k : Fin 128) :
    aggTerm T s d (ix2 n k)
      = 0 + ∑ e ∈ Finset.univ.filter (fun e : Fin 850000 => (d (ix1 e)).toInt = (n.val : Int)),
          T (ix2 (Spec.rowOf (s (ix1 e))) k) := by
  show Host.scatterAdd scatter_S50000x128_S850000x1_S850000x128_1_0_0_1 _ _ _ (ix2 n k) = _
  rw [LibSG.scatterAdd_row_apply scatter_S50000x128_S850000x1_S850000x128_1_0_0_1 rfl rfl rfl rfl]
  refine congrArg₂ (· + ·) ?_ ?_
  · rw [broadcastInDim_scalar_apply, constant_apply]
    exact Ideal.ofBits_zero_f32
  · refine Finset.sum_congr (Finset.filter_congr fun e _ => ?_) fun e _ => ?_
    · rw [column_apply]
    · rw [LibSG.gather_row_apply (by decide) gather_S50000x128_S850000x1_S850000x128_1_0_n_n_0_1_1128 rfl rfl rfl rfl rfl rfl rfl]
      refine congrArg (fun r : Fin 50000 => T (ix2 r k)) (Fin.ext ?_)
      show min _ 49999 = min _ 49999
      rw [column_apply, wrapped_apply]

/-- The same with the two families of words named by the edge list: the sum runs over the edges landing on n, and the
    row is the one the edge's source word names. -/
theorem aggTerm_apply_of (T : FVec Ideal S50000x128 .f32) (s d : IVec S850000 32) (ei : Spec.EdgeWords)
    (hs : ∀ e : Fin 850000, s (ix1 e) = Spec.srcW ei e) (hd : ∀ e : Fin 850000, d (ix1 e) = Spec.dstW ei e)
    (n : Fin 50000) (k : Fin 128) :
    aggTerm T s d (ix2 n k) = 0 + ∑ e ∈ Spec.into ei n, T (ix2 (Spec.rowOf (Spec.srcW ei e)) k) := by
  rw [aggTerm_apply]
  refine congrArg (fun z : EReal => 0 + z) (Finset.sum_congr (Finset.filter_congr fun e _ => ?_) fun e _ => ?_)
  · rw [hd e]
  · rw [hs e]

/-! ## The per-graph node counts as one function of the graph ids -/

/-- Ones added into 512 zeros at the graph ids. -/
abbrev cntTerm (bt : IVec S50000 32) : FVec Ideal S512 .f32 :=
  Host.scatterAdd scatter_S512_S50000x1_S50000_n_0_0_1
    (broadcastInDim S512 ![] bcast_S_S512 (constant (F := Ideal) S_ .f32 0x00000000#32))
    (broadcastInDim S50000x1 ![0] bcast_S50000_S50000x1_0 bt)
    (broadcastInDim S50000 ![] bcast_S_S50000 (constant (F := Ideal) S_ .f32 0x3F800000#32))

/-- At graph g: zero plus one for every node whose graph id read signed is g. -/
theorem cntTerm_apply (bt : IVec S50000 32) (g : Fin 512) :
    cntTerm bt (ix1 g)
      = 0 + ∑ _n ∈ Finset.univ.filter (fun n : Fin 50000 => (bt (ix1 n)).toInt = (g.val : Int)), (1 : EReal) := by
  show Host.scatterAdd scatter_S512_S50000x1_S50000_n_0_0_1 _ _ _ (ix1 g) = _
  rw [LibSG.scatterAdd_vec_apply scatter_S512_S50000x1_S50000_n_0_0_1 rfl rfl rfl rfl]
  refine congrArg₂ (· + ·) ?_ ?_
  · rw [broadcastInDim_scalar_apply, constant_apply]
    exact Ideal.ofBits_zero_f32
  · refine Finset.sum_congr (Finset.filter_congr fun e _ => ?_) fun e _ => ?_
    · rw [column_apply]
    · rw [broadcastInDim_scalar_apply, constant_apply]
      exact Ideal.ofBits_one_f32

/-! ## What the segments leave alone -/

/-- A buffer the three opening host stretches do not write enters the first pallas_call as launched. -/
theorem W3_launch (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans ((W2_of m c r h1).trans (W1_of m c r h0))
/-- … and, being no window's array of the first pallas_call, leaves it as launched. -/
theorem W4_launch (r : Ref sig .tc) (h0 : r ∉ hostOps0_W) (h1 : r ∉ hostOps0_1_W) (h2 : r ∉ hostOps0_2_W)
    (e0 : ∀ w, Pipeline.arrRef spec0 w ≠ r) : W4 m c (Proc.devRef .tc r) = m ((c : Thread nD τ).loc r) :=
  (W4_of_ne m c r e0).trans (W3_launch m c r h0 h1 h2)
/-- … and, not written by the stretch after it, enters the second pallas_call as launched. -/
theorem W5_launch (r : Ref sig .tc) (h0 : r ∉ hostOps0_W) (h1 : r ∉ hostOps0_1_W) (h2 : r ∉ hostOps0_2_W)
    (e0 : ∀ w, Pipeline.arrRef spec0 w ≠ r) (h4 : r ∉ hostOps1_W) : W5 m c (Proc.devRef .tc r) = m ((c : Thread nD τ).loc r) :=
  (W5_of m c r h4).trans (W4_launch m c r h0 h1 h2 e0)
/-- … and so on through the second pallas_call, -/
theorem W6_launch (r : Ref sig .tc) (h0 : r ∉ hostOps0_W) (h1 : r ∉ hostOps0_1_W) (h2 : r ∉ hostOps0_2_W)
    (e0 : ∀ w, Pipeline.arrRef spec0 w ≠ r) (h4 : r ∉ hostOps1_W) (e1 : ∀ w, Pipeline.arrRef spec1 w ≠ r) :
    W6 m c (Proc.devRef .tc r) = m ((c : Thread nD τ).loc r) :=
  (W6_of_ne m c r e1).trans (W5_launch m c r h0 h1 h2 e0 h4)
/-- the stretch after it, -/
theorem W7_launch (r : Ref sig .tc) (h0 : r ∉ hostOps0_W) (h1 : r ∉ hostOps0_1_W) (h2 : r ∉ hostOps0_2_W)
    (e0 : ∀ w, Pipeline.arrRef spec0 w ≠ r) (h4 : r ∉ hostOps1_W) (e1 : ∀ w, Pipeline.arrRef spec1 w ≠ r)
    (h6 : r ∉ hostOps2_W) : W7 m c (Proc.devRef .tc r) = m ((c : Thread nD τ).loc r) :=
  (W7_of m c r h6).trans (W6_launch m c r h0 h1 h2 e0 h4 e1)
/-- the third pallas_call, -/
theorem W8_launch (r : Ref sig .tc) (h0 : r ∉ hostOps0_W) (h1 : r ∉ hostOps0_1_W) (h2 : r ∉ hostOps0_2_W)
    (e0 : ∀ w, Pipeline.arrRef spec0 w ≠ r) (h4 : r ∉ hostOps1_W) (e1 : ∀ w, Pipeline.arrRef spec1 w ≠ r)
    (h6 : r ∉ hostOps2_W) (e2 : ∀ w, Pipeline.arrRef spec2 w ≠ r) : W8 m c (Proc.devRef .tc r) = m ((c : Thread nD τ).loc r) :=
  (W8_of_ne m c r e2).trans (W7_launch m c r h0 h1 h2 e0 h4 e1 h6)
/-- and the last stretch: it enters the fourth pallas_call as launched. -/
theorem W9_launch (r : Ref sig .tc) (h0 : r ∉ hostOps0_W) (h1 : r ∉ hostOps0_1_W) (h2 : r ∉ hostOps0_2_W)
    (e0 : ∀ w, Pipeline.arrRef spec0 w ≠ r) (h4 : r ∉ hostOps1_W) (e1 : ∀ w, Pipeline.arrRef spec1 w ≠ r)
    (h6 : r ∉ hostOps2_W) (e2 : ∀ w, Pipeline.arrRef spec2 w ≠ r) (h8 : r ∉ hostOps3_W) :
    W9 m c (Proc.devRef .tc r) = m ((c : Thread nD τ).loc r) :=
  (W9_of m c r h8).trans (W8_launch m c r h0 h1 h2 e0 h4 e1 h6 e2)

/-- The source and target words are still what the first stretch made them (nothing writes them afterwards). -/
theorem W4_v3 : W4 m c (Proc.devRef .tc main_v3) = W1 m c (Proc.devRef .tc main_v3) :=
  (W4_of_ne m c main_v3 (by decide)).trans ((W3_of m c main_v3 (by decide)).trans (W2_of m c main_v3 (by decide)))
theorem W4_v6 : W4 m c (Proc.devRef .tc main_v6) = W1 m c (Proc.devRef .tc main_v6) :=
  (W4_of_ne m c main_v6 (by decide)).trans ((W3_of m c main_v6 (by decide)).trans (W2_of m c main_v6 (by decide)))
theorem W6_v3 : W6 m c (Proc.devRef .tc main_v3) = W1 m c (Proc.devRef .tc main_v3) :=
  (W6_of_ne m c main_v3 (by decide)).trans ((W5_of m c main_v3 (by decide)).trans (W4_v3 m c))
theorem W6_v6 : W6 m c (Proc.devRef .tc main_v6) = W1 m c (Proc.devRef .tc main_v6) :=
  (W6_of_ne m c main_v6 (by decide)).trans ((W5_of m c main_v6 (by decide)).trans (W4_v6 m c))

/-! ## The two aggregations -/

/-- What the second pallas_call finds as its first operand: the stretch's composed term over the first call's output
    and the edge words as they stand at the first call's exit. -/
theorem V5_v28_eq : (V5 m c main_v28 : S50000x128.Idx → EReal)
    = aggTerm (W4 m c (Proc.devRef .tc main_v18)) (W4 m c (Proc.devRef .tc main_v3)) (W4 m c (Proc.devRef .tc main_v6)) := by
  show StableHlo.after hostOps1 (W4 m c) (Proc.devRef .tc main_v28) = _
  after_results

/-- Gather then scatter-add, after the first pallas_call: at node n, the sum over the edges landing on n of the
    first call's output row at the edge's source. `hs` / `hd`: the source and target words read at an edge. -/
theorem ker_agg1 (hs : ∀ e : Fin 850000, Spec.rdw S850000 (W1 m c (Proc.devRef .tc main_v3)) (ix1 e) = Spec.srcW (eiOf m c) e)
    (hd : ∀ e : Fin 850000, Spec.rdw S850000 (W1 m c (Proc.devRef .tc main_v6)) (ix1 e) = Spec.dstW (eiOf m c) e)
    (n : Fin 50000) (k : Fin 128) :
    Spec.rd S50000x128 (V5 m c main_v28) (ix2 n k)
      = 0 + ∑ e ∈ Spec.into (eiOf m c) n, Spec.rd S50000x128 (W4 m c (Proc.devRef .tc main_v18)) (ix2 (Spec.rowOf (Spec.srcW (eiOf m c) e)) k) := by
  refine (congrFun (V5_v28_eq m c) (ix2 n k)).trans ?_
  refine aggTerm_apply_of _ _ _ (eiOf m c) (fun e => ?_) (fun e => ?_) n k
  · rw [W4_v3]; exact hs e
  · rw [W4_v6]; exact hd e

/-- What the third pallas_call finds as its first operand: the same composed term over the second call's output. -/
theorem V7_v40_eq : (V7 m c main_v40 : S50000x128.Idx → EReal)
    = aggTerm (W6 m c (Proc.devRef .tc main_v30)) (W6 m c (Proc.devRef .tc main_v3)) (W6 m c (Proc.devRef .tc main_v6)) := by
  show StableHlo.after hostOps2 (W6 m c) (Proc.devRef .tc main_v40) = _
  after_results

/-- The same after the second pallas_call. -/
theorem ker_agg2 (hs : ∀ e : Fin 850000, Spec.rdw S850000 (W1 m c (Proc.devRef .tc main_v3)) (ix1 e) = Spec.srcW (eiOf m c) e)
    (hd : ∀ e : Fin 850000, Spec.rdw S850000 (W1 m c (Proc.devRef .tc main_v6)) (ix1 e) = Spec.dstW (eiOf m c) e)
    (n : Fin 50000) (k : Fin 128) :
    Spec.rd S50000x128 (V7 m c main_v40) (ix2 n k)
      = 0 + ∑ e ∈ Spec.into (eiOf m c) n, Spec.rd S50000x128 (W6 m c (Proc.devRef .tc main_v30)) (ix2 (Spec.rowOf (Spec.srcW (eiOf m c) e)) k) := by
  refine (congrFun (V7_v40_eq m c) (ix2 n k)).trans ?_
  refine aggTerm_apply_of _ _ _ (eiOf m c) (fun e => ?_) (fun e => ?_) n k
  · rw [W6_v3]; exact hs e
  · rw [W6_v6]; exact hd e

/-! ## The reshaped biases, graph ids and counts -/

/-- The first bias as one row, after the first pallas_call. -/
theorem V5_v29_eq : (V5 m c main_v29 : S1x128.Idx → EReal)
    = shapeCast S1x128 (W4 m c (Proc.devRef .tc main_arg4)) shapeCasts_S128_S1x128 := by
  show StableHlo.after hostOps1 (W4 m c) (Proc.devRef .tc main_v29) = _
  after_results; rfl
theorem ker_b1r (k : Fin 128) : Spec.rd S1x128 (V5 m c main_v29) (ix2 (0 : Fin 1) k) = Spec.rd S128 (m ((c : Thread nD τ).loc main_arg4)) (ix1 k) := by
  refine (congrFun (V5_v29_eq m c) (ix2 (0 : Fin 1) k)).trans ?_
  rw [shapeCast_a_1a_apply, W4_launch m c main_arg4 (by decide) (by decide) (by decide) (by decide)]

/-- The second bias as one row, after the second pallas_call. -/
theorem V7_v46_eq : (V7 m c main_v46 : S1x128.Idx → EReal)
    = shapeCast S1x128 (W6 m c (Proc.devRef .tc main_arg6)) shapeCasts_S128_S1x128 := by
  show StableHlo.after hostOps2 (W6 m c) (Proc.devRef .tc main_v46) = _
  after_results; rfl
theorem ker_b2r (k : Fin 128) : Spec.rd S1x128 (V7 m c main_v46) (ix2 (0 : Fin 1) k) = Spec.rd S128 (m ((c : Thread nD τ).loc main_arg6)) (ix1 k) := by
  refine (congrFun (V7_v46_eq m c) (ix2 (0 : Fin 1) k)).trans ?_
  rw [shapeCast_a_1a_apply, W6_launch m c main_arg6 (by decide) (by decide) (by decide) (by decide) (by decide) (by decide)]

/-- The graph ids as one column. -/
theorem V7_v47_eq : (V7 m c main_v47 : S50000x1.Idx → BitVec 32)
    = shapeCast S50000x1 (W6 m c (Proc.devRef .tc main_arg2)) shapeCasts_S50000_S50000x1 := by
  show StableHlo.after hostOps2 (W6 m c) (Proc.devRef .tc main_v47) = _
  after_results; rfl
theorem ker_bt (n : Fin 50000) : Spec.rdw S50000x1 (V7 m c main_v47) (ix2 n (0 : Fin 1)) = btOf m c (ix1 n) := by
  refine (congrFun (V7_v47_eq m c) (ix2 n (0 : Fin 1))).trans ?_
  rw [toColumn_apply, W6_launch m c main_arg2 (by decide) (by decide) (by decide) (by decide) (by decide) (by decide)]

/-- The counts as one column: the scatter-add of ones at the graph ids, reshaped. -/
theorem V7_v45_eq : (V7 m c main_v45 : S512x1.Idx → EReal)
    = shapeCast S512x1 (cntTerm (W6 m c (Proc.devRef .tc main_arg2))) shapeCasts_S512_S512x1 := by
  show StableHlo.after hostOps2 (W6 m c) (Proc.devRef .tc main_v45) = _
  after_results; rfl
theorem ker_cnt (g : Fin 512) : Spec.rd S512x1 (V7 m c main_v45) (ix2 g (0 : Fin 1)) = Spec.cnt (btOf m c) g := by
  refine (congrFun (V7_v45_eq m c) (ix2 g (0 : Fin 1))).trans ?_
  rw [toColumn_apply, cntTerm_apply, W6_launch m c main_arg2 (by decide) (by decide) (by decide) (by decide) (by decide) (by decide)]
  rfl

/-- The three head biases as rows, after the third pallas_call. -/
theorem V9_v49_eq : (V9 m c main_v49 : S1x64.Idx → EReal)
    = shapeCast S1x64 (W8 m c (Proc.devRef .tc main_arg8)) shapeCasts_S64_S1x64 := by
  show StableHlo.after hostOps3 (W8 m c) (Proc.devRef .tc main_v49) = _
  after_results; rfl
theorem ker_fc1b (j : Fin 64) : Spec.rd S1x64 (V9 m c main_v49) (ix2 (0 : Fin 1) j) = Spec.rd S64 (m ((c : Thread nD τ).loc main_arg8)) (ix1 j) := by
  refine (congrFun (V9_v49_eq m c) (ix2 (0 : Fin 1) j)).trans ?_
  rw [shapeCast_a_1a_apply, W8_launch m c main_arg8 (by decide) (by decide) (by decide) (by decide) (by decide) (by decide) (by decide) (by decide)]
theorem V9_v50_eq : (V9 m c main_v50 : S1x128.Idx → EReal)
    = shapeCast S1x128 (W8 m c (Proc.devRef .tc main_arg10)) shapeCasts_S128_S1x128 := by
  show StableHlo.after hostOps3 (W8 m c) (Proc.devRef .tc main_v50) = _
  after_results; rfl
theorem ker_fembb (k : Fin 128) : Spec.rd S1x128 (V9 m c main_v50) (ix2 (0 : Fin 1) k) = Spec.rd S128 (m ((c : Thread nD τ).loc main_arg10)) (ix1 k) := by
  refine (congrFun (V9_v50_eq m c) (ix2 (0 : Fin 1) k)).trans ?_
  rw [shapeCast_a_1a_apply, W8_launch m c main_arg10 (by decide) (by decide) (by decide) (by decide) (by decide) (by decide) (by decide) (by decide)]
theorem V9_v51_eq : (V9 m c main_v51 : S1x1.Idx → EReal)
    = shapeCast S1x1 (W8 m c (Proc.devRef .tc main_arg12)) shapeCasts_S1_S1x1 := by
  show StableHlo.after hostOps3 (W8 m c) (Proc.devRef .tc main_v51) = _
  after_results; rfl
theorem ker_foutb : Spec.rd S1x1 (V9 m c main_v51) (ix2 (0 : Fin 1) (0 : Fin 1)) = Spec.rd S1 (m ((c : Thread nD τ).loc main_arg12)) (ix1 (0 : Fin 1)) := by
  refine (congrFun (V9_v51_eq m c) (ix2 (0 : Fin 1) (0 : Fin 1))).trans ?_
  rw [shapeCast_a_1a_apply, W8_launch m c main_arg12 (by decide) (by decide) (by decide) (by decide) (by decide) (by decide) (by decide) (by decide)]

/-! ## What a later pallas_call finds where an earlier item left it -/

/-- The per-node factor is an input window's array of the first and of the second pallas_call, and no host stretch
    after the opening ones writes it. -/
theorem V5_v17 : V5 m c main_v17 = Hand.V3 m c main_v17 :=
  (W5_of m c main_v17 (by decide)).trans (W4_in m c 2 rfl)
theorem V5_arg5 : V5 m c main_arg5 = m ((c : Thread nD τ).loc main_arg5) :=
  W5_launch m c main_arg5 (by decide) (by decide) (by decide) (by decide) (by decide)
theorem V7_v17 : V7 m c main_v17 = Hand.V3 m c main_v17 :=
  (W7_of m c main_v17 (by decide)).trans ((W6_in m c 1 rfl).trans (V5_v17 m c))
/-- The counts are no window's array of the third pallas_call, and the last stretch does not write them. -/
theorem V9_v45 : V9 m c main_v45 = V7 m c main_v45 :=
  (W9_of m c main_v45 (by decide)).trans (W8_of_ne m c main_v45 (by decide))
/-- The pooled sums are the third pallas_call's output window's array. -/
theorem V9_v48 : V9 m c main_v48 = (dat2 (V7 m) c).arrAt 4 cfg2.N :=
  (W9_of m c main_v48 (by decide)).trans (W8_arr m c 4)
theorem V9_arg7 : V9 m c main_arg7 = m ((c : Thread nD τ).loc main_arg7) :=
  W9_launch m c main_arg7 (by decide) (by decide) (by decide) (by decide) (by decide) (by decide) (by decide) (by decide) (by decide)
theorem V9_arg9 : V9 m c main_arg9 = m ((c : Thread nD τ).loc main_arg9) :=
  W9_launch m c main_arg9 (by decide) (by decide) (by decide) (by decide) (by decide) (by decide) (by decide) (by decide) (by decide)
theorem V9_arg11 : V9 m c main_arg11 = m ((c : Thread nD τ).loc main_arg11) :=
  W9_launch m c main_arg11 (by decide) (by decide) (by decide) (by decide) (by decide) (by decide) (by decide) (by decide) (by decide)

end Cert.KernelIdeal.Val.HostB

end
-- ==== Proof.Val.Ker.lean ====
/-
  The kernel program's two results, read at an index, are the kernel form of the specification at the arguments it
  was launched with. Followed segment by segment: the first pallas_call leaves the projected features scaled by the
  per-node factor; the gather and scatter-add sum them over the incoming edges; the second pallas_call applies the
  target-side factor, the bias and relu, projects again and scales again; the third applies the factor, bias and relu
  once more and sums per graph; the fourth takes the mean and applies the dense layers.
-/
import proofs.«409948_j46497315946702_2_alg».proof.Proof.KI.Bounds
import proofs.«409948_j46497315946702_2_alg».proof.Proof.Val.Spec
import proofs.«409948_j46497315946702_2_alg».proof.Proof.Val.KerReg01
import proofs.«409948_j46497315946702_2_alg».proof.Proof.Val.KerReg2
import proofs.«409948_j46497315946702_2_alg».proof.Proof.Val.KerReg3
import proofs.«409948_j46497315946702_2_alg».proof.Proof.Val.KerHostA
import proofs.«409948_j46497315946702_2_alg».proof.Proof.Val.KerHostB
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Cert.KernelIdeal.Hand
open Cert.KernelIdeal.Val.R01 Cert.KernelIdeal.Val.R2 Cert.KernelIdeal.Val.R3 Cert.KernelIdeal.Val.HostA Cert.KernelIdeal.Val.HostB
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The specification's arguments read off the launch memory. -/
def argsOf : Spec.Args :=
  Spec.Args.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The per-node factor, wherever a pallas_call reads it. -/
theorem dis_at (n : Fin 50000) : Spec.rd S50000x1 (Hand.V3 m c main_v17) (ix2 n (0 : Fin 1)) = Spec.dis (argsOf m c).ei n :=
  ker_dis m c n

/-- After the first pallas_call: the projected features scaled by the source-side factor. -/
theorem y1_at (n : Fin 50000) (k : Fin 128) :
    Spec.rd S50000x128 (W4 m c (Proc.devRef .tc main_v18)) (ix2 n k)
      = Spec.proj (argsOf m c).x (argsOf m c).w1 n k * Spec.dis (argsOf m c).ei n := by
  rw [show W4 m c (Proc.devRef .tc main_v18) = (dat0 (Hand.V3 m) c).arrAt 3 cfg0.N from W4_arr m c 3]
  rw [arr0_out (Hand.V3 m) c n k, dis_at m c n, V3_arg0 m c, V3_arg3 m c]
  rfl

/-- The first layer's result, as the second pallas_call forms it from its inputs. -/
theorem h1_at (n : Fin 50000) (j : Fin 128) :
    max (Spec.rd S50000x128 (V5 m c main_v28) (ix2 n j) * Spec.rd S50000x1 (V5 m c main_v17) (ix2 n (0 : Fin 1))
        + Spec.rd S1x128 (V5 m c main_v29) (ix2 (0 : Fin 1) j)) 0
      = Spec.h1K (argsOf m c) n j := by
  rw [ker_agg1 m c (ker_srcW m c) (ker_dstW m c) n j, V5_v17 m c, dis_at m c n, ker_b1r m c j]
  simp only [y1_at m c]
  rfl

/-- After the second pallas_call: the second projection scaled by the source-side factor. -/
theorem y2_at (n : Fin 50000) (k : Fin 128) :
    Spec.rd S50000x128 (W6 m c (Proc.devRef .tc main_v30)) (ix2 n k)
      = Spec.proj (Spec.h1K (argsOf m c)) (argsOf m c).w2 n k * Spec.dis (argsOf m c).ei n := by
  rw [show W6 m c (Proc.devRef .tc main_v30) = (dat1 (V5 m) c).arrAt 4 cfg1.N from W6_arr m c 4]
  rw [arr1_out (V5 m) c n k]
  simp only [h1_at m c]
  rw [V5_v17 m c, dis_at m c n, V5_arg5 m c]
  rfl

/-- The second layer's result, as the third pallas_call forms it from its inputs. -/
theorem h2_at (n : Fin 50000) (k : Fin 128) :
    max (Spec.rd S50000x128 (V7 m c main_v40) (ix2 n k) * Spec.rd S50000x1 (V7 m c main_v17) (ix2 n (0 : Fin 1))
        + Spec.rd S1x128 (V7 m c main_v46) (ix2 (0 : Fin 1) k)) 0
      = Spec.h2K (argsOf m c) n k := by
  rw [ker_agg2 m c (ker_srcW m c) (ker_dstW m c) n k, V7_v17 m c, dis_at m c n, ker_b2r m c k]
  simp only [y2_at m c]
  rfl

/-- After the third pallas_call: the per-graph sums. -/
theorem sums_at (g : Fin 512) (k : Fin 128) :
    Spec.rd S512x128 (V9 m c main_v48) (ix2 g k) = Spec.poolK (argsOf m c).bt (Spec.h2K (argsOf m c)) g k := by
  rw [V9_v48 m c, arr2_out (V7 m) c g k]
  simp only [h2_at m c, ker_bt m c]
  rfl

/-- The head's embedding from the fourth pallas_call's entry contents is the specification's. -/
theorem headEmb_eq : headEmb (V9 m) c = Spec.embK (argsOf m c) := by
  unfold headEmb Spec.embK
  have hS : (fun g k => Spec.rd S512x128 (V9 m c main_v48) (ix2 g k)) = Spec.poolK (argsOf m c).bt (Spec.h2K (argsOf m c)) := by
    funext g k; exact sums_at m c g k
  have hC : (fun g => Spec.rd S512x1 (V9 m c main_v45) (ix2 g (0 : Fin 1))) = Spec.cnt (argsOf m c).bt := by
    funext g; rw [V9_v45 m c]; exact ker_cnt m c g
  have hb1 : (fun j => Spec.rd S1x64 (V9 m c main_v49) (ix2 (0 : Fin 1) j)) = (argsOf m c).fc1b := by
    funext j; exact ker_fc1b m c j
  have hb2 : (fun k => Spec.rd S1x128 (V9 m c main_v50) (ix2 (0 : Fin 1) k)) = (argsOf m c).fembb := by
    funext k; exact ker_fembb m c k
  have hw1 : (fun k j => Spec.rd S128x64 (V9 m c main_arg7) (ix2 k j)) = (argsOf m c).fc1w := by
    rw [V9_arg7 m c]; rfl
  have hw2 : (fun j k => Spec.rd S64x128 (V9 m c main_arg9) (ix2 j k)) = (argsOf m c).fembw := by
    rw [V9_arg9 m c]; rfl
  simp only [Spec.rd] at hS hC hb1 hb2 hw1 hw2 ⊢
  rw [hS, hC, hb1, hb2, hw1, hw2]

/-- The first result, the embedding, at (g, k). -/
theorem kernel_emb (g : Fin 512) (k : Fin 128) :
    Spec.rd S512x128 (W10 m c (Proc.devRef .tc main_v52_0)) (ix2 g k) = Spec.embK (argsOf m c) g k := by
  rw [show W10 m c (Proc.devRef .tc main_v52_0) = (dat3 (V9 m) c).arrAt 8 cfg3.N from W10_arr m c 8]
  rw [arr3_emb (V9 m) c g k, headEmb_eq m c]

/-- The second result at g. -/
theorem kernel_out (g : Fin 512) :
    Spec.rd S512x1 (W10 m c (Proc.devRef .tc main_v52_1)) (ix2 g (0 : Fin 1)) = Spec.outK (argsOf m c) g := by
  rw [show W10 m c (Proc.devRef .tc main_v52_1) = (dat3 (V9 m) c).arrAt 9 cfg3.N from W10_arr m c 9]
  rw [arr3_out (V9 m) c g, headEmb_eq m c]
  unfold Spec.outK
  have hw : (fun k => Spec.rd S128x1 (V9 m c main_arg11) (ix2 k (0 : Fin 1))) = (argsOf m c).foutw := by
    rw [V9_arg11 m c]; rfl
  simp only [Spec.rd] at hw ⊢
  rw [hw, show (V9 m c main_v51) (ix2 (0 : Fin 1) (0 : Fin 1)) = (argsOf m c).foutb from ker_foutb m c]

end Cert.KernelIdeal.Val

end
-- ==== Proof.Val.RefImports.lean ====
/-
  The reference program's run read back (its @main as a list of host operations, each result at the operations'
  composed term) and the read-at-an-index lemmas over that run, gathered in one place for the value modules.
-/
import proofs.«409948_j46497315946702_2_alg».proof.Proof.RefRunP
import proofs.«409948_j46497315946702_2_alg».proof.Proof.RefReadP
-- ==== Proof.Val.Ref1.lean ====
/-
  The reference program up to its second graph-convolution layer, read at an index on the extended reals: the edge
  words with the self loops, the per-node factor, and each layer as the reference form of the specification.
-/
import proofs.«409948_j46497315946702_2_alg».proof.Proof.Val.RefImports
import proofs.«409948_j46497315946702_2_alg».proof.Proof.Val.Spec
import proofs.«409948_j46497315946702_2_alg».proof.Proof.LibScatterGather
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

open scoped BigOperators

namespace Cert.ReferenceIdeal.Val

open Cert.ReferenceIdeal Cert.ReferenceIdeal.Gen Cert.ReferenceIdeal.ReadP
open Idealize.ShloMosaic Idealize.ShloMosaic.TcCoe Idealize.ShloMosaic.ValueIdx Idealize.SL.Sem

variable (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-! ## The edge words

Both word lists are a row of the edge list followed by the node numbers 0 … 49999 (the self loops). An edge below
800000 falls in the first piece of the join and reads the edge list's row; an edge at or past 800000 falls in the
second piece, 800000 less, where the word is the position itself. -/

/-- Row `r` of the edge list, sliced out and flattened, at position `p`, is the list's entry (r, p): here r = 0. -/
theorem row0_at (p : Fin 800000) : val_main_v2 (F := Ideal) x1 (ix1 p) = x1 (ix2 (0 : Fin 2) p) := by
  have hi : idx_main_v1 (idx_main_v2 (ix1 p)) = ix2 (0 : Fin 2) p :=
    funext fun a => Fin.ext (by
      match a with
      | ⟨0, _⟩ => rfl
      | ⟨1, _⟩ => exact Nat.mod_eq_of_lt p.isLt)
  rw [val_main_v2_apply, val_main_v1_apply, hi]

/-- The same for r = 1. -/
theorem row1_at (p : Fin 800000) : val_main_v5 (F := Ideal) x1 (ix1 p) = x1 (ix2 (1 : Fin 2) p) := by
  have hi : idx_main_v4 (idx_main_v5 (ix1 p)) = ix2 (1 : Fin 2) p :=
    funext fun a => Fin.ext (by
      match a with
      | ⟨0, _⟩ => rfl
      | ⟨1, _⟩ => exact Nat.mod_eq_of_lt p.isLt)
  rw [val_main_v5_apply, val_main_v4_apply, hi]

/-- A list of 800000 words joined with the node numbers, at edge `e`: the list's word below 800000, the number
    `e - 800000` from there on. -/
theorem join_loops_at (L : S800000.Idx → BitVec 32) (e : Fin 850000) :
    concatenate S850000 0 [⟨S800000, L⟩, ⟨S50000, val_main_v0 (F := Ideal)⟩] concatenates_S800000_S50000_S850000_d0 (ix1 e)
      = if h : e.val < 800000 then L (ix1 (⟨e.val, h⟩ : Fin 800000)) else BitVec.ofNat 32 (e.val - 800000) := by
  by_cases h : e.val < 800000
  · rw [dif_pos h]
    exact concatenate_pair_apply_left (0 : Fin S850000.rank) L (val_main_v0 (F := Ideal))
      concatenates_S800000_S50000_S850000_d0 (ix1 e) rfl (ix1 (⟨e.val, h⟩ : Fin 800000))
      (fun b => by match b with | ⟨0, _⟩ => rfl)
  · rw [dif_neg h]
    have hlt : e.val - 800000 < 50000 := by have := e.isLt; omega
    refine (concatenate_pair_apply_right (0 : Fin S850000.rank) L (val_main_v0 (F := Ideal))
      concatenates_S800000_S50000_S850000_d0 (ix1 e) rfl rfl (ix1 (⟨e.val - 800000, hlt⟩ : Fin 50000))
      (fun b hb => absurd (Subsingleton.elim (α := Fin 1) _ _) hb) ?_).trans ?_
    · show e.val - 800000 + 800000 = e.val
      omega
    · rfl

theorem ref_srcW (e : Fin 850000) : val_main_v3 (F := Ideal) x1 (ix1 e) = Spec.srcW x1 e := by
  unfold val_main_v3 Spec.srcW
  rw [join_loops_at]
  by_cases h : e.val < 800000
  · rw [dif_pos h, dif_pos h, row0_at]
  · rw [dif_neg h, dif_neg h]
theorem ref_dstW (e : Fin 850000) : val_main_v6 (F := Ideal) x1 (ix1 e) = Spec.dstW x1 e := by
  unfold val_main_v6 Spec.dstW
  rw [join_loops_at]
  by_cases h : e.val < 800000
  · rw [dif_pos h, dif_pos h, row1_at]
  · rw [dif_neg h, dif_neg h]

/-! ## The word a gather reads with

A gather's start word has 50000 added when it is negative (the program's compare with zero, add, select); the gather
itself then reads the word signed and clamps it into the table. The two together are the specification's row. -/

/-- A word as the gathers use it: 50000 added when it is negative. -/
def wrapW (v : BitVec 32) : BitVec 32 := if v.slt 0#32 then v + 50000#32 else v

/-- The program's compare-add-select on a word is that wrap. -/
theorem select_wrap (v : BitVec 32) :
    Scalar.select (IntOp.cmpi .slt v 0#32) (IntOp.addi v 50000#32) v = wrapW v := by
  by_cases h : v.slt 0#32 = true
  · simp [Scalar.select, IntOp.cmpi, IntOp.addi, wrapW, h]
  · simp [Scalar.select, IntOp.cmpi, IntOp.addi, wrapW, h]

/-- A wrapped word read signed and clamped into the 50000 rows is the specification's row of the word. -/
theorem clamp_wrap (w v : BitVec 32) (hw : w = wrapW v) (h : min w.toInt.toNat (50000 - 1) < 50000) :
    (⟨min w.toInt.toNat (50000 - 1), h⟩ : Fin 50000) = Spec.rowOf v := by
  subst hw
  exact Fin.ext rfl

/-- A gather of single entries of a vector of N entries at M start words, read at position `e`: the vector's entry at
    the e-th word read signed and clamped into the vector. -/
theorem gather_vec_apply {α : Type} {N M w : Nat} (hN : 0 < N) (d : GatherDims ⟨1, ![N]⟩ ⟨2, ![M, 1]⟩ ⟨1, ![M]⟩)
    (hcd : d.collapsedSliceDims = [0]) (hob : d.operandBatchingDims = []) (hsm : d.startIndexMap = [0])
    (hiv : d.indexVectorDim = 1) (x : (⟨1, ![N]⟩ : Shape).Idx → α) (idx : IVec ⟨2, ![M, 1]⟩ w) (e : Fin M) :
    Host.gather d x idx (ix1 e) = x (ix1 ⟨min (idx (ix2 e (0 : Fin 1))).toInt.toNat (N - 1), by omega⟩) := by
  have e1 : (Shape.Idx.ofFin e : (⟨1, ![M]⟩ : Shape).Idx) = ix1 e :=
    funext fun a => by match a with | ⟨0, _⟩ => exact Fin.ext rfl
  have e2 : StableHlo.Predicate.ixP e = ix2 e (0 : Fin 1) :=
    funext fun a => by match a with | ⟨0, _⟩ => rfl | ⟨1, _⟩ => rfl
  have h := StableHlo.Predicate.gather_take d hcd hob hsm hiv x idx e hN
  rw [e1] at h
  rw [h]
  congr 1
  funext a
  match a with
  | ⟨0, _⟩ => exact Fin.ext (congrArg (fun j => min (idx j).toInt.toNat (N - 1)) e2)

/-! ## Columns of start words, and arrays constant along an axis -/

/-- A vector of 850000 entries stood up as a column: entry (e, 0) of the column is entry e of the vector. -/
theorem col_at {α : Type} (y : S850000.Idx → α) (e : Fin 850000) :
    broadcastInDim S850000x1 ![0] bcast_S850000_S850000x1_0 y (ix2 e (0 : Fin 1)) = y (ix1 e) :=
  broadcastInDim_apply _ bcast_S850000_S850000x1_0 y (ix2 e (0 : Fin 1)) (ix1 e) (fun a => match a with
    | ⟨0, _⟩ => by show e.val = if (850000 : Nat) = 1 then 0 else e.val; rw [if_neg (by decide)])

/-- That column repeated along 128 features: entry (e, k) is entry e of the vector, whatever k. -/
theorem along_rows_at {α : Type} (y : S850000.Idx → α) (e : Fin 850000) (k : Fin 128) :
    broadcastInDim S850000x128 ![0, 1] bcast_S850000x1_S850000x128_0_1
      (broadcastInDim S850000x1 ![0] bcast_S850000_S850000x1_0 y) (ix2 e k) = y (ix1 e) :=
  (broadcastInDim_apply _ bcast_S850000x1_S850000x128_0_1 _ (ix2 e k) (ix2 e (0 : Fin 1)) (fun a => match a with
    | ⟨0, _⟩ => by show e.val = if (850000 : Nat) = 1 then 0 else e.val; rw [if_neg (by decide)]
    | ⟨1, _⟩ => by show 0 = if (1 : Nat) = 1 then 0 else k.val; rw [if_pos rfl])).trans (col_at y e)

/-- A vector of words wrapped entry by entry (compared with a vector of zeros, a vector of 50000s added, selected) and
    stood up as a column: entry (e, 0) is the wrap of the vector's entry e. -/
theorem wrap_col_at (W Z C : IVec S850000 32) (hZ : ∀ i, Z i = 0#32) (hC : ∀ i, C i = 50000#32) (e : Fin 850000) :
    broadcastInDim S850000x1 ![0] bcast_S850000_S850000x1_0 (select (cmpi .slt W Z) (addi W C) W) (ix2 e (0 : Fin 1))
      = wrapW (W (ix1 e)) := by
  rw [col_at]
  show Scalar.select (IntOp.cmpi .slt (W (ix1 e)) (Z (ix1 e))) (IntOp.addi (W (ix1 e)) (C (ix1 e))) (W (ix1 e)) = _
  rw [hZ, hC, select_wrap]

/-- The target words as a column (unwrapped: a scatter drops a word that is not a node). The three scatters each stand
    the same vector up. -/
theorem dst_col_at (e : Fin 850000) :
    broadcastInDim S850000x1 ![0] bcast_S850000_S850000x1_0 (val_main_v6 (F := Ideal) x1) (ix2 e (0 : Fin 1))
      = Spec.dstW x1 e :=
  (col_at (val_main_v6 (F := Ideal) x1) e).trans (ref_dstW x1 e)

/-! ## The degree and the per-node factor -/

/-- The column of target words the degree's scatter uses is that column. -/
theorem dst_col_deg_at (e : Fin 850000) : val_main_v9 (F := Ideal) x1 (ix2 e (0 : Fin 1)) = Spec.dstW x1 e :=
  dst_col_at x1 e

/-- Ones scattered into zeros at the target words: node n receives one for every edge landing on it. -/
theorem deg_at (n : Fin 50000) : val_main_v10 (F := Ideal) x1 (ix1 n) = Spec.deg x1 n := by
  have h8 : val_main_v8 (F := Ideal) (ix1 n) = (0 : EReal) := by
    rw [val_main_v8_apply, val_main_cst_0_apply]; exact Ideal.ofBits_zero_f32
  have h7 : ∀ e : Fin 850000, val_main_v7 (F := Ideal) (ix1 e) = (1 : EReal) := fun e => by
    rw [val_main_v7_apply, val_main_cst_apply]; exact Ideal.ofBits_one_f32
  unfold val_main_v10 Spec.deg Spec.into
  rw [Cert.LibSG.scatterAdd_vec_apply scatter_S50000_S850000x1_S850000_n_0_0_1 rfl rfl rfl rfl, h8]
  simp only [dst_col_deg_at, h7]

/-- The per-node factor. -/
theorem ref_dis (n : Fin 50000) : val_main_v16 (F := Ideal) x1 (ix1 n) = Spec.dis x1 n := by
  have h11 : val_main_v11 (F := Ideal) (ix1 n) = (0 : EReal) := by
    rw [val_main_v11_apply, val_main_cst_1_apply]; exact Ideal.ofBits_zero_f32
  have h13 : val_main_v13 (F := Ideal) (ix1 n) = Spec.tiny := by
    rw [val_main_v13_apply, val_main_cst_2_apply]; rfl
  have hz : val_main_call0_v1 (F := Ideal) (ix1 n) = (0 : EReal) := by
    rw [val_main_call0_v1_apply, val_main_call0_v0_apply, val_main_cst_3_apply]; exact Ideal.ofBits_zero_f32
  rw [val_main_v16_apply, val_main_v12_apply, val_main_v15_apply, val_main_v14_apply, deg_at, h11, h13, hz]
  simp only [Scalar.select, Ideal.cmpf_def, Ideal.hostUnary_rsqrt_def, Ideal.maximumf_def, Spec.dis,
    BitVec.ofNat_eq_ofNat]

/-! ## The wrapped words as columns -/

/-- The source words wrapped, as the column the factor gather reads. -/
theorem src_wrap_factor_at (e : Fin 850000) :
    val_main_v22 (F := Ideal) x1 (ix2 e (0 : Fin 1)) = wrapW (Spec.srcW x1 e) :=
  (wrap_col_at (val_main_v3 (F := Ideal) x1) (val_main_v17 (F := Ideal)) (val_main_v19 (F := Ideal))
    (fun i => by rw [val_main_v17_apply, val_main_c_apply]) (fun i => by rw [val_main_v19_apply, val_main_c_4_apply]) e).trans
    (congrArg wrapW (ref_srcW x1 e))

/-- The target words wrapped, as the column the factor gather reads. -/
theorem dst_wrap_factor_at (e : Fin 850000) :
    val_main_v29 (F := Ideal) x1 (ix2 e (0 : Fin 1)) = wrapW (Spec.dstW x1 e) :=
  (wrap_col_at (val_main_v6 (F := Ideal) x1) (val_main_v24 (F := Ideal)) (val_main_v26 (F := Ideal))
    (fun i => by rw [val_main_v24_apply, val_main_c_5_apply]) (fun i => by rw [val_main_v26_apply, val_main_c_6_apply]) e).trans
    (congrArg wrapW (ref_dstW x1 e))

/-- The source words wrapped, as the column the first layer's row gather reads. -/
theorem src_wrap_layer1_at (e : Fin 850000) :
    val_main_v38 (F := Ideal) x1 (ix2 e (0 : Fin 1)) = wrapW (Spec.srcW x1 e) :=
  (wrap_col_at (val_main_v3 (F := Ideal) x1) (val_main_v33 (F := Ideal)) (val_main_v35 (F := Ideal))
    (fun i => by rw [val_main_v33_apply, val_main_c_7_apply]) (fun i => by rw [val_main_v35_apply, val_main_c_8_apply]) e).trans
    (congrArg wrapW (ref_srcW x1 e))

/-- The source words wrapped, as the column the second layer's row gather reads. -/
theorem src_wrap_layer2_at (e : Fin 850000) :
    val_main_v56 (F := Ideal) x1 (ix2 e (0 : Fin 1)) = wrapW (Spec.srcW x1 e) :=
  (wrap_col_at (val_main_v3 (F := Ideal) x1) (val_main_v51 (F := Ideal)) (val_main_v53 (F := Ideal))
    (fun i => by rw [val_main_v51_apply, val_main_c_10_apply]) (fun i => by rw [val_main_v53_apply, val_main_c_11_apply]) e).trans
    (congrArg wrapW (ref_srcW x1 e))

/-! ## The norm of an edge -/

/-- The per-node factors gathered at a column whose entry (e, 0) is a wrapped word: the factor of the word's row. -/
theorem dis_gather_at (I : IVec S850000x1 32) (v : BitVec 32) (e : Fin 850000) (hI : I (ix2 e (0 : Fin 1)) = wrapW v) :
    Host.gather gather_S50000_S850000x1_S850000_n_0_n_n_0_1_1 (val_main_v16 (F := Ideal) x1) I (ix1 e)
      = Spec.dis x1 (Spec.rowOf v) := by
  rw [gather_vec_apply (by decide) gather_S50000_S850000x1_S850000_n_0_n_n_0_1_1 rfl rfl rfl rfl,
    clamp_wrap _ v hI, ref_dis]

/-- Edge e's norm: the factor at its source row times the factor at its target row. -/
theorem norm_at (e : Fin 850000) :
    val_main_v31 (F := Ideal) x1 (ix1 e)
      = Spec.dis x1 (Spec.rowOf (Spec.srcW x1 e)) * Spec.dis x1 (Spec.rowOf (Spec.dstW x1 e)) := by
  rw [val_main_v31_apply]
  unfold val_main_v23 val_main_v30
  rw [dis_gather_at x1 _ _ e (src_wrap_factor_at x1 e), dis_gather_at x1 _ _ e (dst_wrap_factor_at x1 e)]
  exact Ideal.mulf_def _ _

/-- The norms laid along the 128 features. -/
theorem norm_rows_at (e : Fin 850000) (k : Fin 128) :
    broadcastInDim S850000x128 ![0, 1] bcast_S850000x1_S850000x128_0_1
      (broadcastInDim S850000x1 ![0] bcast_S850000_S850000x1_0 (val_main_v31 (F := Ideal) x1)) (ix2 e k)
      = Spec.dis x1 (Spec.rowOf (Spec.srcW x1 e)) * Spec.dis x1 (Spec.rowOf (Spec.dstW x1 e)) :=
  (along_rows_at (val_main_v31 (F := Ideal) x1) e k).trans (norm_at x1 e)

/-! ## One layer -/

/-- Features times weights at (r, k), for any two arrays in the places of the features and the weights. -/
theorem proj_at (X : FVec Ideal S50000x128 .f32) (W : FVec Ideal S128x128 .f32) (r : Fin 50000) (k : Fin 128) :
    val_main_v32 (F := Ideal) X W (ix2 r k) = Spec.proj (fun n k => X (ix2 n k)) (fun j k => W (ix2 j k)) r k := by
  rw [val_main_v32_apply]
  unfold Spec.proj
  refine Finset.sum_congr rfl fun j _ => ?_
  have hl : lidx_main_v32 (ix2 r k) j = ix2 r j :=
    funext fun a => Fin.ext (by match a with | ⟨0, _⟩ => rfl | ⟨1, _⟩ => rfl)
  have hr : ridx_main_v32 (ix2 r k) j = ix2 j k :=
    funext fun a => Fin.ext (by match a with | ⟨0, _⟩ => rfl | ⟨1, _⟩ => rfl)
  rw [hl, hr]

/-- A bias vector laid along the 50000 nodes: entry (n, k) is the vector's entry k. -/
theorem bias_at (b : FVec Ideal S128 .f32) (n : Fin 50000) (k : Fin 128) :
    val_main_v47 (F := Ideal) b (ix2 n k) = b (ix1 k) := by
  rw [val_main_v47_apply, val_main_v46_apply]
  exact congrArg _ (funext fun a => Fin.ext (by match a with | ⟨0, _⟩ => rfl))

/-- ONE LAYER ON ABSTRACT ARRAYS. P holds the projected features, I the wrapped source words as a column, J the target
    words as a column, Nm each edge's norm along its row, B the bias along the nodes, Z and O zeros. Rows of P are
    gathered at I, scaled by Nm, and scatter-added into Z at J; then the bias is added and the result floored at zero.
    At (n, k) that is the specification's layer in its reference form: the scatter keeps the edges whose target word
    read signed is n, and the gather's clamp of the wrapped source word is the specification's row. -/
theorem layer_at (X : Fin 50000 → Fin 128 → EReal) (W : Fin 128 → Fin 128 → EReal) (b : Fin 128 → EReal)
    (P Z B O : FVec Ideal S50000x128 .f32) (I J : IVec S850000x1 32) (Nm : FVec Ideal S850000x128 .f32)
    (hP : ∀ r k, P (ix2 r k) = Spec.proj X W r k)
    (hI : ∀ e, I (ix2 e (0 : Fin 1)) = wrapW (Spec.srcW x1 e))
    (hJ : ∀ e, J (ix2 e (0 : Fin 1)) = Spec.dstW x1 e)
    (hN : ∀ e k, Nm (ix2 e k) = Spec.dis x1 (Spec.rowOf (Spec.srcW x1 e)) * Spec.dis x1 (Spec.rowOf (Spec.dstW x1 e)))
    (hZ : ∀ i, Z i = (0 : EReal)) (hB : ∀ n k, B (ix2 n k) = b k) (hO : ∀ i, O i = (0 : EReal))
    (n : Fin 50000) (k : Fin 128) :
    maximumf (addf (Host.scatterAdd scatter_S50000x128_S850000x1_S850000x128_1_0_0_1 Z J
        (mulf (Host.gather gather_S50000x128_S850000x1_S850000x128_1_0_n_n_0_1_1128 P I) Nm)) B) O (ix2 n k)
      = Spec.layerR x1 X W b n k := by
  rw [maximumf_apply, addf_apply,
    Cert.LibSG.scatterAdd_row_apply scatter_S50000x128_S850000x1_S850000x128_1_0_0_1 rfl rfl rfl rfl, hZ, hB, hO]
  unfold Spec.layerR Spec.into
  simp only [hJ]
  refine congrArg (fun s => max (0 + s + b k) 0) (Finset.sum_congr rfl fun e _ => ?_)
  rw [mulf_apply,
    Cert.LibSG.gather_row_apply (by decide) gather_S50000x128_S850000x1_S850000x128_1_0_n_n_0_1_1128 rfl rfl rfl rfl rfl rfl rfl,
    clamp_wrap _ _ (hI e), hP, hN]

/-- The first layer. -/
theorem ref_h1 (n : Fin 50000) (k : Fin 128) :
    val_main_v49 (F := Ideal) x0 x1 x3 x4 (ix2 n k)
      = Spec.layerR x1 (fun n k => x0 (ix2 n k)) (fun j k => x3 (ix2 j k)) (fun k => x4 (ix1 k)) n k :=
  layer_at x1 (fun n k => x0 (ix2 n k)) (fun j k => x3 (ix2 j k)) (fun k => x4 (ix1 k))
    (val_main_v32 (F := Ideal) x0 x3) (val_main_v43 (F := Ideal)) (val_main_v47 (F := Ideal) x4) (val_main_call1_v0 (F := Ideal))
    (val_main_v38 (F := Ideal) x1) (val_main_v44 (F := Ideal) x1) (val_main_v41 (F := Ideal) x1)
    (proj_at x0 x3) (src_wrap_layer1_at x1) (dst_col_at x1) (norm_rows_at x1)
    (fun i => by rw [val_main_v43_apply, val_main_cst_9_apply]; exact Ideal.ofBits_zero_f32)
    (bias_at x4)
    (fun i => by rw [val_main_call1_v0_apply, val_main_call1_cst_apply]; exact Ideal.ofBits_zero_f32) n k

/-- The second layer, over the first layer's result. -/
theorem ref_h2 (n : Fin 50000) (k : Fin 128) :
    val_main_v67 (F := Ideal) x0 x1 x3 x4 x5 x6 (ix2 n k)
      = Spec.layerR x1 (fun n k => val_main_v49 (F := Ideal) x0 x1 x3 x4 (ix2 n k)) (fun j k => x5 (ix2 j k)) (fun k => x6 (ix1 k)) n k :=
  layer_at x1 (fun n k => val_main_v49 (F := Ideal) x0 x1 x3 x4 (ix2 n k)) (fun j k => x5 (ix2 j k)) (fun k => x6 (ix1 k))
    (val_main_v50 (F := Ideal) x0 x1 x3 x4 x5) (val_main_v61 (F := Ideal)) (val_main_v65 (F := Ideal) x6) (val_main_call2_v0 (F := Ideal))
    (val_main_v56 (F := Ideal) x1) (val_main_v62 (F := Ideal) x1) (val_main_v59 (F := Ideal) x1)
    (proj_at (val_main_v49 (F := Ideal) x0 x1 x3 x4) x5) (src_wrap_layer2_at x1) (dst_col_at x1) (norm_rows_at x1)
    (fun i => by rw [val_main_v61_apply, val_main_cst_12_apply]; exact Ideal.ofBits_zero_f32)
    (bias_at x6)
    (fun i => by rw [val_main_call2_v0_apply, val_main_call2_cst_apply]; exact Ideal.ofBits_zero_f32) n k

end Cert.ReferenceIdeal.Val

end
-- ==== Proof.Val.Ref2.lean ====
/-
  The reference program from its second layer's result to its two results, read at an index on the extended reals:
  the per-graph counts and sums as scatter-adds, the mean, and the three dense layers.
-/
import proofs.«409948_j46497315946702_2_alg».proof.Proof.Val.RefImports
import proofs.«409948_j46497315946702_2_alg».proof.Proof.Val.Spec
import proofs.«409948_j46497315946702_2_alg».proof.Proof.LibScatterGather
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.Val

open Cert.ReferenceIdeal Cert.ReferenceIdeal.Gen Cert.ReferenceIdeal.ReadP
open Idealize.ShloMosaic Idealize.ShloMosaic.TcCoe Idealize.ShloMosaic.ValueIdx Idealize.SL.Sem

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (x11 : (⟨S128x1, .f32⟩ : BufTy).Contents (Elt Ideal)) (x12 : (⟨S1, .f32⟩ : BufTy).Contents (Elt Ideal))

/-! ## The composed index maps of the layout operations and contractions, at indices given by coordinates -/

/-- Row e of the column of graph ids under the per-graph sums is entry e of the id vector. -/
theorem idx69_ix (e : Fin 50000) : idx_main_v69 (ix2 e (0 : Fin 1)) = ix1 e :=
  funext fun a => Fin.ext (by match a with | ⟨0, _⟩ => rfl)
/-- The same column under the counts. -/
theorem idx73_ix (e : Fin 50000) : idx_main_v73 (ix2 e (0 : Fin 1)) = ix1 e :=
  funext fun a => Fin.ext (by match a with | ⟨0, _⟩ => rfl)
/-- The floored count broadcast along the features reads graph g's entry at (g, k). -/
theorem idx77_78_ix (g : Fin 512) (k : Fin 128) : idx_main_v77 (idx_main_v78 (ix2 g k)) = ix1 g :=
  funext fun a => Fin.ext (by match a with | ⟨0, _⟩ => rfl)
/-- First dense layer, left operand: entry (g, k) of the means for output (g, j) and summand k. -/
theorem lidx80_ix (g : Fin 512) (j : Fin 64) (k : Fin 128) : lidx_main_v80 (ix2 g j) k = ix2 g k :=
  funext fun a => Fin.ext (by match a with | ⟨0, _⟩ => rfl | ⟨1, _⟩ => rfl)
/-- First dense layer, right operand: entry (k, j) of the weights. -/
theorem ridx80_ix (g : Fin 512) (j : Fin 64) (k : Fin 128) : ridx_main_v80 (ix2 g j) k = ix2 k j :=
  funext fun a => Fin.ext (by match a with | ⟨0, _⟩ => rfl | ⟨1, _⟩ => rfl)
/-- First dense layer's bias broadcast over the graphs reads entry j at (g, j). -/
theorem idx81_82_ix (g : Fin 512) (j : Fin 64) : idx_main_v81 (idx_main_v82 (ix2 g j)) = ix1 j :=
  funext fun a => Fin.ext (by match a with | ⟨0, _⟩ => rfl)
/-- Second dense layer, left operand: entry (g, j) of the hidden layer for output (g, k) and summand j. -/
theorem lidx85_ix (g : Fin 512) (k : Fin 128) (j : Fin 64) : lidx_main_v85 (ix2 g k) j = ix2 g j :=
  funext fun a => Fin.ext (by match a with | ⟨0, _⟩ => rfl | ⟨1, _⟩ => rfl)
/-- Second dense layer, right operand: entry (j, k) of the weights. -/
theorem ridx85_ix (g : Fin 512) (k : Fin 128) (j : Fin 64) : ridx_main_v85 (ix2 g k) j = ix2 j k :=
  funext fun a => Fin.ext (by match a with | ⟨0, _⟩ => rfl | ⟨1, _⟩ => rfl)
/-- Second dense layer's bias broadcast over the graphs reads entry k at (g, k). -/
theorem idx86_87_ix (g : Fin 512) (k : Fin 128) : idx_main_v86 (idx_main_v87 (ix2 g k)) = ix1 k :=
  funext fun a => Fin.ext (by match a with | ⟨0, _⟩ => rfl)
/-- Last dense layer, left operand: entry (g, k) of the embedding. -/
theorem lidx90_ix (g : Fin 512) (k : Fin 128) : lidx_main_v90 (ix2 g (0 : Fin 1)) k = ix2 g k :=
  funext fun a => Fin.ext (by match a with | ⟨0, _⟩ => rfl | ⟨1, _⟩ => rfl)
/-- Last dense layer, right operand: entry (k, 0) of the weight column. -/
theorem ridx90_ix (g : Fin 512) (k : Fin 128) : ridx_main_v90 (ix2 g (0 : Fin 1)) k = ix2 k (0 : Fin 1) :=
  funext fun a => Fin.ext (by match a with | ⟨0, _⟩ => rfl | ⟨1, _⟩ => rfl)
/-- Last dense layer's one bias broadcast over the graphs. -/
theorem idx91_92_ix (g : Fin 512) : idx_main_v91 (idx_main_v92 (ix2 g (0 : Fin 1))) = ix1 (0 : Fin 1) :=
  funext fun a => Fin.ext (by match a with | ⟨0, _⟩ => rfl)

/-! ## The counts and the sums: two scatter-adds at the graph ids -/

/-- The number of nodes of each graph. -/
theorem ref_cnt (g : Fin 512) : val_main_v74 (F := Ideal) x2 (ix1 g) = Spec.cnt x2 g := by
  unfold val_main_v74
  rw [LibSG.scatterAdd_vec_apply scatter_S512_S50000x1_S50000_n_0_0_1 rfl rfl rfl rfl]
  simp only [val_main_v72_apply, val_main_cst_15_apply, val_main_v73_apply, val_main_v71_apply, val_main_cst_14_apply,
    idx73_ix, Ideal.ofBits_def, Ideal.ofBits_zero_f32, Ideal.ofBits_one_f32]
  rfl

/-- The per-graph sums of the second layer's result: zero plus the rows of the nodes whose graph id, read signed, is g. -/
theorem ref_sum (g : Fin 512) (k : Fin 128) :
    val_main_v70 (F := Ideal) x0 x1 x2 x3 x4 x5 x6 (ix2 g k) = Spec.poolR x2 (fun n k => val_main_v67 (F := Ideal) x0 x1 x3 x4 x5 x6 (ix2 n k)) g k := by
  unfold val_main_v70
  rw [LibSG.scatterAdd_row_apply scatter_S512x128_S50000x1_S50000x128_1_0_0_1 rfl rfl rfl rfl]
  simp only [val_main_v68_apply, val_main_cst_13_apply, val_main_v69_apply, idx69_ix, Ideal.ofBits_def,
    Ideal.ofBits_zero_f32]
  rfl

/-- The divisor at (g, k): graph g's count floored at one. -/
theorem ref_cnt_floor (g : Fin 512) (k : Fin 128) :
    val_main_v78 (F := Ideal) x2 (ix2 g k) = max (Spec.cnt x2 g) 1 := by
  rw [val_main_v78_apply, val_main_v77_apply, idx77_78_ix, val_main_v76_apply, ref_cnt, val_main_v75_apply,
    val_main_cst_16_apply, Ideal.ofBits_def, Ideal.ofBits_one_f32]
  rfl

/-- The per-graph mean. -/
theorem ref_mean (g : Fin 512) (k : Fin 128) :
    val_main_v79 (F := Ideal) x0 x1 x2 x3 x4 x5 x6 (ix2 g k) = Spec.mean (Spec.poolR x2 (fun n k => val_main_v67 (F := Ideal) x0 x1 x3 x4 x5 x6 (ix2 n k))) (Spec.cnt x2) g k := by
  rw [val_main_v79_apply, ref_sum, ref_cnt_floor]
  rfl

/-! ## The three dense layers -/

/-- The hidden layer: the means against the first weights, plus the bias, floored at zero. -/
theorem ref_hid (g : Fin 512) (j : Fin 64) :
    val_main_v84 (F := Ideal) x0 x1 x2 x3 x4 x5 x6 x7 x8 (ix2 g j) = Spec.hid (Spec.mean (Spec.poolR x2 (fun n k => val_main_v67 (F := Ideal) x0 x1 x3 x4 x5 x6 (ix2 n k))) (Spec.cnt x2)) (fun k j => x7 (ix2 k j)) (fun j => x8 (ix1 j)) g j := by
  rw [val_main_v84_apply, val_main_v83_apply, val_main_v80_apply, val_main_v82_apply, val_main_v81_apply, idx81_82_ix,
    val_main_call3_v0_apply, val_main_call3_cst_apply]
  have hsum : ∑ k : Fin 128, val_main_v79 (F := Ideal) x0 x1 x2 x3 x4 x5 x6 (lidx_main_v80 (ix2 g j) k) * x7 (ridx_main_v80 (ix2 g j) k)
      = ∑ k : Fin 128, (Spec.mean (Spec.poolR x2 (fun n k => val_main_v67 (F := Ideal) x0 x1 x3 x4 x5 x6 (ix2 n k))) (Spec.cnt x2)) g k * x7 (ix2 k j) :=
    Finset.sum_congr rfl fun k _ => by rw [lidx80_ix, ridx80_ix, ref_mean]
  rw [hsum, Ideal.ofBits_def, Ideal.ofBits_zero_f32]
  rfl

/-- The embedding, over the second layer's result. -/
theorem ref_emb (g : Fin 512) (k : Fin 128) :
    val_main_v89 (F := Ideal) x0 x1 x2 x3 x4 x5 x6 x7 x8 x9 x10 (ix2 g k)
      = Spec.emb (Spec.hid (Spec.mean (Spec.poolR x2 (fun n k => val_main_v67 (F := Ideal) x0 x1 x3 x4 x5 x6 (ix2 n k))) (Spec.cnt x2))
            (fun k j => x7 (ix2 k j)) (fun j => x8 (ix1 j))) (fun j k => x9 (ix2 j k)) (fun k => x10 (ix1 k)) g k := by
  rw [val_main_v89_apply, val_main_v88_apply, val_main_v85_apply, val_main_v87_apply, val_main_v86_apply, idx86_87_ix,
    val_main_call4_v0_apply, val_main_call4_cst_apply]
  have hsum : ∑ j : Fin 64, val_main_v84 (F := Ideal) x0 x1 x2 x3 x4 x5 x6 x7 x8 (lidx_main_v85 (ix2 g k) j) * x9 (ridx_main_v85 (ix2 g k) j)
      = ∑ j : Fin 64, (Spec.hid (Spec.mean (Spec.poolR x2 (fun n k => val_main_v67 (F := Ideal) x0 x1 x3 x4 x5 x6 (ix2 n k))) (Spec.cnt x2)) (fun k j => x7 (ix2 k j)) (fun j => x8 (ix1 j))) g j * x9 (ix2 j k) :=
    Finset.sum_congr rfl fun j _ => by rw [lidx85_ix, ridx85_ix, ref_hid]
  rw [hsum, Ideal.ofBits_def, Ideal.ofBits_zero_f32]
  rfl
/-- The last layer, over the embedding. -/
theorem ref_out (g : Fin 512) :
    val_main_v93 (F := Ideal) x0 x1 x2 x3 x4 x5 x6 x7 x8 x9 x10 x11 x12 (ix2 g (0 : Fin 1))
      = Spec.out (fun g k => val_main_v89 (F := Ideal) x0 x1 x2 x3 x4 x5 x6 x7 x8 x9 x10 (ix2 g k))
          (fun k => x11 (ix2 k (0 : Fin 1))) (x12 (ix1 (0 : Fin 1))) g := by
  rw [val_main_v93_apply, val_main_v90_apply, val_main_v92_apply, val_main_v91_apply, idx91_92_ix]
  have hsum : ∑ k : Fin 128, val_main_v89 (F := Ideal) x0 x1 x2 x3 x4 x5 x6 x7 x8 x9 x10 (lidx_main_v90 (ix2 g (0 : Fin 1)) k) * x11 (ridx_main_v90 (ix2 g (0 : Fin 1)) k)
      = ∑ k : Fin 128, val_main_v89 (F := Ideal) x0 x1 x2 x3 x4 x5 x6 x7 x8 x9 x10 (ix2 g k) * x11 (ix2 k (0 : Fin 1)) :=
    Finset.sum_congr rfl fun k _ => by rw [lidx90_ix, ridx90_ix]
  rw [hsum]
  rfl

end Cert.ReferenceIdeal.Val

end
-- ==== Proof.Val.Ref.lean ====
/-
  The reference program's two results, read at an index, are the reference form of the specification at the
  arguments it was launched with: the two halves of the program chained, the second layer's result and then the
  first layer's result replaced by the specification's.
-/
import proofs.«409948_j46497315946702_2_alg».proof.Proof.Val.Ref1
import proofs.«409948_j46497315946702_2_alg».proof.Proof.Val.Ref2
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.Val

open Cert.ReferenceIdeal Cert.ReferenceIdeal.Gen Cert.ReferenceIdeal.ReadP
open Idealize.ShloMosaic Idealize.ShloMosaic.TcCoe Idealize.ShloMosaic.ValueIdx Idealize.SL.Sem

variable (m : (ℓ : Loc nD τ sig) → Buf (Elt Ideal) ℓ) (c : Dev nD)

/-- The specification's arguments read off the launch memory. -/
def argsOf : Spec.Args :=
  Spec.Args.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- The first layer's result is the specification's. -/
theorem h1_spec : (fun n k => val_main_v49 (F := Ideal) (m ((c.tc : Thread nD τ).loc main_arg0)) (m ((c.tc : Thread nD τ).loc main_arg1)) (m ((c.tc : Thread nD τ).loc main_arg3)) (m ((c.tc : Thread nD τ).loc main_arg4)) (ix2 n k)) = Spec.h1R (argsOf m c) := by
  funext n k
  exact ref_h1 _ _ _ _ n k

/-- The second layer's result is the specification's. -/
theorem h2_spec : (fun n k => val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (ix2 n k)) = Spec.h2R (argsOf m c) := by
  funext n k
  rw [ref_h2, h1_spec]
  rfl

/-- The first result, the embedding, at (g, k). -/
theorem ref_emb_spec (g : Fin 512) (k : Fin 128) :
    Spec.rd S512x128 (Cert.ReferenceIdeal.ValueP.res_main_v89 m c) (ix2 g k) = Spec.embR (argsOf m c) g k := by
  show Cert.ReferenceIdeal.ValueP.res_main_v89 m c (ix2 g k) = _
  rw [val_main_v89_eq, ref_emb, h2_spec]
  rfl

/-- The embedding as a function of its coordinates. -/
theorem emb_spec : (fun g k => val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 g k)) = Spec.embR (argsOf m c) := by
  funext g k
  rw [ref_emb, h2_spec]
  rfl

/-- The second result at g. -/
theorem ref_out_spec (g : Fin 512) :
    Spec.rd S512x1 (Cert.ReferenceIdeal.ValueP.res_main_v93 m c) (ix2 g (0 : Fin 1)) = Spec.outR (argsOf m c) g := by
  show Cert.ReferenceIdeal.ValueP.res_main_v93 m c (ix2 g (0 : Fin 1)) = _
  rw [val_main_v93_eq, ref_out, emb_spec]
  rfl

end Cert.ReferenceIdeal.Val

end
-- ==== Proof.Val.Alg.lean ====
/-
  The two forms of the specification are one function. A layer: on the edges landing on node n the target's gather
  row is n itself, and the factor of node n is a nonnegative real, so it moves across the sum over those edges. The
  pooling: a graph id below 512 is the word g exactly when its signed value is g, and a sum against an indicator is
  the sum over the set it indicates.
-/
import proofs.«409948_j46497315946702_2_alg».proof.Proof.Val.Spec
import proofs.«409948_j46497315946702_2_alg».proof.Proof.LibScatterGather
import Mathlib.Data.EReal.Operations
import Mathlib.Algebra.BigOperators.Group.Finset.Basic

noncomputable section

open scoped BigOperators

namespace Cert.Spec

open Idealize.ShloMosaic Idealize.ShloMosaic.ValueIdx

/-! ## Words read signed -/

/-- A number below 2^31, written as a 32-bit word, reads back as itself when the word is read signed. -/
theorem toInt_ofNat_small (k : Nat) (h : k < 2 ^ 31) : (BitVec.ofNat 32 k).toInt = (k : Int) := by
  have hk : (BitVec.ofNat 32 k).toNat = k := LibSG.toNat_ofNat_lt k (by omega)
  rw [LibSG.toInt_eq_toNat _ (by rw [hk]; exact h), hk]

/-- A word is the word of k < 2^31 exactly when its signed value is k: one way by reading the word of k back, the
    other because a word is determined by its signed value. -/
theorem word_eq_ofNat_iff (v : BitVec 32) (k : Nat) (h : k < 2 ^ 31) :
    v = BitVec.ofNat 32 k ↔ v.toInt = (k : Int) := by
  constructor
  · rintro rfl
    exact toInt_ofNat_small k h
  · intro hv
    exact BitVec.eq_of_toInt_eq (hv.trans (toInt_ofNat_small k h).symm)

/-- A word whose signed value is the node number n gathers row n: it is not negative, so nothing is added to it,
    and n < 50000 already lies inside the table, so the clamp leaves it alone. -/
theorem rowOf_of_toInt_eq (v : BitVec 32) (n : Fin 50000) (hv : v.toInt = (n.val : Int)) : rowOf v = n := by
  apply Fin.ext
  show min (if v.slt 0#32 then v + 50000#32 else v).toInt.toNat 49999 = n.val
  have hs : v.slt 0#32 = false := by
    rw [BitVec.slt_eq_decide, hv]; simp
  have hn : n.val < 50000 := n.isLt
  rw [hs, if_neg (by simp), hv, Int.toNat_natCast]
  omega

/-- On an edge landing on node n the target word's gather row is n. -/
theorem rowOf_dstW_of_mem_into (ei : EdgeWords) (n : Fin 50000) (e : Fin 850000) (he : e ∈ into ei n) :
    rowOf (dstW ei e) = n := by
  have he' : e ∈ Finset.univ.filter (fun e => (dstW ei e).toInt = (n.val : Int)) := he
  exact rowOf_of_toInt_eq _ n (Finset.mem_filter.mp he').2

/-! ## The normalisation factor is a nonnegative real -/

/-- The floor under the inverse square root is the positive real 9223372 · 2^(-63): sign bit clear, exponent field
    87, fraction field 834764. -/
theorem tiny_real : ∃ t : ℝ, 0 < t ∧ tiny = (t : EReal) := by
  refine ⟨9223372 * (2 : ℝ) ^ (-63 : ℤ), by positivity, ?_⟩
  simp [tiny, Ideal.ofBits, Ideal.ieee, -EReal.coe_mul]

/-- The floor is positive. -/
theorem tiny_pos : 0 < tiny := by
  obtain ⟨t, ht, h⟩ := tiny_real
  rw [h]
  exact EReal.coe_pos.mpr ht

/-- The inverse square root of a positive extended real is nonnegative and finite above: zero at ⊤, and the
    inverse of a real square root at a positive real. -/
theorem rsqrt_of_pos (x : EReal) (hx : 0 < x) : 0 ≤ Ideal.rsqrt x ∧ Ideal.rsqrt x ≠ ⊤ := by
  induction x using EReal.rec with
  | bot => exact absurd hx (not_lt.mpr bot_le)
  | top =>
    rw [Ideal.rsqrt_top]
    exact ⟨le_refl _, EReal.zero_ne_top⟩
  | coe r =>
    have hr : 0 < r := EReal.coe_pos.mp hx
    rw [Ideal.rsqrt_coe, if_neg (not_lt.mpr hr.le), if_neg hr.ne']
    exact ⟨EReal.coe_nonneg.mpr (inv_nonneg.mpr (Real.sqrt_nonneg r)), EReal.coe_ne_top _⟩

/-- The factor of a node is nonnegative and not ⊤, whatever its degree: where the degree is positive it is the
    inverse square root of something at least the positive floor, and elsewhere it is zero. -/
theorem dis_nonneg_ne_top (ei : EdgeWords) (n : Fin 50000) : 0 ≤ dis ei n ∧ dis ei n ≠ ⊤ := by
  unfold dis
  split_ifs
  · exact rsqrt_of_pos _ (lt_max_of_lt_right tiny_pos)
  · exact ⟨le_refl _, EReal.zero_ne_top⟩

/-! ## A nonnegative finite factor moves across a finite sum -/

/-- Multiplication by d with 0 ≤ d < ⊤ distributes over a finite sum of arbitrary extended reals (the terms may be
    ±∞ and of mixed sign): by induction on the index set, one term at a time. -/
theorem sum_mul_of_nonneg_ne_top {ι : Type*} (d : EReal) (h0 : 0 ≤ d) (ht : d ≠ ⊤) (S : Finset ι) (f : ι → EReal) :
    (∑ e ∈ S, f e) * d = ∑ e ∈ S, f e * d := by
  classical
  induction S using Finset.induction_on with
  | empty => rw [Finset.sum_empty, Finset.sum_empty, zero_mul]
  | insert a S ha ih =>
    rw [Finset.sum_insert ha, Finset.sum_insert ha, EReal.right_distrib_of_nonneg_of_ne_top h0 ht, ih]

/-! ## A layer -/

/-- The sum over the edges landing on n, scaled at the target afterwards, is the sum of the messages each scaled by
    both factors: the target factor enters the sum, every edge's target row is n, and the product is reassociated. -/
theorem scaled_sum_into (ei : EdgeWords) (p : Fin 850000 → EReal) (n : Fin 50000) :
    (0 + ∑ e ∈ into ei n, p e * dis ei (rowOf (srcW ei e))) * dis ei n
      = 0 + ∑ e ∈ into ei n, p e * (dis ei (rowOf (srcW ei e)) * dis ei (rowOf (dstW ei e))) := by
  obtain ⟨h0, ht⟩ := dis_nonneg_ne_top ei n
  rw [zero_add, zero_add, sum_mul_of_nonneg_ne_top _ h0 ht]
  refine Finset.sum_congr rfl fun e he => ?_
  rw [rowOf_dstW_of_mem_into ei n e he, mul_assoc]

/-- The two forms of a layer agree, for any features, weights and bias. -/
theorem layerK_eq_layerR : layerK = layerR := by
  funext ei X W b n k
  unfold layerK layerR
  rw [scaled_sum_into ei (fun e => proj X W (rowOf (srcW ei e)) k) n]

/-! ## The pooling -/

/-- The two forms of the pooling agree: the indicator times a term is the term or zero, the condition "the id is
    the word g" is "the id's signed value is g", and the switched sum is the sum over the filtered set. -/
theorem poolK_eq_poolR : poolK = poolR := by
  funext bt H g k
  unfold poolK poolR
  rw [zero_add, Finset.sum_filter]
  refine Finset.sum_congr rfl fun n _ => ?_
  rw [LibSG.ite_one_zero_mul]
  have hg : g.val < 512 := g.isLt
  exact if_congr (word_eq_ofNat_iff _ g.val (by omega)) rfl rfl

/-! ## The two results -/

/-- The first layer's output in the two forms. -/
theorem h1K_eq_h1R (a : Args) : h1K a = h1R a := by
  unfold h1K h1R
  rw [layerK_eq_layerR]

/-- The second layer's output in the two forms: the same layer law, on the same input. -/
theorem h2K_eq_h2R (a : Args) : h2K a = h2R a := by
  unfold h2K h2R
  rw [layerK_eq_layerR, h1K_eq_h1R]

theorem embK_eq_embR (a : Args) : embK a = embR a := by
  unfold embK embR
  rw [poolK_eq_poolR, h2K_eq_h2R]

theorem outK_eq_outR (a : Args) : outK a = outR a := by
  unfold outK outR
  rw [embK_eq_embR]

end Cert.Spec

end
-- ==== Proof.lean ====
/-
  Two graph-convolution layers, a mean over each graph's nodes and three dense layers, computed by four pallas_calls
  with gathers and scatter-adds on the host between them, against the same network written in jnp.

  The three programs run to the end without a fault and leave their arguments unchanged: the kernel program's run is
  followed segment by segment (host operations, then each pallas_call over its grid), at any float instance, so the
  word-level program and its reading on the extended reals share one argument; the reference is host operations only.

  On the extended reals the two results agree entry by entry. The kernel applies the degree normalisation at the
  nodes — the source-side factor before the sum over incoming edges, the target-side factor after it — where the
  reference scales every edge's message by the product of the two; the factor of a node is a nonnegative real, so it
  moves across the sum, and on an edge landing on node n the target's row is n. The kernel pools by a sum over all
  nodes against the indicator of the graph id, the reference over the graph's nodes. The dense layers are the same.
  No finiteness of the inputs is used.
-/
import proofs.«409948_j46497315946702_2_alg».proof.Defs
import proofs.«409948_j46497315946702_2_alg».proof.Proof.Gen.Kernel
import proofs.«409948_j46497315946702_2_alg».proof.Proof.Gen.KernelIdeal
import proofs.«409948_j46497315946702_2_alg».proof.Proof.Gen.ReferenceIdeal
import proofs.«409948_j46497315946702_2_alg».proof.Proof.Gen.Pre_finite_inputs
import proofs.«409948_j46497315946702_2_alg».proof.Proof.K.Run
import proofs.«409948_j46497315946702_2_alg».proof.Proof.KI.Run
import proofs.«409948_j46497315946702_2_alg».proof.Proof.Val.Ker
import proofs.«409948_j46497315946702_2_alg».proof.Proof.Val.Ref
import proofs.«409948_j46497315946702_2_alg».proof.Proof.Val.Alg
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level program runs and keeps its arguments. -/
theorem frame_k : Cert.frame_Kernel (hKernel := Cert.Kernel.Gen.facts) (hPre_finite_inputs := Cert.Pre_finite_inputs.Gen.facts) :=
  fun m ρ _ => Cert.Kernel.Hand.frame m ρ

/-- The same program read on the extended reals runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and keeps its arguments: its run, the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- The idealized program is the printed one: the ideal pass rewrote nothing. -/
theorem preserves : Cert.preserves_Kernel_KernelIdeal := trivial

/-- From memories that agree on the arguments, the two programs compute one specification's arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Val.argsOf m' c = Cert.KernelIdeal.Val.argsOf m c := by
  obtain ⟨h0, h1, h2, h3, h4, h5, h6, h7, h8, h9, h10, h11, h12⟩ := hag
  unfold Cert.ReferenceIdeal.Val.argsOf Cert.KernelIdeal.Val.argsOf
  rw [h0, h1, h2, h3, h4, h5, h6, h7, h8, h9, h10, h11, h12]

/-- On the extended reals the two programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W10 m c (Proc.devRef .tc Cert.KernelIdeal.main_v52_0),
    fun c => Cert.KernelIdeal.Hand.W10 m c (Proc.devRef .tc Cert.KernelIdeal.main_v52_1), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v52_0 (by decide)),
      h c _ (Cert.KernelIdeal.Hand.mem_uc Cert.KernelIdeal.main_v52_1 (by decide)),
      (h c _ (Cert.KernelIdeal.Hand.mem_uc Cert.KernelIdeal.main_arg0 (by decide))).trans (Cert.KernelIdeal.Hand.W10_main_arg0 m c),
      (h c _ (Cert.KernelIdeal.Hand.mem_uc Cert.KernelIdeal.main_arg1 (by decide))).trans (Cert.KernelIdeal.Hand.W10_main_arg1 m c),
      (h c _ (Cert.KernelIdeal.Hand.mem_uc Cert.KernelIdeal.main_arg2 (by decide))).trans (Cert.KernelIdeal.Hand.W10_main_arg2 m c),
      (h c _ (Cert.KernelIdeal.Hand.mem_uc Cert.KernelIdeal.main_arg3 (by decide))).trans (Cert.KernelIdeal.Hand.W10_main_arg3 m c),
      (h c _ (Cert.KernelIdeal.Hand.mem_uc Cert.KernelIdeal.main_arg4 (by decide))).trans (Cert.KernelIdeal.Hand.W10_main_arg4 m c),
      (h c _ (Cert.KernelIdeal.Hand.mem_uc Cert.KernelIdeal.main_arg5 (by decide))).trans (Cert.KernelIdeal.Hand.W10_main_arg5 m c),
      (h c _ (Cert.KernelIdeal.Hand.mem_uc Cert.KernelIdeal.main_arg6 (by decide))).trans (Cert.KernelIdeal.Hand.W10_main_arg6 m c),
      (h c _ (Cert.KernelIdeal.Hand.mem_uc Cert.KernelIdeal.main_arg7 (by decide))).trans (Cert.KernelIdeal.Hand.W10_main_arg7 m c),
      (h c _ (Cert.KernelIdeal.Hand.mem_uc Cert.KernelIdeal.main_arg8 (by decide))).trans (Cert.KernelIdeal.Hand.W10_main_arg8 m c),
      (h c _ (Cert.KernelIdeal.Hand.mem_uc Cert.KernelIdeal.main_arg9 (by decide))).trans (Cert.KernelIdeal.Hand.W10_main_arg9 m c),
      (h c _ (Cert.KernelIdeal.Hand.mem_uc Cert.KernelIdeal.main_arg10 (by decide))).trans (Cert.KernelIdeal.Hand.W10_main_arg10 m c),
      (h c _ (Cert.KernelIdeal.Hand.mem_uc Cert.KernelIdeal.main_arg11 (by decide))).trans (Cert.KernelIdeal.Hand.W10_main_arg11 m c),
      (h c _ (Cert.KernelIdeal.Hand.mem_uc Cert.KernelIdeal.main_arg12 (by decide))).trans (Cert.KernelIdeal.Hand.W10_main_arg12 m c)⟩
  · refine (θ_run Cert.ReferenceIdeal.defs _ _).mono (fun r h c => ⟨(h c).1.trans ?_, (h c).2.1.trans ?_, (h c).2.2⟩)
      (Cert.ReferenceIdeal.ValueP.run (F := Ideal) m' ρ')
    · funext i
      obtain ⟨g, k, rfl⟩ : ∃ (g : Fin 512) (k : Fin 128), i = ix2 g k := ⟨i 0, i 1, eq_ix2 i⟩
      exact (Cert.ReferenceIdeal.Val.ref_emb_spec m' c g k).trans
        ((congrFun (congrFun (congrArg Cert.Spec.embR (args_eq m m' c (hagree c))) g) k).trans
          ((congrFun (congrFun (Cert.Spec.embK_eq_embR _) g) k).symm.trans (Cert.KernelIdeal.Val.kernel_emb m c g k).symm))
    · funext i
      obtain ⟨g, k, rfl⟩ : ∃ (g : Fin 512) (k : Fin 1), i = ix2 g k := ⟨i 0, i 1, eq_ix2 i⟩
      obtain rfl : k = 0 := Subsingleton.elim _ _
      exact (Cert.ReferenceIdeal.Val.ref_out_spec m' c g).trans
        ((congrFun (congrArg Cert.Spec.outR (args_eq m m' c (hagree c))) g).trans
          ((congrFun (Cert.Spec.outK_eq_outR _) g).symm.trans (Cert.KernelIdeal.Val.kernel_out m c g).symm))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
